-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S1024x256 : Shape := ⟨2, ![1024, 256]⟩
abbrev S1024 : Shape := ⟨1, ![1024]⟩
abbrev S1024x1 : Shape := ⟨2, ![1024, 1]⟩
abbrev S8192x256 : Shape := ⟨2, ![8192, 256]⟩
abbrev S8192x1 : Shape := ⟨2, ![8192, 1]⟩
abbrev S512x256 : Shape := ⟨2, ![512, 256]⟩
abbrev S512x1 : Shape := ⟨2, ![512, 1]⟩
abbrev S256x512 : Shape := ⟨2, ![256, 512]⟩
abbrev S512x512 : Shape := ⟨2, ![512, 512]⟩
abbrev S512 : Shape := ⟨1, ![512]⟩
abbrev S_ : Shape := ⟨0, ![]⟩

abbrev nBuf : Space → Nat
  | .hbm => 10
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S8192x256, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc2_scratch1 : Ref sig .tc := ⟨.vmem, 15, rfl⟩
abbrev cc2_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![16, 16], ![false, false]⟩

def k2_cond4 (i : grid2.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_14 : BitVec 32 := 0#32
  let v34 : BitVec 1 := Scalar.cmpi .ne v33 c0_i32_14
  v34

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  concatenates_S4096x256_S4096x256_S8192x256_d0 : Shape.Concatenates [S4096x256, S4096x256] S8192x256 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  reduces_S512x512_S512 : S512x512.Reduces [1] S512
  shapeCasts_S512_S512x1 : S512.ShapeCasts S512x1
  iota_S512x512_d0_w32 : S512x512.Iotas .tc 32 [0]
  iota_S512x512_d1_w32 : S512x512.Iotas .tc 32 [1]
  reducesTo_S8192x1_S_d0_1 : S8192x1.ReducesTo [0, 1] S_
  h_S_ : 0 < S_.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .bf16 = 32 ∨ (Rect.block (s := S4096x256) S1024x256.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .bf16 = 32 ∨ (Rect.block (s := S8192x256) S512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S8192x256.size a
  hwx2_1 : ∀ i : grid2.Coords, EltTy.bits .bf16 = 32 ∨ (Rect.block (s := S8192x256) S512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond4 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192x8192 : Shape := ⟨2, ![8192, 8192]⟩
abbrev S8192 : Shape := ⟨1, ![8192]⟩
abbrev S8192x1 : Shape := ⟨2, ![8192, 1]⟩
abbrev S8192x2 : Shape := ⟨2, ![8192, 2]⟩

abbrev nBuf : Space → Nat
  | .hbm => 102
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S_, .i1⟩
  | .hbm, ⟨48, _⟩ => ⟨S8192, .i1⟩
  | .hbm, ⟨49, _⟩ => ⟨S8192, .i1⟩
  | .hbm, ⟨50, _⟩ => ⟨S8192, .i1⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x1, .i32⟩
  | .hbm, ⟨70, _⟩ => ⟨S8192x2, .i32⟩
  | .hbm, ⟨71, _⟩ => ⟨S8192, .f32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .i32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S8192x1, .i32⟩
  | .hbm, ⟨87, _⟩ => ⟨S8192x1, .i32⟩
  | .hbm, ⟨88, _⟩ => ⟨S8192x2, .i32⟩
  | .hbm, ⟨89, _⟩ => ⟨S8192, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S8192, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call2_v0 : Ref sig .tc := ⟨.hbm, 33, rfl⟩
abbrev main_call2_c : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_1 : Ref sig .tc := ⟨.hbm, 40, rfl⟩
abbrev main_call2_v5 : Ref sig .tc := ⟨.hbm, 41, rfl⟩
abbrev main_call2_v6 : Ref sig .tc := ⟨.hbm, 42, rfl⟩
abbrev main_call2_c_2 : Ref sig .tc := ⟨.hbm, 43, rfl⟩
abbrev main_call2_v7 : Ref sig .tc := ⟨.hbm, 44, rfl⟩
abbrev main_call2_v8 : Ref sig .tc := ⟨.hbm, 45, rfl⟩
abbrev main_call2_c_3 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_v18 : Ref sig .tc := ⟨.hbm, 53, rfl⟩
abbrev main_c_3 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_5 : Ref sig .tc := ⟨.hbm, 61, rfl⟩
abbrev main_v24 : Ref sig .tc := ⟨.hbm, 62, rfl⟩
abbrev main_v25 : Ref sig .tc := ⟨.hbm, 63, rfl⟩
abbrev main_c_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_7 : Ref sig .tc := ⟨.hbm, 72, rfl⟩
abbrev main_v33 : Ref sig .tc := ⟨.hbm, 73, rfl⟩
abbrev main_v34 : Ref sig .tc := ⟨.hbm, 74, rfl⟩
abbrev main_c_8 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_9 : Ref sig .tc := ⟨.hbm, 79, rfl⟩
abbrev main_v38 : Ref sig .tc := ⟨.hbm, 80, rfl⟩
abbrev main_v39 : Ref sig .tc := ⟨.hbm, 81, rfl⟩
abbrev main_c_10 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_12 : Ref sig .tc := ⟨.hbm, 98, rfl⟩
abbrev main_v54 : Ref sig .tc := ⟨.hbm, 99, rfl⟩
abbrev main_cst_13 : Ref sig .tc := ⟨.hbm, 100, rfl⟩
abbrev main_v55 : Ref sig .tc := ⟨.hbm, 101, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []
  gather_S8192x8192_S8192x2_S8192_n_01_n_n_01_1_11_wf : GatherDims.WF S8192x8192 S8192x2 S8192 [] [0, 1] [] [0, 1] [] 1 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KNorm.lean ====
/-
  The two row-normalising regions, each at the buffer contents `V` it is entered from.

  A region's body reads its whole input block (1024 rows), divides every row by the larger of its norm and the
  guard, and stores the whole output block; nothing is carried between grid points. So at point `t` the input
  staging buffer holds rows 1024·t … 1024·t + 1023 of the input array, and the output staging buffer ends at the
  body's one payload of that block.
-/
import proofs.«157580_j19722489823618_1_alg».proof.Proof.Gen.KernelIdeal.Launch
import proofs.«157580_j19722489823618_1_alg».proof.Proof.Gen.KernelIdeal.Skeleton
import proofs.«157580_j19722489823618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! ## Region 0: the first input's rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 × 256 block: the one rectangle the body loads and stores through. -/
abbrev r0_0 : Rect S1024x256 := Rect.unit (s := S1024x256) ![0, 0] S1024x256.size inb_S1024x256_S1024x256_0_0

/-- What the body leaves in the output staging buffer, from the input block: its one store. -/
def out0_1 (x0 : Vec F S1024x256 .f32) : Vec F S1024x256 .bf16 :=
  View.canon [⟨r0_0, k0_pay1 (View.ld x0 r0_0)⟩]

/-- The body's one store is of the whole block: every index of the block lies under it. -/
theorem cover0_1 (p : Vec F S1024x256 .bf16) :
    ∀ y : S1024x256.Idx, ∃ pc ∈ ([⟨r0_0, p⟩] : List (View.Piece (Elt F) S1024x256 .bf16)), y ∈ pc.1.set :=
  View.cover_of_wholeMem _ (View.Piece.wholeMem_here rfl)

set_option maxHeartbeats 1000000 in
/-- The body on whole staging memrefs: the input's contents are kept, the output's become `out0_1` of them. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  rw [cc0__normalize_kernel_eq_skeleton]
  unfold cc0__normalize_kernel_skel owns
  iintro ⟨⟨%g, %hg, Hin⟩, ⟨%d, %h, %hh, Hout⟩, Hk⟩
  subst hg
  -- the two loads and the store; then the return
  sl_exec
  sl_step
  iapply Hk
  isplitl [Hin]
  · iexists g
    isplitr [Hin]
    · ipureintro; rfl
    · iexact Hin
  · iexists _
    isplitr [Hout]
    rotate_left
    · iexact Hout
    · -- the one whole-block store over whatever the buffer held reads as the store's payload
      ipureintro
      exact View.read_writes_eq_canon _ _ _ (cover0_1 _)

/-- The proof data of pipeline 0 on core `c`: the arrays as found; after the body the input's buffer at its
    block, the output's at `out0_1` of it; nothing carried, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's staging buffer holds the input's block at every point, fetched there or not: the body leaves the
    block in place, the window is cut nowhere and idle nowhere, and where the pipeline does not fetch the block
    index has not moved. -/
theorem before0_0 (c : Dev nD) (t : Fin cfg0.N) (d) : (dat0 V c).before 0 t d = iblk0 V c 0 t := by
  have hkeep : ∀ t', (cfg0.win 0).cut (cfg0.grid.coords t') ((dat0 V c).after 0 t') = (dat0 V c).blockOf 0 t' := fun t' => by
    rw [after0_0]; rfl
  rw [(dat0 V c).before_in_eq_fetched 0 rfl (fun _ => rfl) (fun _ _ _ => rfl) hkeep t d]
  rfl

/-- The body obligation of pipeline 0, at every point. -/
theorem body_obligation0 (c : Dev nD) : BodyObligation (dat0 (F := F) V c) (defs₀ (F := F)) Variants.none () Set.univ := by
  intro t
  rw [bigSep_W0, bigSep_W0]
  -- no window is forgotten or idle; the invariant and what is owed do not depend on the point
  change iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t))
  simp only [before0_0, after0_0, after0_1]
  iintro ⟨HΦ, Ho, ⟨%d0, Hin⟩, ⟨%d1, Hout⟩⟩
  -- the input's buffer holds its block, the output's anything: the body's triple, the rest passing through
  iapply (sound_kernel0 c Set.univ _ _ _ _ _ (iblk0 V c 0 t) _)
  iframe Hin
  isplitl [Hout]
  · iexists _; iexact Hout
  iintro ⟨Hin, Hout⟩
  iframe

/-! ## Region 1: the second input's rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_1 (x0 : Vec F S1024x256 .f32) : Vec F S1024x256 .bf16 :=
  View.canon [⟨r0_0, k1_pay1 (View.ld x0 r0_0)⟩]

set_option maxHeartbeats 1000000 in
theorem sound_kernel1 (c : Dev nD) (E : Set ℕ) (i : grid1.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  rw [cc1__normalize_kernel_eq_skeleton]
  unfold cc1__normalize_kernel_skel owns
  iintro ⟨⟨%g, %hg, Hin⟩, ⟨%d, %h, %hh, Hout⟩, Hk⟩
  subst hg
  -- the two loads and the store; then the return
  sl_exec
  sl_step
  iapply Hk
  isplitl [Hin]
  · iexists g
    isplitr [Hin]
    · ipureintro; rfl
    · iexact Hin
  · iexists _
    isplitr [Hout]
    rotate_left
    · iexact Hout
    · -- the one whole-block store over whatever the buffer held reads as the store's payload
      ipureintro
      exact View.read_writes_eq_canon _ _ _ (cover0_1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- As in region 0: the input's staging buffer holds the input's block at every point, fetched there or not: the body leaves the
    block in place, the window is cut nowhere and idle nowhere, and where the pipeline does not fetch the block
    index has not moved. -/
theorem before1_0 (c : Dev nD) (t : Fin cfg1.N) (d) : (dat1 V c).before 0 t d = iblk1 V c 0 t := by
  have hkeep : ∀ t', (cfg1.win 0).cut (cfg1.grid.coords t') ((dat1 V c).after 0 t') = (dat1 V c).blockOf 0 t' := fun t' => by
    rw [after1_0]; rfl
  rw [(dat1 V c).before_in_eq_fetched 0 rfl (fun _ => rfl) (fun _ _ _ => rfl) hkeep t d]
  rfl

theorem body_obligation1 (c : Dev nD) : BodyObligation (dat1 (F := F) V c) (defs₀ (F := F)) Variants.none () Set.univ := by
  intro t
  rw [bigSep_W1, bigSep_W1]
  -- no window is forgotten or idle; the invariant and what is owed do not depend on the point
  change iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d)))
    ⊢ wp frame (wpE (defs₀ (F := F)) Variants.none c none) Set.univ (bodyAt1 t) fun _ =>
      iprop((dat1 V c).Φ t.castSucc ∗ (dat1 V c).owesAt () t.castSucc
        ∗ owns (c : Thread nD τ) (st1_0 t) fullShare ((dat1 V c).after 0 t)
        ∗ owns (c : Thread nD τ) (st1_1 t) fullShare ((dat1 V c).after 1 t))
  simp only [before1_0, after1_0, after1_1]
  iintro ⟨HΦ, Ho, ⟨%d0, Hin⟩, ⟨%d1, Hout⟩⟩
  -- the input's buffer holds its block, the output's anything: the body's triple, the rest passing through
  iapply (sound_kernel1 c Set.univ _ _ _ _ _ (iblk1 V c 0 t) _)
  iframe Hin
  isplitl [Hout]
  · iexists _; iexact Hout
  iintro ⟨Hin, Hout⟩
  iframe

end Regions

end Cert.KernelIdeal.Hand

end
-- ==== Proof.KSim.lean ====
/-
  The similarity region at the buffer contents `V` it is entered from: a 16 × 16 grid of points `(i, j)`, point
  number `16·i + j`. At a point the body reads row block `i` and column block `j` of the stacked array, forms the
  512 × 512 tile of exponentiated similarities, and keeps three 512 × 1 columns in scratch across the points of a
  row: the running row sum (reset at `j = 0`, the tile's row sums added at every point), the tile's diagonal
  (stored at `j = i`) and again the tile's diagonal at the mirror column block `j = (i + 8) mod 16`. At `j = 15` it
  stores the row block's losses into the output staging buffer, which is written back there and idle elsewhere.
-/
import proofs.«157580_j19722489823618_1_alg».proof.Proof.Gen.KernelIdeal.Launch
import proofs.«157580_j19722489823618_1_alg».proof.Proof.Gen.KernelIdeal.Skeleton
import proofs.«157580_j19722489823618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Mathlib.Tactic.IntervalCases
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block and the column block at point `t`, at their literal type. -/
abbrev zrow (c : Dev nD) (t : Fin cfg2.N) : Vec F S512x256 .bf16 := iblk2 V c 0 t
abbrev zcol (c : Dev nD) (t : Fin cfg2.N) : Vec F S512x256 .bf16 := iblk2 V c 1 t

/-! ## One point, as pure functions of the two blocks and the scratch columns found -/

/-- The running row sum after the point: the tile's row sums added to what was found, or to zero at `j = 0`. -/
def sc0Step (i : grid2.Coords) (x0 x1 : Vec F S512x256 .bf16) (s0 : Vec F S512x1 .f32) : Vec F S512x1 .f32 :=
  k2_pay6 x0 x1 (if (i 1).val = 0 then k2_pay2 else s0)
/-- The diagonal column after the point: the tile's diagonal at `j = i`, else zero at `j = 0`, else as found. -/
def sc1Step (i : grid2.Coords) (x0 x1 : Vec F S512x256 .bf16) (s1 : Vec F S512x1 .f32) : Vec F S512x1 .f32 :=
  if (i 1).val = (i 0).val then k2_pay8 x0 x1 else if (i 1).val = 0 then k2_pay3 else s1
/-- The positive-pair column after the point: the tile's diagonal at `j = (i + 8) mod 16`, else zero at `j = 0`, else as found. -/
def sc2Step (i : grid2.Coords) (x0 x1 : Vec F S512x256 .bf16) (s2 : Vec F S512x1 .f32) : Vec F S512x1 .f32 :=
  if (i 1).val = ((i 0).val + 8) % 16 then k2_pay9 x0 x1 else if (i 1).val = 0 then k2_pay4 else s2
/-- The losses the body stores at `j = 15`, from the three columns as the point leaves them. -/
def outStep (i : grid2.Coords) (x0 x1 : Vec F S512x256 .bf16) (s0 s1 s2 : Vec F S512x1 .f32) : Vec F S512x1 .f32 :=
  k2_pay1 (sc2Step i x0 x1 s2) (sc1Step i x0 x1 s1) (sc0Step i x0 x1 s0)

/-- Both grid coordinates are below 16. -/
theorem coord0_lt (i : grid2.Coords) : (i 0).val < 16 := (i 0).isLt
theorem coord1_lt (i : grid2.Coords) : (i 1).val < 16 := (i 1).isLt

/-- The four branch conditions of the body, as the body computes them from the grid coordinates. -/
abbrev resetCond (i : grid2.Coords) : Prop :=
  (Scalar.cmpi .ne (Scalar.extui (Scalar.cmpi .eq (BitVec.ofNat 32 (i 1).val) 0#32)) 0#32) = 1#1
abbrev diagCond (i : grid2.Coords) : Prop :=
  (Scalar.cmpi .ne (Scalar.extui (Scalar.cmpi .eq (BitVec.ofNat 32 (i 1).val) (BitVec.ofNat 32 (i 0).val))) 0#32) = 1#1
abbrev mirrorCond (i : grid2.Coords) : Prop :=
  (Scalar.cmpi .ne (Scalar.extui (Scalar.cmpi .eq (BitVec.ofNat 32 (i 1).val)
      (Scalar.select (Scalar.cmpi .slt (BitVec.ofNat 32 (i 0).val) 8#32) (Scalar.addi (BitVec.ofNat 32 (i 0).val) 8#32)
        (Scalar.subi (BitVec.ofNat 32 (i 0).val) 8#32)))) 0#32) = 1#1
abbrev closeCond (i : grid2.Coords) : Prop := k2_cond4 i = 1#1

/-- The reset condition holds exactly at column block 0. -/
theorem resetCond_iff (i : grid2.Coords) : resetCond i ↔ (i 1).val = 0 := by
  have h1 := coord1_lt i
  unfold resetCond
  generalize (i 1).val = b at h1 ⊢
  interval_cases b <;> decide

/-- The diagonal condition holds exactly where the column block is the row block. -/
theorem diagCond_iff (i : grid2.Coords) : diagCond i ↔ (i 1).val = (i 0).val := by
  have h0 := coord0_lt i
  have h1 := coord1_lt i
  unfold diagCond
  generalize (i 0).val = a at h0 ⊢
  generalize (i 1).val = b at h1 ⊢
  interval_cases a <;> interval_cases b <;> decide

/-- The mirror condition holds exactly where the column block is the row block moved half way round. -/
theorem mirrorCond_iff (i : grid2.Coords) : mirrorCond i ↔ (i 1).val = ((i 0).val + 8) % 16 := by
  have h0 := coord0_lt i
  have h1 := coord1_lt i
  unfold mirrorCond
  generalize (i 0).val = a at h0 ⊢
  generalize (i 1).val = b at h1 ⊢
  interval_cases a <;> interval_cases b <;> decide

/-- The closing condition holds exactly at the last column block. -/
theorem closeCond_iff (i : grid2.Coords) : closeCond i ↔ (i 1).val = 15 := by
  unfold closeCond k2_cond4
  have h1 := coord1_lt i
  generalize (i 1).val = b at h1 ⊢
  interval_cases b <;> decide

/-- The zero offsets of a rank-2 shape, as the body's loads and stores spell them. -/
theorem zeroOffsets2 : (![0, 0] : Fin 2 → Nat) = fun _ => 0 := funext fun a => by fin_cases a <;> rfl

/-- A store through the whole shape, made last, is what the buffer then reads as, whatever was stored before. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

set_option hygiene false in
/-- What a buffer reads as after the run: as it was found where nothing was stored, else the last payload stored, each
    payload over the blocks and columns as found (a load through the whole shape reads the contents; a load after a
    whole-shape store reads that store's payload). -/
local macro "read_back" : tactic => `(tactic| (
  sl_unfold_run_names
  simp only [read_writes_whole_last (S := S512x1) _ _ zeroOffsets2, View.readAt_eq_ld, Memref.IsWhole.read_unread,
    View.ld_unit_zero (S := S512x256) zeroOffsets2, View.ld_unit_zero (S := S512x1) zeroOffsets2,
    View.readCov_unit_zero (S := S512x1) _ zeroOffsets2, Memref.view_whole, View.read_whole]
  first | done | rfl))

set_option hygiene false in
/-- One run of the body with its four conditionals decided by `h1 … h4`: the six buffers opened at their contents, the
    body run to its return, and each buffer handed to the continuation at what it then reads as. -/
local macro "body_run" : tactic => `(tactic| (
  simp only [cc2__ntxent_kernel_eq_skeleton]; unfold cc2__ntxent_kernel_skel
  unfold owns
  iintro ⟨⟨%f0, %hf0, H0⟩, ⟨%f1, %hf1, H1⟩, ⟨%f4, %hf4, H4⟩, ⟨%g0, %hg0, S0⟩, ⟨%g1, %hg1, S1⟩, ⟨%g2, %hg2, S2⟩, Hk⟩
  obtain rfl := harg2.eq_unread hf0; obtain rfl := harg3.eq_unread hf1; obtain rfl := harg4.eq_unread hf4
  obtain rfl : s0 = g0 := hg0.symm
  obtain rfl : s1 = g1 := hg1.symm
  obtain rfl : s2 = g2 := hg2.symm
  sl_exec (disch := first | exact h1 | exact h2 | exact h3 | exact h4)
  sl_step
  iapply Hk
  isplitl [H0]
  · iexists _; isplitr
    rotate_left
    · iexact H0
    · ipureintro; read_back
  isplitl [H1]
  · iexists _; isplitr
    rotate_left
    · iexact H1
    · ipureintro; read_back
  isplitl [H4]
  · iexists _; isplitr
    rotate_left
    · iexact H4
    · ipureintro; read_back
  isplitl [S0]
  · iexists _; isplitr
    rotate_left
    · iexact S0
    · ipureintro; read_back
  isplitl [S1]
  · iexists _; isplitr
    rotate_left
    · iexact S1
    · ipureintro; read_back
  iexists _; isplitr
  rotate_left
  · iexact S2
  · ipureintro; read_back))

set_option maxHeartbeats 4000000 in
/-- Away from column block 0, the diagonal, the mirror and the last column block: only the row sums are added. -/
theorem body_plain (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : ¬resetCond i) (h2 : ¬diagCond i) (h3 : ¬mirrorCond i) (h4 : ¬closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare d4
              ∗ owns (c : Thread nD τ) (Memref.whole cc2_scratch0) fullShare (k2_pay6 x0 x1 s0)
              ∗ owns (c : Thread nD τ) (Memref.whole cc2_scratch1) fullShare s1
              ∗ owns (c : Thread nD τ) (Memref.whole cc2_scratch2) fullShare (s2)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- On the diagonal, away from column blocks 0 and 15: the row sums are added and the tile's diagonal is kept. -/
theorem body_diag (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : ¬resetCond i) (h2 : diagCond i) (h3 : ¬mirrorCond i) (h4 : ¬closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare d4
              ∗ owns (c : Thread nD τ) (Memref.whole cc2_scratch0) fullShare (k2_pay6 x0 x1 s0)
              ∗ owns (c : Thread nD τ) (Memref.whole cc2_scratch1) fullShare (k2_pay8 x0 x1)
              ∗ owns (c : Thread nD τ) (Memref.whole cc2_scratch2) fullShare (s2)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- At the mirror column block, away from column blocks 0 and 15: the row sums are added and the positive-pair column is kept. -/
theorem body_mirror (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : ¬resetCond i) (h2 : ¬diagCond i) (h3 : mirrorCond i) (h4 : ¬closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare d4
              ∗ owns (c : Thread nD τ) (Memref.whole cc2_scratch0) fullShare (k2_pay6 x0 x1 s0)
              ∗ owns (c : Thread nD τ) (Memref.whole cc2_scratch1) fullShare s1
              ∗ owns (c : Thread nD τ) (Memref.whole cc2_scratch2) fullShare (k2_pay9 x0 x1)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- At column block 0, off the diagonal and the mirror: the three columns are reset and the row sums added to zero. -/
theorem body_first (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : resetCond i) (h2 : ¬diagCond i) (h3 : ¬mirrorCond i) (h4 : ¬closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare d4
              ∗ owns (c : Thread nD τ) (Memref.whole cc2_scratch0) fullShare (k2_pay6 x0 x1 k2_pay2)
              ∗ owns (c : Thread nD τ) (Memref.whole cc2_scratch1) fullShare (k2_pay3)
              ∗ owns (c : Thread nD τ) (Memref.whole cc2_scratch2) fullShare (k2_pay4)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- At column block 0 on the diagonal (row block 0): reset, row sums added to zero, the tile's diagonal kept. -/
theorem body_first_diag (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : resetCond i) (h2 : diagCond i) (h3 : ¬mirrorCond i) (h4 : ¬closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare d4
              ∗ owns (c : Thread nD τ) (Memref.whole cc2_scratch0) fullShare (k2_pay6 x0 x1 k2_pay2)
              ∗ owns (c : Thread nD τ) (Memref.whole cc2_scratch1) fullShare (k2_pay8 x0 x1)
              ∗ owns (c : Thread nD τ) (Memref.whole cc2_scratch2) fullShare (k2_pay4)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- At column block 0 when it is the mirror (row block 8): reset, row sums added to zero, the positive-pair column kept. -/
theorem body_first_mirror (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : resetCond i) (h2 : ¬diagCond i) (h3 : mirrorCond i) (h4 : ¬closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare d4
              ∗ owns (c : Thread nD τ) (Memref.whole cc2_scratch0) fullShare (k2_pay6 x0 x1 k2_pay2)
              ∗ owns (c : Thread nD τ) (Memref.whole cc2_scratch1) fullShare (k2_pay3)
              ∗ owns (c : Thread nD τ) (Memref.whole cc2_scratch2) fullShare (k2_pay9 x0 x1)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- At column block 15, off the diagonal and the mirror: the row sums are added and the losses stored. -/
theorem body_last (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : ¬resetCond i) (h2 : ¬diagCond i) (h3 : ¬mirrorCond i) (h4 : closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare (k2_pay1 s2 s1 (k2_pay6 x0 x1 s0))
              ∗ owns (c : Thread nD τ) (Memref.whole cc2_scratch0) fullShare (k2_pay6 x0 x1 s0)
              ∗ owns (c : Thread nD τ) (Memref.whole cc2_scratch1) fullShare s1
              ∗ owns (c : Thread nD τ) (Memref.whole cc2_scratch2) fullShare (s2)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- At column block 15 on the diagonal (row block 15): row sums added, diagonal kept, losses stored. -/
theorem body_last_diag (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : ¬resetCond i) (h2 : diagCond i) (h3 : ¬mirrorCond i) (h4 : closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare (k2_pay1 s2 (k2_pay8 x0 x1) (k2_pay6 x0 x1 s0))
              ∗ owns (c : Thread nD τ) (Memref.whole cc2_scratch0) fullShare (k2_pay6 x0 x1 s0)
              ∗ owns (c : Thread nD τ) (Memref.whole cc2_scratch1) fullShare (k2_pay8 x0 x1)
              ∗ owns (c : Thread nD τ) (Memref.whole cc2_scratch2) fullShare (s2)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

set_option maxHeartbeats 4000000 in
/-- At column block 15 when it is the mirror (row block 7): row sums added, positive-pair column kept, losses stored. -/
theorem body_last_mirror (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (h1 : ¬resetCond i) (h2 : ¬diagCond i) (h3 : mirrorCond i) (h4 : closeCond i)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare (k2_pay1 (k2_pay9 x0 x1) s1 (k2_pay6 x0 x1 s0))
              ∗ owns (c : Thread nD τ) (Memref.whole cc2_scratch0) fullShare (k2_pay6 x0 x1 s0)
              ∗ owns (c : Thread nD τ) (Memref.whole cc2_scratch1) fullShare s1
              ∗ owns (c : Thread nD τ) (Memref.whole cc2_scratch2) fullShare (k2_pay9 x0 x1)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  body_run

/-- The body on whole staging memrefs and the three scratch buffers, at ANY contents of the scratch: the inputs are
    kept, each scratch column ends at its step, and the output buffer ends at the losses when `j = 15` and is left as
    found otherwise. -/
theorem sound_kernel2 (c : Dev nD) (E : Set ℕ) (i : grid2.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole)
    (x0 x1 : Vec F S512x256 .bf16) (d4 s0 s1 s2 : Vec F S512x1 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) arg2 fullShare x0 ∗ owns (c : Thread nD τ) arg3 fullShare x1
              ∗ owns (c : Thread nD τ) arg4 fullShare (if (i 1).val = 15 then outStep i x0 x1 s0 s1 s2 else d4)
              ∗ owns (c : Thread nD τ) (Memref.whole cc2_scratch0) fullShare (sc0Step i x0 x1 s0)
              ∗ owns (c : Thread nD τ) (Memref.whole cc2_scratch1) fullShare (sc1Step i x0 x1 s1)
              ∗ owns (c : Thread nD τ) (Memref.whole cc2_scratch2) fullShare (sc2Step i x0 x1 s2)) -∗ K ⟨⟩))
      ⊢ wp frame (wpE (defs₀ (F := F)) Variants.none c none) E
          (cc2__ntxent_kernel i arg2 harg2 arg3 harg3 arg4 harg4 (Memref.whole cc2_scratch0) (Memref.isWhole_whole _)
            (Memref.whole cc2_scratch1) (Memref.isWhole_whole _) (Memref.whole cc2_scratch2) (Memref.isWhole_whole _)) K := by
  have l0 := coord0_lt i
  have l1 := coord1_lt i
  by_cases a1 : (i 1).val = 0
  · have a4 : ¬(i 1).val = 15 := by omega
    by_cases a2 : (i 1).val = (i 0).val
    · have a3 : ¬(i 1).val = ((i 0).val + 8) % 16 := by omega
      simp only [outStep, sc0Step, sc1Step, sc2Step, if_pos a1, if_pos a2, if_neg a3, if_neg a4]
      exact body_first_diag c E i arg2 harg2 arg3 harg3 arg4 harg4 ((resetCond_iff i).mpr a1) ((diagCond_iff i).mpr a2) (mt (mirrorCond_iff i).mp a3) (mt (closeCond_iff i).mp a4) x0 x1 d4 s0 s1 s2 K
    · by_cases a3 : (i 1).val = ((i 0).val + 8) % 16
      · simp only [outStep, sc0Step, sc1Step, sc2Step, if_pos a1, if_neg a2, if_pos a3, if_neg a4]
        exact body_first_mirror c E i arg2 harg2 arg3 harg3 arg4 harg4 ((resetCond_iff i).mpr a1) (mt (diagCond_iff i).mp a2) ((mirrorCond_iff i).mpr a3) (mt (closeCond_iff i).mp a4) x0 x1 d4 s0 s1 s2 K
      · simp only [outStep, sc0Step, sc1Step, sc2Step, if_pos a1, if_neg a2, if_neg a3, if_neg a4]
        exact body_first c E i arg2 harg2 arg3 harg3 arg4 harg4 ((resetCond_iff i).mpr a1) (mt (diagCond_iff i).mp a2) (mt (mirrorCond_iff i).mp a3) (mt (closeCond_iff i).mp a4) x0 x1 d4 s0 s1 s2 K
  · by_cases a4 : (i 1).val = 15
    · by_cases a2 : (i 1).val = (i 0).val
      · have a3 : ¬(i 1).val = ((i 0).val + 8) % 16 := by omega
        simp only [outStep, sc0Step, sc1Step, sc2Step, if_neg a1, if_pos a2, if_neg a3, if_pos a4]
        exact body_last_diag c E i arg2 harg2 arg3 harg3 arg4 harg4 (mt (resetCond_iff i).mp a1) ((diagCond_iff i).mpr a2) (mt (mirrorCond_iff i).mp a3) ((closeCond_iff i).mpr a4) x0 x1 d4 s0 s1 s2 K
      · by_cases a3 : (i 1).val = ((i 0).val + 8) % 16
        · simp only [outStep, sc0Step, sc1Step, sc2Step, if_neg a1, if_neg a2, if_pos a3, if_pos a4]
          exact body_last_mirror c E i arg2 harg2 arg3 harg3 arg4 harg4 (mt (resetCond_iff i).mp a1) (mt (diagCond_iff i).mp a2) ((mirrorCond_iff i).mpr a3) ((closeCond_iff i).mpr a4) x0 x1 d4 s0 s1 s2 K
        · simp only [outStep, sc0Step, sc1Step, sc2Step, if_neg a1, if_neg a2, if_neg a3, if_pos a4]
          exact body_last c E i arg2 harg2 arg3 harg3 arg4 harg4 (mt (resetCond_iff i).mp a1) (mt (diagCond_iff i).mp a2) (mt (mirrorCond_iff i).mp a3) ((closeCond_iff i).mpr a4) x0 x1 d4 s0 s1 s2 K
    · by_cases a2 : (i 1).val = (i 0).val
      · have a3 : ¬(i 1).val = ((i 0).val + 8) % 16 := by omega
        simp only [outStep, sc0Step, sc1Step, sc2Step, if_neg a1, if_pos a2, if_neg a3, if_neg a4]
        exact body_diag c E i arg2 harg2 arg3 harg3 arg4 harg4 (mt (resetCond_iff i).mp a1) ((diagCond_iff i).mpr a2) (mt (mirrorCond_iff i).mp a3) (mt (closeCond_iff i).mp a4) x0 x1 d4 s0 s1 s2 K
      · by_cases a3 : (i 1).val = ((i 0).val + 8) % 16
        · simp only [outStep, sc0Step, sc1Step, sc2Step, if_neg a1, if_neg a2, if_pos a3, if_neg a4]
          exact body_mirror c E i arg2 harg2 arg3 harg3 arg4 harg4 (mt (resetCond_iff i).mp a1) (mt (diagCond_iff i).mp a2) ((mirrorCond_iff i).mpr a3) (mt (closeCond_iff i).mp a4) x0 x1 d4 s0 s1 s2 K
        · simp only [outStep, sc0Step, sc1Step, sc2Step, if_neg a1, if_neg a2, if_neg a3, if_neg a4]
          exact body_plain c E i arg2 harg2 arg3 harg3 arg4 harg4 (mt (resetCond_iff i).mp a1) (mt (diagCond_iff i).mp a2) (mt (mirrorCond_iff i).mp a3) (mt (closeCond_iff i).mp a4) x0 x1 d4 s0 s1 s2 K

/-! ## The scratch columns after each point -/

/-- Point number `n` (read modulo the 256 points). -/
def pt2 (n : ℕ) : Fin cfg2.N := ⟨n % 256, lt_of_lt_of_eq (Nat.mod_lt _ (by decide)) N_2.symm⟩

/-- The three scratch columns after point `n`: the steps folded from point 0 (where `j = 0` resets all three, so
    what the recursion starts from is immaterial). -/
def scAt (c : Dev nD) : ℕ → Vec F S512x1 .f32 × Vec F S512x1 .f32 × Vec F S512x1 .f32
  | 0 => (sc0Step (grid2.coords (pt2 0)) (zrow V c (pt2 0)) (zcol V c (pt2 0)) k2_pay2,
          sc1Step (grid2.coords (pt2 0)) (zrow V c (pt2 0)) (zcol V c (pt2 0)) k2_pay3,
          sc2Step (grid2.coords (pt2 0)) (zrow V c (pt2 0)) (zcol V c (pt2 0)) k2_pay4)
  | n + 1 => (sc0Step (grid2.coords (pt2 (n + 1))) (zrow V c (pt2 (n + 1))) (zcol V c (pt2 (n + 1))) (scAt c n).1,
              sc1Step (grid2.coords (pt2 (n + 1))) (zrow V c (pt2 (n + 1))) (zcol V c (pt2 (n + 1))) (scAt c n).2.1,
              sc2Step (grid2.coords (pt2 (n + 1))) (zrow V c (pt2 (n + 1))) (zcol V c (pt2 (n + 1))) (scAt c n).2.2)

/-- The losses of the three columns after point `t`: what the output staging buffer holds after a point with `j = 15`. -/
def outAt (c : Dev nD) (t : Fin cfg2.N) : Vec F S512x1 .f32 :=
  k2_pay1 (scAt V c t.val).2.2 (scAt V c t.val).2.1 (scAt V c t.val).1

/-! ## The invariant and the proof data -/

/-- The core's scoped buffers this region never touches, each whole at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's invariant before point `n`: the untouched scoped buffers, the generator register at some state,
    and the three scratch buffers — at anything before the first point, at `scAt (n - 1)` afterwards. -/
def Phi2 (c : Dev nD) (n : ℕ) : sProp 𝕄 :=
  iprop(rest2 (F := F) c ∗ (∃ r, prngReg c r)
    ∗ ∃ s0 s1 s2 : Vec F S512x1 .f32, ⌜n ≠ 0 → (s0, s1, s2) = scAt V c (n - 1)⌝
        ∗ owns (c : Thread nD τ) (Memref.whole cc2_scratch0) fullShare s0
        ∗ owns (c : Thread nD τ) (Memref.whole cc2_scratch1) fullShare s1
        ∗ owns (c : Thread nD τ) (Memref.whole cc2_scratch2) fullShare s2)

/-- The proof data of pipeline 2 on core `c`: the arrays as found; after the body each input's buffer at its block
    and the output's at `outAt`; the invariant `Phi2`; nothing owed; the stacked array, which both input windows
    read, held half by each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt V c t
  Φ t := Phi2 V c t.val
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt V c t := by dsimp only [dat2]

/-- What the launch hands the region is the invariant before the first point. -/
theorem hin2 (c : Dev nD) : (Pipeline.ΦA spec2 c : sProp 𝕄) ⊢ (dat2 V c).Φ 0 := by
  rw [show (dat2 V c).Φ 0 = Phi2 V c 0 from rfl]
  unfold Pipeline.ΦA Phi2 rest2; rw [scopedRest2_eq]
  simp only [owns_whole]
  iintro ⟨⟨H1, H2, H3, H4, H5, H6, H7, H8, ⟨%f0, S0⟩, ⟨%f1, S1⟩, ⟨%f2, S2⟩⟩, Hg⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hg]; · iexact Hg
  iexists f0, f1, f2
  isplitr; · ipureintro; intro h; exact absurd rfl h
  isplitl [S0]; · iexact S0
  isplitl [S1]; · iexact S1
  iexact S2
/-- The invariant after the last point gives it back. -/
theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val from rfl]
  unfold Pipeline.ΦA Phi2 rest2; rw [scopedRest2_eq]
  simp only [owns_whole]
  iintro ⟨⟨H1, H2, H3, H4, H5, H6, H7, H8⟩, Hg, ⟨%s0, %s1, %s2, -, S0, S1, S2⟩⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexists s0; iexact S0
    isplitl [S1]; · iexists s1; iexact S1
    iexists s2; iexact S2
  iexact Hg

/-! ## The points of the grid -/

/-- Point number `t` has row block `t / 16` and column block `t % 16`. -/
theorem coords2 : ∀ t : Fin cfg2.N, (grid2.coords t 0).val = t.val / 16 ∧ (grid2.coords t 1).val = t.val % 16 :=
  (by decide +kernel : ∀ t : Fin grid2.N, (grid2.coords t 0).val = t.val / 16 ∧ (grid2.coords t 1).val = t.val % 16)
/-- The output is idle at the points whose column block is not the last, -/
theorem idleAt2_2 : ∀ t : Fin cfg2.N, t.val % 16 ≠ 15 → cfg2.idle 2 (grid2.coords t) = true :=
  (by decide +kernel : ∀ t : Fin grid2.N, t.val % 16 ≠ 15 → idle2 2 (grid2.coords t) = true)
/-- and live at the others. -/
theorem liveAt2_2 : ∀ t : Fin cfg2.N, t.val % 16 = 15 → cfg2.idle 2 (grid2.coords t) = false :=
  (by decide +kernel : ∀ t : Fin grid2.N, t.val % 16 = 15 → idle2 2 (grid2.coords t) = false)

/-- A point is its own number. -/
theorem pt2_val (t : Fin cfg2.N) : pt2 t.val = t :=
  Fin.ext (Nat.mod_eq_of_lt (lt_of_lt_of_eq t.isLt N_2))

/-! ## What the body finds in the input windows -/

/-- The row block's buffer holds the row block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- The column block's buffer holds the column block. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The scratch columns from point to point -/

/-- One step from what the invariant names before point `t` gives what it names after it. -/
theorem scStep_eq (c : Dev nD) (t : Fin cfg2.N) (s0 s1 s2 : Vec F S512x1 .f32)
    (h : t.val ≠ 0 → (s0, s1, s2) = scAt V c (t.val - 1)) :
    (sc0Step (grid2.coords t) (zrow V c t) (zcol V c t) s0, sc1Step (grid2.coords t) (zrow V c t) (zcol V c t) s1,
      sc2Step (grid2.coords t) (zrow V c t) (zcol V c t) s2) = scAt V c t.val := by
  have ht := pt2_val t
  cases hv : t.val with
  | zero =>
    rw [hv] at ht
    have hj0 : (grid2.coords t 1).val = 0 := by rw [(coords2 t).2, hv]
    rw [scAt, ht]
    simp only [sc0Step, sc1Step, sc2Step, if_pos hj0]
  | succ n =>
    rw [hv] at ht
    have hs := h (by rw [hv]; exact Nat.succ_ne_zero n)
    rw [hv, Nat.add_sub_cancel] at hs
    rw [scAt, ht, ← hs]

/-- At the last column block the stored losses are the losses of the columns after the point. -/
theorem outStep_eq (c : Dev nD) (t : Fin cfg2.N) (s0 s1 s2 : Vec F S512x1 .f32)
    (h : t.val ≠ 0 → (s0, s1, s2) = scAt V c (t.val - 1)) :
    outStep (grid2.coords t) (zrow V c t) (zcol V c t) s0 s1 s2 = outAt V c t := by
  unfold outStep outAt; rw [← scStep_eq V c t s0 s1 s2 h]

/-! ## The body obligation -/

/-- The resources the body starts from at point `t`: the invariant, what the core owes, and each window's current
    buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d)))

/-- The resources it ends with: the invariant at the next point, what the core owes, and each window's buffer at what
    the body leaves there. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

/-- The body at point `t`, from scratch columns the invariant names: the inputs are kept, the scratch columns end at
    what the invariant names after the point, and the output buffer ends at the losses when the column block is the
    last and is left as found otherwise. -/
theorem sound_point2 (c : Dev nD) (t : Fin cfg2.N) (d4 s0 s1 s2 : Vec F S512x1 .f32)
    (hs : t.val ≠ 0 → (s0, s1, s2) = scAt V c (t.val - 1)) (K : PUnit → sProp 𝕄) :
    iprop(owns (c : Thread nD τ) (win2_0.stage (cfg2.slots t 0)) fullShare (zrow V c t)
        ∗ owns (c : Thread nD τ) (win2_1.stage (cfg2.slots t 1)) fullShare (zcol V c t)
        ∗ owns (c : Thread nD τ) (win2_2.stage (cfg2.slots t 2)) fullShare d4
        ∗ owns (c : Thread nD τ) (Memref.whole cc2_scratch0) fullShare s0 ∗ owns (c : Thread nD τ) (Memref.whole cc2_scratch1) fullShare s1
        ∗ owns (c : Thread nD τ) (Memref.whole cc2_scratch2) fullShare s2
        ∗ (iprop(owns (c : Thread nD τ) (win2_0.stage (cfg2.slots t 0)) fullShare (zrow V c t)
              ∗ owns (c : Thread nD τ) (win2_1.stage (cfg2.slots t 1)) fullShare (zcol V c t)
              ∗ owns (c : Thread nD τ) (win2_2.stage (cfg2.slots t 2)) fullShare (if t.val % 16 = 15 then outAt V c t else d4)
              ∗ owns (c : Thread nD τ) (Memref.whole cc2_scratch0) fullShare (scAt V c t.val).1
              ∗ owns (c : Thread nD τ) (Memref.whole cc2_scratch1) fullShare (scAt V c t.val).2.1
              ∗ owns (c : Thread nD τ) (Memref.whole cc2_scratch2) fullShare (scAt V c t.val).2.2) -∗ K ⟨⟩))
      ⊢ wp frame (wpE (defs₀ (F := F)) Variants.none c none) Set.univ (bodyAt2 t) K := by
  have hk := sound_kernel2 c Set.univ (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2)) (zrow V c t) (zcol V c t) d4 s0 s1 s2 K
  have e := scStep_eq V c t s0 s1 s2 hs
  rw [outStep_eq V c t s0 s1 s2 hs, show sc0Step (grid2.coords t) (zrow V c t) (zcol V c t) s0 = (scAt V c t.val).1 from congrArg Prod.fst e,
    show sc1Step (grid2.coords t) (zrow V c t) (zcol V c t) s1 = (scAt V c t.val).2.1 from congrArg (fun p => p.2.1) e,
    show sc2Step (grid2.coords t) (zrow V c t) (zcol V c t) s2 = (scAt V c t.val).2.2 from congrArg (fun p => p.2.2) e,
    (coords2 t).2] at hk
  exact hk

/-- The body at any point: both input buffers hold their blocks; the invariant hands over the three scratch columns,
    which one step carries to what the invariant names at the next point; the output buffer ends at the losses when
    the column block is the last and is handed back as found otherwise; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1]
  rw [show (dat2 V c).owesAt () t.succ = (dat2 V c).owesAt () t.castSucc from rfl]
  rw [show (dat2 V c).Φ t.castSucc = Phi2 V c t.val from rfl, show (dat2 V c).Φ t.succ = Phi2 V c (t.val + 1) from rfl]
  rw [show (dat2 V c).leavesExact 0 t = owns (c : Thread nD τ) (win2_0.stage (cfg2.slots t 0)) fullShare (iblk2 V c 0 t) from by
    unfold Dat.leavesExact; rw [show cfg2.idle 0 (cfg2.grid.coords t) = false from rfl, after2_0]]
  rw [show (dat2 V c).leavesExact 1 t = owns (c : Thread nD τ) (win2_1.stage (cfg2.slots t 1)) fullShare (iblk2 V c 1 t) from by
    unfold Dat.leavesExact; rw [show cfg2.idle 1 (cfg2.grid.coords t) = false from rfl, after2_1]]
  unfold Phi2
  by_cases h15 : t.val % 16 = 15
  · rw [show (dat2 V c).leavesExact 2 t = owns (c : Thread nD τ) (win2_2.stage (cfg2.slots t 2)) fullShare (outAt V c t) from by
      unfold Dat.leavesExact; rw [liveAt2_2 t h15, after2_2]]
    have hk : ∀ (d4 s0 s1 s2 : Vec F S512x1 .f32) (hs : t.val ≠ 0 → (s0, s1, s2) = scAt V c (t.val - 1)) (K : PUnit → sProp 𝕄), _ :=
      fun d4 s0 s1 s2 hs K => sound_point2 V c t d4 s0 s1 s2 hs K
    simp only [if_pos h15] at hk
    iintro ⟨⟨Hr, Hg, ⟨%s0, %s1, %s2, %hs, S0, S1, S2⟩⟩, Ho, ⟨%d0, H0⟩, ⟨%d1, H1⟩, ⟨%d2, H2⟩⟩
    iapply (hk ((dat2 V c).before 2 t d2) s0 s1 s2 hs _)
    isplitl [H0]; · iexact H0
    isplitl [H1]; · iexact H1
    isplitl [H2]; · iexact H2
    isplitl [S0]; · iexact S0
    isplitl [S1]; · iexact S1
    isplitl [S2]; · iexact S2
    iintro ⟨H0, H1, H2, S0, S1, S2⟩
    isplitl [Hr Hg S0 S1 S2]
    · isplitl [Hr]; · iexact Hr
      isplitl [Hg]; · iexact Hg
      iexists (scAt V c t.val).1, (scAt V c t.val).2.1, (scAt V c t.val).2.2
      isplitr; · ipureintro; intro _; rw [Nat.add_sub_cancel]
      isplitl [S0]; · iexact S0
      isplitl [S1]; · iexact S1
      iexact S2
    isplitl [Ho]; · iexact Ho
    isplitl [H0]; · iexact H0
    isplitl [H1]; · iexact H1
    iexact H2
  · rw [Dat.leavesExact_idle (dat2 V c) 2 t (idleAt2_2 t h15) (by
      rw [← Bool.not_eq_true]; exact fun h => h15 ((flush2_2 t).mp h))]
    have hk : ∀ (d4 s0 s1 s2 : Vec F S512x1 .f32) (hs : t.val ≠ 0 → (s0, s1, s2) = scAt V c (t.val - 1)) (K : PUnit → sProp 𝕄), _ :=
      fun d4 s0 s1 s2 hs K => sound_point2 V c t d4 s0 s1 s2 hs K
    simp only [if_neg h15] at hk
    iintro ⟨⟨Hr, Hg, ⟨%s0, %s1, %s2, %hs, S0, S1, S2⟩⟩, Ho, ⟨%d0, H0⟩, ⟨%d1, H1⟩, ⟨%d2, H2⟩⟩
    iapply (hk ((dat2 V c).before 2 t d2) s0 s1 s2 hs _)
    isplitl [H0]; · iexact H0
    isplitl [H1]; · iexact H1
    isplitl [H2]; · iexact H2
    isplitl [S0]; · iexact S0
    isplitl [S1]; · iexact S1
    isplitl [S2]; · iexact S2
    iintro ⟨H0, H1, H2, S0, S1, S2⟩
    isplitl [Hr Hg S0 S1 S2]
    · isplitl [Hr]; · iexact Hr
      isplitl [Hg]; · iexact Hg
      iexists (scAt V c t.val).1, (scAt V c t.val).2.1, (scAt V c t.val).2.2
      isplitr; · ipureintro; intro _; rw [Nat.add_sub_cancel]
      isplitl [S0]; · iexact S0
      isplitl [S1]; · iexact S1
      iexact S2
    isplitl [Ho]; · iexact Ho
    isplitl [H0]; · iexact H0
    isplitl [H1]; · iexact H1
    iexists d2; iexact H2

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KLaunch.lean ====
/-
  The whole program's run: @main is the first normalising region, the second, the host concatenation, the
  similarity region and the host mean. Between two items a core holds every unscoped buffer at known contents:
  the launch contents, then each region's output array at what its write-backs leave, each host stretch applied.
  The run ends with every unscoped buffer at the last of these contents, from which the two arguments (never
  written) and the result are read.
-/
import proofs.«157580_j19722489823618_1_alg».proof.Proof.Gen.KernelIdeal.Launch
import proofs.«157580_j19722489823618_1_alg».proof.Proof.Gen.KernelIdeal.Skeleton
import proofs.«157580_j19722489823618_1_alg».proof.Proof.Gen.KernelIdeal.Points
import proofs.«157580_j19722489823618_1_alg».proof.Proof.Gen.KernelIdeal.Regions
import proofs.«157580_j19722489823618_1_alg».proof.Proof.KNorm
import proofs.«157580_j19722489823618_1_alg».proof.Proof.KSim
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents between items -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- What the first normalising region leaves in its output array. -/
def o1 (c : Dev nD) : Buf (Elt F) ((c : Thread nD τ).loc main_v0) := (dat0 (atTc (Gen.V0 m)) c).arrAt 1 cfg0.N
/-- The contents after it. -/
def X1 (c : Dev nD) : Valuation τ sig (Elt F) := Function.update (Gen.V0 m c) main_v0 (o1 m c)
/-- What the second normalising region leaves in its output array. -/
def o2 (c : Dev nD) : Buf (Elt F) ((c : Thread nD τ).loc main_v1) := (dat1 (atTc (X1 m)) c).arrAt 1 cfg1.N
def X2 (c : Dev nD) : Valuation τ sig (Elt F) := Function.update (X1 m c) main_v1 (o2 m c)
/-- After the host concatenation. -/
def X3 (c : Dev nD) : Valuation τ sig (Elt F) := StableHlo.after hostOps2 (X2 m c)
/-- What the similarity region leaves in its output array. -/
def o4 (c : Dev nD) : Buf (Elt F) ((c : Thread nD τ).loc main_v3) := (dat2 (atTc (X3 m)) c).arrAt 2 cfg2.N
def X4 (c : Dev nD) : Valuation τ sig (Elt F) := Function.update (X3 m c) main_v3 (o4 m c)
/-- After the host mean. -/
def X5 (c : Dev nD) : Valuation τ sig (Elt F) := StableHlo.after hostOps3 (X4 m c)

/-- What the regions leave, as one family over the references: each output array at its region's contents. -/
def outsOf : Gen.Outs (F := F) := fun _ r c =>
  if h0 : r = main_v0 then h0 ▸ o1 m c
  else if h1 : r = main_v1 then h1 ▸ o2 m c
  else if h3 : r = main_v3 then h3 ▸ o4 m c
  else m ((c : Thread nD τ).loc r)

theorem outsOf_v0 (J : ℕ) (c : Dev nD) : outsOf m J main_v0 c = o1 m c := by unfold outsOf; rw [dif_pos rfl]
theorem outsOf_v1 (J : ℕ) (c : Dev nD) : outsOf m J main_v1 c = o2 m c := by
  unfold outsOf; rw [dif_neg (by decide), dif_pos rfl]
theorem outsOf_v3 (J : ℕ) (c : Dev nD) : outsOf m J main_v3 c = o4 m c := by
  unfold outsOf; rw [dif_neg (by decide), dif_neg (by decide), dif_pos rfl]

theorem V1_eq (c : Dev nD) : Gen.V1 m (outsOf m) c = X1 m c := by
  unfold X1; dsimp only [Gen.V1]; rw [outsOf_v0]
theorem V2_eq (c : Dev nD) : Gen.V2 m (outsOf m) c = X2 m c := by
  unfold X2; dsimp only [Gen.V2]; rw [outsOf_v1, V1_eq]
theorem V3_eq (c : Dev nD) : Gen.V3 m (outsOf m) c = X3 m c := by
  unfold X3; dsimp only [Gen.V3]; rw [V2_eq]
theorem V4_eq (c : Dev nD) : Gen.V4 m (outsOf m) c = X4 m c := by
  unfold X4; dsimp only [Gen.V4]; rw [outsOf_v3, V3_eq]
theorem V5_eq (c : Dev nD) : Gen.V5 m (outsOf m) c = X5 m c := by
  unfold X5; dsimp only [Gen.V5]; rw [V4_eq]

/-! ## The run, given the regions' records -/

set_option backward.isDefEq.respectTransparency.types false in
/-- THE CONDITIONAL RUN. As the program's conditional frame, with the last thread state read whole: given, per
    region, a segment record entered from the thread state before it and left at the one after it, every weakly
    fair execution of @main from memory `m` with zero counters terminates and every final memory holds each
    unscoped buffer at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : Pipeline.RegionSeg (pcfgs (F := F)) Gen.adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : Pipeline.RegionSeg (pcfgs (F := F)) Gen.adm pdats ι defs₀ 𝒱₀ L lv 1)
    (hpre1 : ∀ c : Dev nD, iprop(StableHlo.held (c : Thread nD τ) (Pipeline.ucRefs τ sig) (Gen.V1 m outs c) ∗ E 1 c) ⊢ R1.pre c)
    (hpost1 : ∀ c : Dev nD, R1.post c ⊢ iprop(StableHlo.held (c : Thread nD τ) (Pipeline.ucRefs τ sig) (Gen.V2 m outs c) ∗ E 2 c))
    (R2 : Pipeline.RegionSeg (pcfgs (F := F)) Gen.adm pdats ι defs₀ 𝒱₀ L lv 2)
    (hpre2 : ∀ c : Dev nD, iprop(StableHlo.held (c : Thread nD τ) (Pipeline.ucRefs τ sig) (Gen.V3 m outs c) ∗ E 2 c) ⊢ R2.pre c)
    (hpost2 : ∀ c : Dev nD, R2.post c ⊢ iprop(StableHlo.held (c : Thread nD τ) (Pipeline.ucRefs τ sig) (Gen.V4 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = Gen.V5 m outs c b) := by
  refine Pipeline.θ_run_regions_kit_dev (pcfgs (F := F)) Gen.adm pdats ι cellOf_inj EP defs₀ 𝒱₀ L lv m ρ main
    (Gen.segs m outs 𝒱₀ L lv E ι pdats R0 R1 R2)
    (fun c Q => by
      rewrite [main_chain c, Pipeline.Seg.run_eq_chain,
        show (Gen.segs m outs 𝒱₀ L lv E ι pdats R0 R1 R2 c).map Pipeline.Seg.prog = [
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m outs c))
    (hch := fun c => ⟨hpre0 c, (hpost0 c).trans (hpre1 c), hpost1 c, hpre2 c, hpost2 c, sep_mono .rfl (hE3 c)⟩)
    (hinit := ?_) (QY := fun c s => ∀ b ∈ Pipeline.ucRefs τ sig, s.mem (((c : Thread nD τ)).1, b) = Gen.V5 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => ((c : Thread nD τ).1, b)) (Gen.V5 m outs c) s')
    isplitl [Hh] <;> iassumption

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (atTc (Gen.V0 m)) c
  | ⟨1, _⟩ => fun c => dat1 (atTc (X1 m)) c
  | ⟨2, _⟩ => fun c => dat2 (atTc (X3 m)) c

/-- No core owes another anything: no level is assigned. -/
abbrev L0 : GSem nD τ sig → Finset Unit := fun _ => ∅
abbrev lv0 : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Ej : Fin 4 → Dev nD → sProp 𝕄 := fun _ c => Rst (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- After the first region its arrays hold what the pipeline leaves and every other buffer what it held. -/
theorem hF0 (c : Dev nD) (w : Fin cfg0.W) : (pdats m 0 c).arrAt w cfg0.N = atTc (X1 m) c (Pipeline.arrRef spec0 w) := by
  match w with
  | ⟨0, _⟩ =>
    refine ((dat0 (atTc (Gen.V0 m)) c).arrAt_in 0 rfl _).trans ?_
    rw [A_eq0]
    exact ((congrFun (V1_eq m c) _).symm.trans (Gen.V1_of m (outsOf m) c main_arg0 (by decide))).symm
  | ⟨1, _⟩ =>
    show _ = X1 m c (Proc.devRef .tc main_v0)
    unfold X1; rw [Function.update_self]; rfl
theorem hrest0 (c : Dev nD) : ∀ b, b ∉ Finset.univ.image (Pipeline.arrRef spec0) → atTc (X1 m) c b = atTc (Gen.V0 m) c b := fun b hb =>
  (congrFun (V1_eq m c) _).symm.trans (Gen.V1_of m (outsOf m) c b (fun h => hb (by
    rw [List.mem_singleton] at h; subst h; exact Finset.mem_image.mpr ⟨1, Finset.mem_univ _, rfl⟩)))

theorem hF1 (c : Dev nD) (w : Fin cfg1.W) : (pdats m 1 c).arrAt w cfg1.N = atTc (X2 m) c (Pipeline.arrRef spec1 w) := by
  match w with
  | ⟨0, _⟩ =>
    refine ((dat1 (atTc (X1 m)) c).arrAt_in 0 rfl _).trans ?_
    rw [A_eq1]
    exact ((congrFun (V2_eq m c) _).symm.trans ((Gen.V2_of m (outsOf m) c main_arg1 (by decide)).trans (congrFun (V1_eq m c) _))).symm
  | ⟨1, _⟩ =>
    show _ = X2 m c (Proc.devRef .tc main_v1)
    unfold X2; rw [Function.update_self]; rfl
theorem hrest1 (c : Dev nD) : ∀ b, b ∉ Finset.univ.image (Pipeline.arrRef spec1) → atTc (X2 m) c b = atTc (X1 m) c b := fun b hb =>
  (congrFun (V2_eq m c) _).symm.trans ((Gen.V2_of m (outsOf m) c b (fun h => hb (by
    rw [List.mem_singleton] at h; subst h; exact Finset.mem_image.mpr ⟨1, Finset.mem_univ _, rfl⟩))).trans (congrFun (V1_eq m c) _))

set_option backward.isDefEq.respectTransparency.types false in
/-- The first normalising region over the thread state: entered from every unscoped buffer at the launch contents,
    left with its output array at what its write-backs leave. -/
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (Gen.V0 m)) c).loose
  hwaits := Pipeline.hwaits_of_owed_zero _ _ _ _ L0 lv0 0 fun _ _ => rfl
  pre c := iprop(StableHlo.held (c : Thread nD τ) (Pipeline.ucRefs τ sig) (Gen.V0 m c) ∗ Rst c)
  post c := iprop(StableHlo.held (c : Thread nD τ) (Pipeline.ucRefs τ sig) (X1 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (Gen.V0 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (Gen.V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (Gen.V0 m) c) (atTc (X1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem img2 : (Finset.univ.image (Pipeline.arrRef spec2) : Finset (Ref sig .tc)) = {main_v2, main_v3} := by decide

/-- ENTRY of the similarity region: of the core's unscoped buffers, the stacked array — which two windows read — is
    dealt half to each of them, the output array whole to its window. -/
theorem entry2 (c : Dev nD) (V : (c : Dev nD) → (b : Ref sig .tc) → Buf (Elt F) ((c : Thread nD τ).loc b)) :
    (unscopedBufs c (V c) : sProp 𝕄) ⊢ iprop((dat2 V c).arrays ((dat2 V c).arrAt · 0) ∗ Pipeline.unscopedRest spec2 c (V c)) := by
  rw [Pipeline.unscopedBufs_split₀ (Ix := Unit) (Name := ℕ) (U := UR sig nD τ) (Lvl := ℕ) cfgs 2 winFacts₀2.arr_unscoped c (V c)]
  refine sep_mono ?_ .rfl
  unfold Pipeline.arrBufs
  rw [show (Finset.univ.image (Pipeline.arrRef (cfgs 2).spec) : Finset (Ref sig .tc)) = {main_v2, main_v3} from img2]
  rw [bigSep_insert (by decide), bigSep_singleton]
  unfold Dat.arrays
  rw [bigSep_W2]
  have hs0 : (dat2 V c).share 0 = fullShare.left := rfl
  have hs1 : (dat2 V c).share 1 = fullShare.right := rfl
  have hs2 : (dat2 V c).share 2 = fullShare := rfl
  dsimp only
  rw [hs0, hs1, hs2, (arr_whole2 0).set_eq_univ, (arr_whole2 2).set_eq_univ]
  show iprop((((c : Thread nD τ).loc main_v2) ↦{fullShare} V c main_v2) ∗ (((c : Thread nD τ).loc main_v3) ↦{fullShare} V c main_v3)) ⊢ _
  iintro ⟨H2, H3⟩
  ihave Hs := (pointsTo_share (PosShare.mem_left_op_right fullShare)).1 $$ H2
  icases Hs with ⟨Hl, Hr⟩
  isplitl [Hl]; · iexact Hl
  isplitl [Hr]; · iexact Hr
  iexact H3

/-- EXIT of the similarity region: the two halves of the stacked array, unchanged, are joined again, and with the
    output array at what the write-backs leave and the rest they are the core's unscoped buffers at any contents that
    have the output array there and agree elsewhere. -/
theorem exit2 (c : Dev nD) (V : (c : Dev nD) → (b : Ref sig .tc) → Buf (Elt F) ((c : Thread nD τ).loc b))
    (V' : (b : Ref sig .tc) → Buf (Elt F) ((c : Thread nD τ).loc b))
    (hv3 : V' main_v3 = (dat2 V c).arrAt 2 cfg2.N) (hrest : ∀ b, b ≠ main_v3 → V' b = V c b) :
    iprop((dat2 V c).arrays ((dat2 V c).arrAt · cfg2.N) ∗ Pipeline.unscopedRest spec2 c (V c)) ⊢ (unscopedBufs c V' : sProp 𝕄) := by
  rw [Pipeline.unscopedBufs_split₀ (Ix := Unit) (Name := ℕ) (U := UR sig nD τ) (Lvl := ℕ) cfgs 2 winFacts₀2.arr_unscoped c V']
  refine sep_mono ?_ (Entails.of_eq ?_)
  · unfold Pipeline.arrBufs
    rw [show (Finset.univ.image (Pipeline.arrRef (cfgs 2).spec) : Finset (Ref sig .tc)) = {main_v2, main_v3} from img2]
    rw [bigSep_insert (by decide), bigSep_singleton]
    unfold Dat.arrays
    rw [bigSep_W2]
    have hs0 : (dat2 V c).share 0 = fullShare.left := rfl
    have hs1 : (dat2 V c).share 1 = fullShare.right := rfl
    have hs2 : (dat2 V c).share 2 = fullShare := rfl
    have ha0 : (dat2 V c).arrAt 0 cfg2.N = V c main_v2 := ((dat2 V c).arrAt_in 0 rfl _).trans (A_eq2 V c 0)
    have ha1 : (dat2 V c).arrAt 1 cfg2.N = V c main_v2 := ((dat2 V c).arrAt_in 1 rfl _).trans (A_eq2 V c 1)
    dsimp only
    rw [hs0, hs1, hs2, (arr_whole2 0).set_eq_univ, (arr_whole2 2).set_eq_univ, ha0, ha1, hv3, hrest main_v2 (by decide)]
    show _ ⊢ iprop((((c : Thread nD τ).loc main_v2) ↦{fullShare} V c main_v2) ∗ (((c : Thread nD τ).loc main_v3) ↦{fullShare} (dat2 V c).arrAt 2 cfg2.N))
    iintro ⟨Hl, Hr, H3⟩
    isplitl [Hl Hr]
    · iapply (pointsTo_share (PosShare.mem_left_op_right fullShare)).2
      isplitl [Hl]; · iexact Hl
      iexact Hr
    iexact H3
  · unfold Pipeline.unscopedRest
    exact bigSep_congr fun b hb => by
      rw [hrest b (fun h => (Finset.mem_sdiff.mp hb).2 (by subst h; exact Finset.mem_image.mpr ⟨2, Finset.mem_univ _, rfl⟩))]

set_option backward.isDefEq.respectTransparency.types false in
/-- The second normalising region over the thread state. -/
def reg1 : Pipeline.RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (X1 m)) c).loose
  hwaits := Pipeline.hwaits_of_owed_zero _ _ _ _ L0 lv0 1 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (X1 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (X1 m) c) (atTc (X2 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the similarity region the output array holds what the write-backs leave, every other buffer what it held. -/
theorem hv3 (c : Dev nD) : atTc (X4 m) c main_v3 = (dat2 (atTc (X3 m)) c).arrAt 2 cfg2.N := by
  show X4 m c (Proc.devRef .tc main_v3) = _
  unfold X4; rw [Function.update_self]; rfl
theorem hrest3 (c : Dev nD) : ∀ b, b ≠ main_v3 → atTc (X4 m) c b = atTc (X3 m) c b := fun b hb =>
  (congrFun (V4_eq m c) _).symm.trans ((Gen.V4_of m (outsOf m) c b (fun h => hb (List.mem_singleton.mp h))).trans (congrFun (V3_eq m c) _))

set_option backward.isDefEq.respectTransparency.types false in
/-- The similarity region over the thread state: entered from every unscoped buffer after the concatenation, the
    stacked array dealt half to each of the two windows that read it and joined again at the exit; the three scratch
    columns live inside the region's invariant. -/
def reg2 : Pipeline.RegionSeg (pcfgs (F := F)) Gen.adm (pdats m) () defs₀ Variants.none L0 lv0 2 where
  win := winFacts₀2
  block_pos := block_pos2
  stage_whole := stage_whole2
  K := PEmpty
  osem k := k.elim
  ho := Pipeline.OwnSemFacts.none _
  hbody c := (body_obligation2 (atTc (X3 m)) c).loose
  hwaits := Pipeline.hwaits_of_owed_zero _ _ _ _ L0 lv0 2 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (X3 m) c)
  hentry c := by
    rw [Pipeline.ownSems0_none]
    have hsplit := entry2 c (atTc (X3 m))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (atTc (X3 m)) c)
    unfold Pipeline.ΦA
    iintro ⟨Hp, -, Hr⟩
    isplitl [Hr]; · iexact Hr
    iexact Hp
  hout c := by
    refine (hout2 (atTc (X3 m)) c).trans ?_
    rw [Pipeline.ownSems0_none]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (atTc (X3 m) c))
        ⊢ (unscopedBufs c (atTc (X4 m) c) : sProp 𝕄) := exit2 c (atTc (X3 m)) (atTc (X4 m) c) (hv3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, and every final memory
    holds each unscoped buffer at the last boundary's contents `X5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X5 m c b) := by
  have h := run_cond m emb₁ () Variants.none L0 lv0 (fun _ _ => rfl) ρ (outsOf m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (Ej (F := F))
    (by
      refine Pipeline.initEach L0 lv0 fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V1_eq]; exact .rfl)
    (reg1 m) (fun c => by rw [V1_eq]; exact .rfl) (fun c => by rw [V2_eq]; exact .rfl)
    (reg2 m) (fun c => by rw [V3_eq]; exact .rfl) (fun c => by rw [V4_eq]; exact .rfl)
  refine (θ_run defs _ _).mono (fun r h c b hb => ?_) h
  rw [← V5_eq]; exact h c b hb

/-- THE FRAME: every weakly fair execution of @main terminates, nothing faulting, and the two argument arrays end as
    launched (no item writes them: the last boundary's contents read back to the launch memory). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans ((congrFun (V5_eq m c) _).symm.trans (Gen.V5_main_arg0 m (outsOf m) c)),
     (h c _ (mem_uc main_arg1 (by decide))).trans ((congrFun (V5_eq m c) _).symm.trans (Gen.V5_main_arg1 m (outsOf m) c))⟩) (run_all m ρ)

end Cert.KernelIdeal.Hand

end
-- ==== Proof.Spec.lean ====
/-
  The mathematics both programs compute, stated over plain index types with no program in sight.

  From two 4096 × 256 arrays `a`, `b` of extended reals: every row is divided by the larger of its Euclidean norm
  and the constant `epsV` (`nrm`); the two normalised arrays are stacked into one 8192 × 256 array `z` (`zcat`);
  `gram z r c` is the inner product of rows `r` and `c`; each entry is scaled by the inverse temperature and
  exponentiated. Row `r`'s positive partner is row `r + 4096` modulo 8192 (`mir`). The loss of row `r` compares its
  positive entry with the sum of the row's entries other than the diagonal one, and the result is the mean of the
  8192 row losses.

  The two programs differ in three places, which is why there are two spellings of each stage:
  the scale is a product with `kV` = 2²⁷ / 9395241 on one side and a quotient by `DV` = 9395241 / 2²⁷ on the other;
  the row loss is `(0 - log p) + log (s - e)` on one side and `-(log (p / (p + ((s - e) - p))))` on the other;
  both agree on real inputs because all the quantities are then real, `p > 0` and `s - e > 0`.
-/
import Idealize.ShloMosaic.PureOps.Ideal
import Idealize.ShloMosaic.Lib.ValueIdx

noncomputable section

namespace Cert.Spec

open Idealize.ShloMosaic

/-- The guard under the row norm: the word both programs carry. -/
def epsV : EReal := Ideal.ofBits .f32 0x2B8CBCCC#32
/-- The inverse temperature as the product's factor: 2²⁷ / 9395241, an exact rational. -/
def kV : EReal := ((134217728 / 9395241 : ℝ) : EReal)
/-- The temperature as the quotient's divisor: the word 0x3D8F5C29, which is 9395241 / 2²⁷. -/
def DV : EReal := Ideal.ofBits .f32 0x3D8F5C29#32
/-- The number of rows, as the mean's divisor: the word 0x46000000, which is 8192. -/
def nV : EReal := Ideal.ofBits .f32 0x46000000#32

/-- A 4096 × 256 array read by row and column. -/
abbrev matOf (v : (⟨2, ![4096, 256]⟩ : Shape).Idx → EReal) : Fin 4096 → Fin 256 → EReal :=
  fun r d => v (ValueIdx.ix2 r d)

/-- Entry `(r, d)` of the row-normalised array: the entry over the larger of the row's norm and `epsV`. -/
def nrm (x : Fin 4096 → Fin 256 → EReal) (r : Fin 4096) (d : Fin 256) : EReal :=
  Ideal.div (x r d) (max (Ideal.sqrt (∑ k : Fin 256, x r k * x r k)) epsV)

/-- Two 4096-row arrays stacked: rows below 4096 from the first, the others from the second. -/
def zcat (a b : Fin 4096 → Fin 256 → EReal) (r : Fin 8192) (d : Fin 256) : EReal :=
  if h : r.val < 4096 then a ⟨r.val, h⟩ d else b ⟨r.val - 4096, by have := r.isLt; omega⟩ d

/-- The inner product of rows `r` and `c`. -/
def gram (z : Fin 8192 → Fin 256 → EReal) (r c : Fin 8192) : EReal := ∑ d : Fin 256, z r d * z c d

/-- The exponentiated similarity, the scale a product with `kV`. -/
def expMul (z : Fin 8192 → Fin 256 → EReal) (r c : Fin 8192) : EReal := Ideal.exp (gram z r c * kV)
/-- The exponentiated similarity, the scale a quotient by `DV`. -/
def expDiv (z : Fin 8192 → Fin 256 → EReal) (r c : Fin 8192) : EReal := Ideal.exp (Ideal.div (gram z r c) DV)

/-- Row `r`'s positive partner: `r + 4096` modulo 8192. -/
def mir (r : Fin 8192) : Fin 8192 := ⟨(r.val + 4096) % 8192, Nat.mod_lt _ (by decide)⟩

/-- The row loss as a difference of logarithms. -/
def lossSub (E : Fin 8192 → Fin 8192 → EReal) (r : Fin 8192) : EReal :=
  (0 - Ideal.log (E r (mir r))) + Ideal.log ((∑ c : Fin 8192, E r c) - E r r)
/-- The row loss as the negated logarithm of a quotient. -/
def lossQuot (E : Fin 8192 → Fin 8192 → EReal) (r : Fin 8192) : EReal :=
  -(Ideal.log (Ideal.div (E r (mir r)) (E r (mir r) + (((∑ c : Fin 8192, E r c) - E r r) - E r (mir r)))))

/-- The mean of 8192 values. -/
def meanOf (l : Fin 8192 → EReal) : EReal := Ideal.div (∑ r : Fin 8192, l r) nV

/-- The result, in the first spelling: product scale, difference of logarithms. -/
def GK (a b : Fin 4096 → Fin 256 → EReal) : EReal := meanOf (lossSub (expMul (zcat (nrm a) (nrm b))))
/-- The result, in the second spelling: quotient scale, logarithm of a quotient. -/
def GR (a b : Fin 4096 → Fin 256 → EReal) : EReal := meanOf (lossQuot (expDiv (zcat (nrm a) (nrm b))))

end Cert.Spec

end
-- ==== Proof.KNormValue.lean ====
/-
  The value of the two row-normalising regions on extended reals: after each region the output array is the
  row-normalised input array.

  A region's body divides every row of its 1024-row block by the larger of the row's Euclidean norm and the guard.
  The block at grid point `t` is rows 1024·t … 1024·t + 1023 of the array, all 256 columns, for the input window and
  the output window alike; a row's norm reads that row only, so the body's result on a block is the block of the
  row-normalised array. The four blocks tile the 4096 rows, so the array ends holding the row-normalised input.
-/
import proofs.«157580_j19722489823618_1_alg».proof.Proof.KNorm
import proofs.«157580_j19722489823618_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

namespace NormValue

/-! ## Layout operations on a column of row values, read at an index -/

section Layout
variable {α : Type}

/-- A vector of `a` values cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The body's payload at an index -/

/-- The sum of a 1024 × 256 block along its rows, read at row `p`: the sum over the row's 256 entries. -/
theorem rowSum_apply (x : FVec Ideal S1024x256 .f32) (h : S1024x256.Reduces [1] S1024) (hφ : FKind.Formats .f32)
    (hacc : (0x00000000#32 : BitVec 32) = 0x00000000#32) (p : Fin 1024) :
    multiReduction (F := Ideal) .add [1] S1024 x 0x00000000#32 h hφ hacc (ix1 p) = ∑ k : Fin 256, x (ix2 p k) := by
  refine (Ideal.multiReduction_add_single x 0x00000000#32 h hφ hacc (ix1 p)).trans ?_
  refine Finset.sum_congr rfl fun k _ => congrArg x ?_
  funext c; apply Fin.ext
  match c with
  | ⟨0, _⟩ => rfl
  | ⟨1, _⟩ => rfl

/-- Entry `(p, q)` of what the first region's body stores: the block's entry over the larger of its row's norm and
    the guard. The narrowing to the stored format is the identity on extended reals; the column of row norms is read
    at row `p` through the broadcast and the cast; the row's sum of squares is the sum over its 256 entries. -/
theorem pay0_apply (x0 : Vec Ideal S1024x256 .f32) (p : Fin 1024) (q : Fin 256) :
    k0_pay1 (F := Ideal) x0 (ix2 p q)
      = Ideal.div (x0 (ix2 p q)) (max (Ideal.sqrt (∑ k : Fin 256, x0 (ix2 p k) * x0 (ix2 p k))) Cert.Spec.epsV) := by
  unfold k0_pay1
  dsimp only
  rw [truncf_apply, divf_apply, broadcastTo_a1_ab_apply, maximumf_apply, broadcast_apply]
  show Ideal.div _ (max (Ideal.sqrt (shapeCast S1024x1 _ _ (ix2 p 0))) (Ideal.ofBits .f32 0x2B8CBCCC#32)) = _
  rw [shapeCast_a_a1_apply, rowSum_apply]
  rfl

/-- The second region's body is the same function of its block as the first's. -/
theorem pay1_eq (x0 : Vec Ideal S1024x256 .f32) : k1_pay1 (F := Ideal) x0 = k0_pay1 (F := Ideal) x0 := rfl

/-- Row `p` of a block being row `r` of an array `A`, entry `(p, q)` of what the first region's body stores is entry
    `(r, q)` of `A` row-normalised: a row's norm reads that row only. -/
theorem pay0_row (A : S4096x256.Idx → EReal) (x0 : Vec Ideal S1024x256 .f32) (p : Fin 1024) (q : Fin 256) (r : Fin 4096)
    (hx : ∀ k : Fin 256, x0 (ix2 p k) = A (ix2 r k)) :
    k0_pay1 (F := Ideal) x0 (ix2 p q) = Cert.Spec.nrm (Cert.Spec.matOf A) r q := by
  rw [pay0_apply]
  unfold Cert.Spec.nrm
  simp only [hx]

/-- The same for the second region's body. -/
theorem pay1_row (A : S4096x256.Idx → EReal) (x0 : Vec Ideal S1024x256 .f32) (p : Fin 1024) (q : Fin 256) (r : Fin 4096)
    (hx : ∀ k : Fin 256, x0 (ix2 p k) = A (ix2 r k)) :
    k1_pay1 (F := Ideal) x0 (ix2 p q) = Cert.Spec.nrm (Cert.Spec.matOf A) r q := by
  rw [pay1_eq]
  exact pay0_row A x0 p q r hx

/-! ## From blocks to the array -/

theorem hz : (![0, 0] : Fin 2 → Nat) = fun _ => 0 := funext fun a => by fin_cases a <;> rfl

/-- The row-normalised array, index by index. -/
def nrmArr (A : S4096x256.Idx → EReal) : S4096x256.Idx → EReal :=
  fun i => Cert.Spec.nrm (Cert.Spec.matOf A) (i 0) (i 1)

/-- The first region's index maps, decided over the four grid points: block `t` of the input window and of the
    output window is block row `t`, block column 0. -/
theorem idx_facts0 : ∀ t : Fin cfg0.N, t.val < 4
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The second region's index maps: the same. -/
theorem idx_facts1 : ∀ t : Fin cfg1.N, t.val < 4
    ∧ win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

section Regions
variable (V : (c : Dev nD) → (b : Ref sig .tc) → Buf (Elt Ideal) ((c : Thread nD τ).loc b))

/-! ### Region 0 -/

/-- What point `t` writes back is block `t` of the row-normalised first input: entry `(p, q)` of the block sits at
    row 1024·t + p, column q of the array, for the output window and for the input window alike. -/
theorem flushed0_eq (c : Dev nD) (t : Fin cfg0.N) :
    (dat0 (F := Ideal) V c).flushed 1 t = ((cfg0.win 1).blk t).view.read (Elt Ideal) (nrmArr (V c main_arg0)) := by
  show (cfg0.win 1).cut (grid0.coords t) ((dat0 V c).after 1 t) = _
  rw [after0_1]
  unfold out0_1
  rw [View.canon_unit_zero hz]
  simp only [View.ld_unit_zero (S := S1024x256) hz]
  obtain ⟨ht, e0, e1, e2, e3⟩ := idx_facts0 t
  funext j
  obtain ⟨p, q, rfl⟩ : ∃ (p : Fin 1024) (q : Fin 256), j = ix2 p q := ⟨j 0, j 1, eq_ix2 (n0 := 1024) (n1 := 256) j⟩
  have hr : 1024 * t.val + p.val < 4096 := by have := p.isLt; omega
  have hemb : ((cfg0.win 1).blk t).view.emb (ix2 p q) = ix2 (⟨1024 * t.val + p.val, hr⟩ : Fin 4096) q := by
    funext a; apply Fin.ext
    match a with
    | ⟨0, _⟩ => show win0_1.index t (0 : Fin 2) * 1024 + 1 * p.val = 1024 * t.val + p.val; omega
    | ⟨1, _⟩ => show win0_1.index t (1 : Fin 2) * 256 + 1 * q.val = q.val; omega
  show k0_pay1 (F := Ideal) (iblk0 V c 0 t) (ix2 p q) = nrmArr (V c main_arg0) (((cfg0.win 1).blk t).view.emb (ix2 p q))
  rw [hemb]
  refine pay0_row (V c main_arg0) _ p q _ fun k => ?_
  show V c main_arg0 (((cfg0.win 0).blk t).view.emb (ix2 p k)) = V c main_arg0 _
  refine congrArg (V c main_arg0) (funext fun a => Fin.ext ?_)
  match a with
  | ⟨0, _⟩ => show win0_0.index t (0 : Fin 2) * 1024 + 1 * p.val = 1024 * t.val + p.val; omega
  | ⟨1, _⟩ => show win0_0.index t (1 : Fin 2) * 256 + 1 * k.val = k.val; omega

/-- An index of the first output array is in point `t`'s block iff each coordinate is in the block's range on its axis. -/
theorem mem_blk0 (t : Fin cfg0.N) (i : S4096x256.Idx) :
    i ∈ ((cfg0.win 1).blk t).view.set ↔ ∀ a : Fin 2, win0_1.index t a * S1024x256.size a ≤ (i a).val ∧ (i a).val < win0_1.index t a * S1024x256.size a + S1024x256.size a := by
  show i ∈ ((View.whole main_v0).slice (win0_1.rect t)).set ↔ _
  rw [View.set_slice_whole, Rect.mem_set_unit]
  exact Iff.rfl

/-- Every index of the first output array is written back by some point: row `r` by point `r / 1024`. -/
theorem cover0 (i : S4096x256.Idx) :
    ∃ t : Fin cfg0.N, (cfg0.win 1).flush t = true ∧ i ∈ ((cfg0.win 1).blk t).view.set := by
  have hi0 : (i 0).val < 4096 := (i 0).isLt
  have hi1 : (i 1).val < 256 := (i 1).isLt
  have hN : cfg0.N = 4 := N_0
  let t : Fin cfg0.N := ⟨(i 0).val / 1024, by rw [hN]; omega⟩
  have htv : t.val = (i 0).val / 1024 := rfl
  obtain ⟨ht, e0, e1, e2, e3⟩ := idx_facts0 t
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 256 ≤ (i 1).val ∧ (i 1).val < win0_1.index t (1 : Fin 2) * 256 + 256; omega

/-! ### Region 1 -/

/-- What point `t` writes back is block `t` of the row-normalised second input. -/
theorem flushed1_eq (c : Dev nD) (t : Fin cfg1.N) :
    (dat1 (F := Ideal) V c).flushed 1 t = ((cfg1.win 1).blk t).view.read (Elt Ideal) (nrmArr (V c main_arg1)) := by
  show (cfg1.win 1).cut (grid1.coords t) ((dat1 V c).after 1 t) = _
  rw [after1_1]
  unfold out1_1
  rw [View.canon_unit_zero hz]
  simp only [View.ld_unit_zero (S := S1024x256) hz]
  obtain ⟨ht, e0, e1, e2, e3⟩ := idx_facts1 t
  funext j
  obtain ⟨p, q, rfl⟩ : ∃ (p : Fin 1024) (q : Fin 256), j = ix2 p q := ⟨j 0, j 1, eq_ix2 (n0 := 1024) (n1 := 256) j⟩
  have hr : 1024 * t.val + p.val < 4096 := by have := p.isLt; omega
  have hemb : ((cfg1.win 1).blk t).view.emb (ix2 p q) = ix2 (⟨1024 * t.val + p.val, hr⟩ : Fin 4096) q := by
    funext a; apply Fin.ext
    match a with
    | ⟨0, _⟩ => show win1_1.index t (0 : Fin 2) * 1024 + 1 * p.val = 1024 * t.val + p.val; omega
    | ⟨1, _⟩ => show win1_1.index t (1 : Fin 2) * 256 + 1 * q.val = q.val; omega
  show k1_pay1 (F := Ideal) (iblk1 V c 0 t) (ix2 p q) = nrmArr (V c main_arg1) (((cfg1.win 1).blk t).view.emb (ix2 p q))
  rw [hemb]
  refine pay1_row (V c main_arg1) _ p q _ fun k => ?_
  show V c main_arg1 (((cfg1.win 0).blk t).view.emb (ix2 p k)) = V c main_arg1 _
  refine congrArg (V c main_arg1) (funext fun a => Fin.ext ?_)
  match a with
  | ⟨0, _⟩ => show win1_0.index t (0 : Fin 2) * 1024 + 1 * p.val = 1024 * t.val + p.val; omega
  | ⟨1, _⟩ => show win1_0.index t (1 : Fin 2) * 256 + 1 * k.val = k.val; omega

/-- An index of the second output array is in point `t`'s block iff each coordinate is in the block's range on its axis. -/
theorem mem_blk1 (t : Fin cfg1.N) (i : S4096x256.Idx) :
    i ∈ ((cfg1.win 1).blk t).view.set ↔ ∀ a : Fin 2, win1_1.index t a * S1024x256.size a ≤ (i a).val ∧ (i a).val < win1_1.index t a * S1024x256.size a + S1024x256.size a := by
  show i ∈ ((View.whole main_v1).slice (win1_1.rect t)).set ↔ _
  rw [View.set_slice_whole, Rect.mem_set_unit]
  exact Iff.rfl

/-- Every index of the second output array is written back by some point: row `r` by point `r / 1024`. -/
theorem cover1 (i : S4096x256.Idx) :
    ∃ t : Fin cfg1.N, (cfg1.win 1).flush t = true ∧ i ∈ ((cfg1.win 1).blk t).view.set := by
  have hi0 : (i 0).val < 4096 := (i 0).isLt
  have hi1 : (i 1).val < 256 := (i 1).isLt
  have hN : cfg1.N = 4 := N_1
  let t : Fin cfg1.N := ⟨(i 0).val / 1024, by rw [hN]; omega⟩
  have htv : t.val = (i 0).val / 1024 := rfl
  obtain ⟨ht, e0, e1, e2, e3⟩ := idx_facts1 t
  refine ⟨t, flush1_1 t, ?_⟩
  rw [mem_blk1]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 256 ≤ (i 1).val ∧ (i 1).val < win1_1.index t (1 : Fin 2) * 256 + 256; omega

end Regions

end NormValue

open NormValue

section Final
variable (V : (c : Dev nD) → (b : Ref sig .tc) → Buf (Elt Ideal) ((c : Thread nD τ).loc b))

/-- After the first region the output array is the row-normalised first input: every point writes back its block of
    it, and the four blocks tile the array. -/
theorem final0 (c : Dev nD) (r : Fin 4096) (d : Fin 256) :
    (dat0 (F := Ideal) V c).arrAt 1 cfg0.N (ValueIdx.ix2 r d) = Cert.Spec.nrm (Cert.Spec.matOf (V c main_arg0)) r d :=
  congrFun ((dat0 (F := Ideal) V c).arrAt_eq_of_cover 1 (nrmArr (V c main_arg0)) (fun t _ => flushed0_eq V c t) cover0) (ix2 r d)

/-- After the second region the output array is the row-normalised second input. -/
theorem final1 (c : Dev nD) (r : Fin 4096) (d : Fin 256) :
    (dat1 (F := Ideal) V c).arrAt 1 cfg1.N (ValueIdx.ix2 r d) = Cert.Spec.nrm (Cert.Spec.matOf (V c main_arg1)) r d :=
  congrFun ((dat1 (F := Ideal) V c).arrAt_eq_of_cover 1 (nrmArr (V c main_arg1)) (fun t _ => flushed1_eq V c t) cover1) (ix2 r d)

end Final

end Cert.KernelIdeal.Hand

end
-- ==== Proof.KSimPay.lean ====
/-
  The similarity body's pure values, read entry by entry on the extended reals.

  At a point the body holds two 512 × 256 blocks `x0`, `x1` of the stacked array. The 512 × 512 tile has, at
  `(p, q)`, the exponential of the inner product of row `p` of `x0` with row `q` of `x1` times the inverse
  temperature: the second block enters the product transposed, the product accumulates into zero, and the named
  scale is the specification's factor. From the tile the body forms three columns: the row sums added to the
  running sum; and, twice, the row sums of the tile masked to its diagonal, which leave the diagonal entry of each
  row because every other entry is replaced by zero. The loss column is, row by row,
  `(0 - log pos) + log (sum - diag)`. The three reset columns are zero.
-/
import proofs.«157580_j19722489823618_1_alg».proof.Proof.Gen.KernelIdeal.Skeleton
import proofs.«157580_j19722489823618_1_alg».proof.Proof.Spec
import Idealize.ShloMosaic.PureOps.Ideal
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

namespace Pay

/-- The tile's product into a zero accumulator, read at an index: the sum over the 256 shared coordinates. -/
theorem matmul_tile_apply (A : FVec Ideal S512x256 .bf16) (B : FVec Ideal S256x512 .bf16) (p q : Fin 512) :
    matmul dot_S512x256_S256x512_S512x512_1_0_0_1_n_n none A B (constant (F := Ideal) S512x512 .f32 0x00000000#32) (ix2 p q)
      = ∑ d : Fin 256, A (ix2 p d) * B (ix2 d q) := by
  show FloatOps.matmul _ none A B _ (ix2 p q) = _
  rw [Ideal.matmul_constant_zero_apply,
    ← Equiv.sum_comp (contrEquiv1 dot_S512x256_S256x512_S512x512_1_0_0_1_n_n 256 rfl rfl).symm]
  refine Finset.sum_congr rfl fun c _ => ?_
  have c2 := contrEquiv1_symm_val dot_S512x256_S256x512_S512x512_1_0_0_1_n_n 256 rfl rfl c
  have l2 : dot_S512x256_S256x512_S512x512_1_0_0_1_n_n.lhsIdx (ix2 p q) ((contrEquiv1 _ 256 rfl rfl).symm c) = ix2 p c := by
    funext ax; apply Fin.ext
    match ax with
    | ⟨0, _⟩ => simp [DotDims.lhsIdx, dot_S512x256_S256x512_S512x512_1_0_0_1_n_n]; rfl
    | ⟨1, _⟩ => simp [DotDims.lhsIdx, dot_S512x256_S256x512_S512x512_1_0_0_1_n_n]; exact c2
  have r2 : dot_S512x256_S256x512_S512x512_1_0_0_1_n_n.rhsIdx (ix2 p q) ((contrEquiv1 _ 256 rfl rfl).symm c) = ix2 c q := by
    funext ax; apply Fin.ext
    match ax with
    | ⟨0, _⟩ => simp [DotDims.rhsIdx, dot_S512x256_S256x512_S512x512_1_0_0_1_n_n]; exact c2
    | ⟨1, _⟩ => simp [DotDims.rhsIdx, dot_S512x256_S256x512_S512x512_1_0_0_1_n_n]; rfl
  rw [l2, r2]

/-- The named scale is the product's factor of the specification. -/
theorem inv_temperature :
    Named.named (F := Ideal) κ "inv_temperature" (φ := .f32) 0x41649249#32 = Cert.Spec.kV := by
  unfold Cert.Spec.kV
  exact IdealRules.named_const.ideal_named_scalar _ _ _ _ rfl

/-- An array's row sums kept as a column: at row `p`, the sum of the row's 512 entries. -/
theorem rowsum_col_apply (X : FVec Ideal S512x512 .f32) (p : Fin 512) :
    shapeCast S512x1 (multiReduction (F := Ideal) .add [1] S512 X 0x00000000#32 reduces_S512x512_S512 (.inl rfl) rfl)
        shapeCasts_S512_S512x1 (ix2 p (0 : Fin 1))
      = ∑ q : Fin 512, X (ix2 p q) := by
  refine (shapeCast_apply _ shapeCasts_S512_S512x1 (ix2 p (0 : Fin 1)) (ix1 p) ?_).trans ?_
  · rw [Shape.rowMajor_val_two, Shape.rowMajor_val_one]
    show p.val = p.val * 1 + 0
    omega
  · refine (Ideal.multiReduction_add_single X 0x00000000#32 reduces_S512x512_S512 _ _ (ix1 p)).trans ?_
    refine Finset.sum_congr rfl fun q _ => congrArg X ?_
    funext c
    apply Fin.ext
    match c with
    | ⟨0, _⟩ => rfl
    | ⟨1, _⟩ => rfl

/-- The mask compares the two coordinates: it is set exactly on the diagonal. -/
theorem mask_apply (p q : Fin 512) : k2_pay7 (ix2 p q) = 1#1 ↔ q = p := by
  unfold k2_pay7
  show IntOp.cmpi .eq (iota .tc S512x512 32 [0] iota_S512x512_d0_w32 (ix2 p q))
      (iota .tc S512x512 32 [1] iota_S512x512_d1_w32 (ix2 p q)) = 1#1 ↔ _
  rw [iota_single_apply, iota_single_apply]
  show BitVec.ofBool (BitVec.ofNat 32 p.val == BitVec.ofNat 32 q.val) = 1#1 ↔ q = p
  have hp := p.isLt
  have hq := q.isLt
  constructor
  · intro h
    have h1 : (BitVec.ofNat 32 p.val == BitVec.ofNat 32 q.val) = true := by
      cases hb : (BitVec.ofNat 32 p.val == BitVec.ofNat 32 q.val) with
      | true => rfl
      | false => rw [hb] at h; exact absurd h (by decide)
    have h2 := congrArg BitVec.toNat (eq_of_beq h1)
    simp only [BitVec.toNat_ofNat] at h2
    apply Fin.ext
    omega
  · rintro rfl
    simp

/-- The masked tile's row sums: only the diagonal entry of each row survives the mask. -/
theorem diag_col_apply (A : FVec Ideal S512x512 .f32) (p : Fin 512) :
    shapeCast S512x1 (multiReduction (F := Ideal) .add [1] S512
        (select k2_pay7 A (broadcast S512x512 (Scalar.ofBits (F := Ideal) .f32 0x00000000#32))) 0x00000000#32
        reduces_S512x512_S512 (.inl rfl) rfl) shapeCasts_S512_S512x1 (ix2 p (0 : Fin 1))
      = A (ix2 p p) := by
  refine (rowsum_col_apply _ p).trans ?_
  rw [Finset.sum_eq_single p]
  · show Scalar.select (k2_pay7 (ix2 p p)) (A (ix2 p p)) _ = _
    rw [(mask_apply p p).2 rfl]
    exact select_one _ _
  · intro q _ hq
    show Scalar.select (k2_pay7 (ix2 p q)) (A (ix2 p q)) (Ideal.ofBits .f32 0x00000000#32) = 0
    rw [eq_zero_of_ne_one (fun h => hq ((mask_apply p q).1 h)), select_zero]
    exact Ideal.ofBits_zero_f32
  · intro h
    exact absurd (Finset.mem_univ p) h

end Pay

open Pay

/-- The row loss from the three columns: every operation is pointwise, and the zero word is zero. -/
theorem pay1_apply (a b s : Vec Ideal S512x1 .f32) (p : Fin 512) :
    k2_pay1 (F := Ideal) a b s (ix2 p (0 : Fin 1))
      = (0 - Ideal.log (a (ix2 p 0))) + Ideal.log (s (ix2 p 0) - b (ix2 p 0)) := by
  unfold k2_pay1
  show (Ideal.ofBits .f32 0x00000000#32 - Ideal.log (a (ix2 p 0))) + Ideal.log (s (ix2 p 0) - b (ix2 p 0)) = _
  rw [Ideal.ofBits_zero_f32]

/-- The zero word broadcast over a column, cast to its own shape, is zero at every row. -/
theorem pay2_apply (p : Fin 512) : k2_pay2 (F := Ideal) (ix2 p (0 : Fin 1)) = 0 := by
  unfold k2_pay2
  rw [shapeCast_self]
  exact Ideal.ofBits_zero_f32

theorem pay3_apply (p : Fin 512) : k2_pay3 (F := Ideal) (ix2 p (0 : Fin 1)) = 0 := by
  unfold k2_pay3
  rw [shapeCast_self]
  exact Ideal.ofBits_zero_f32

theorem pay4_apply (p : Fin 512) : k2_pay4 (F := Ideal) (ix2 p (0 : Fin 1)) = 0 := by
  unfold k2_pay4
  rw [shapeCast_self]
  exact Ideal.ofBits_zero_f32

/-- The tile of exponentiated similarities at `(p, q)`: the inner product of row `p` of the first block with row `q` of
    the second (the second block enters transposed), scaled and exponentiated. -/
theorem pay5_apply (x0 x1 : Vec Ideal S512x256 .bf16) (p q : Fin 512) :
    k2_pay5 (F := Ideal) x0 x1 (ix2 p q)
      = Ideal.exp ((∑ d : Fin 256, x0 (ix2 p d) * x1 (ix2 q d)) * Cert.Spec.kV) := by
  unfold k2_pay5
  rw [shapeCast_self, shapeCast_self]
  show Ideal.exp (matmul dot_S512x256_S256x512_S512x512_1_0_0_1_n_n none x0
      (transpose S256x512 [1, 0] x1 transposes_S512x256_p1_0_S256x512)
      (constant (F := Ideal) S512x512 .f32 0x00000000#32) (ix2 p q)
    * Named.named (F := Ideal) κ "inv_temperature" (φ := .f32) 0x41649249#32) = _
  rw [matmul_tile_apply, inv_temperature]
  refine congrArg (fun t => Ideal.exp (t * Cert.Spec.kV)) (Finset.sum_congr rfl fun d _ => ?_)
  rw [transpose_ix2_apply]

/-- The running row sum: what was found plus the tile's row sums. -/
theorem pay6_apply (x0 x1 : Vec Ideal S512x256 .bf16) (s : Vec Ideal S512x1 .f32) (p : Fin 512) :
    k2_pay6 (F := Ideal) x0 x1 s (ix2 p (0 : Fin 1))
      = s (ix2 p 0) + ∑ q : Fin 512, k2_pay5 (F := Ideal) x0 x1 (ix2 p q) := by
  unfold k2_pay6
  rw [shapeCast_self]
  show s (ix2 p 0) + shapeCast S512x1 (multiReduction (F := Ideal) .add [1] S512 (k2_pay5 (F := Ideal) x0 x1) 0x00000000#32
      reduces_S512x512_S512 (.inl rfl) rfl) shapeCasts_S512_S512x1 (ix2 p (0 : Fin 1)) = _
  rw [rowsum_col_apply]

/-- The diagonal column: the tile's diagonal entry of each row. -/
theorem pay8_apply (x0 x1 : Vec Ideal S512x256 .bf16) (p : Fin 512) :
    k2_pay8 (F := Ideal) x0 x1 (ix2 p (0 : Fin 1)) = k2_pay5 (F := Ideal) x0 x1 (ix2 p p) := by
  unfold k2_pay8
  rw [shapeCast_self]
  exact diag_col_apply _ p

/-- The positive-pair column: again the tile's diagonal entry of each row (the tile is the mirror one). -/
theorem pay9_apply (x0 x1 : Vec Ideal S512x256 .bf16) (p : Fin 512) :
    k2_pay9 (F := Ideal) x0 x1 (ix2 p (0 : Fin 1)) = k2_pay5 (F := Ideal) x0 x1 (ix2 p p) := by
  unfold k2_pay9
  rw [shapeCast_self]
  exact diag_col_apply _ p

end Cert.KernelIdeal.Hand

end
-- ==== Proof.KSimValue.lean ====
/-
  The value of the similarity region at the extended reals: after the region, entry (r, 0) of the 8192 × 1 output
  array is row r's loss, as a function of the stacked 8192 × 256 array Z the region is entered with.

  Write E r c = exp (⟨Z r, Z c⟩ · k) for the exponentiated similarities. Point number n = 16·i + j of the grid reads row
  block i and column block j of Z: entry (p, d) of the row block is Z (512·i + p) d, entry (q, d) of the column block is
  Z (512·j + q) d, so entry (p, q) of the point's tile is E (512·i + p) (512·j + q). By induction on the point, at row
  r = 512·i + p after point 16·i + j the three kept columns hold: the sum of E r c over the columns c < 512·(j + 1)
  (reset at j = 0, each point adding its tile's 512 entries, a sum over consecutive ranges of columns); E r r once j has
  reached i; and E r (r + 4096 mod 8192) once j has reached (i + 8) mod 16, because 512·((i + 8) mod 16) + p is
  (512·i + p + 4096) mod 8192. At j = 15 all three are complete, and the loss stored is
  (0 − log E r (mir r)) + log (∑ c, E r c − E r r). The output block is written back exactly at the points with j = 15,
  at block index i, so row r is covered by point 16·(r / 512) + 15 and the array ends holding the row losses.
-/
import proofs.«157580_j19722489823618_1_alg».proof.Proof.KSim
import proofs.«157580_j19722489823618_1_alg».proof.Proof.KSimPay
import proofs.«157580_j19722489823618_1_alg».proof.Proof.Spec
import Idealize.ShloMosaic.Lib.Pipeline.Value
import Idealize.ShloMosaic.Lib.ValueIdx
import Mathlib.Algebra.BigOperators.Group.Finset.Basic
import Mathlib.Data.Fintype.BigOperators

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

namespace SimValue

/-! ## The windows' block indices at a point -/

/-- The row window follows `i`, the column window `j`, the output window `i`; none moves along the second axis. -/
theorem blockIndex : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = 0 :=
  (by decide +kernel : ∀ t : Fin grid2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = 0)

/-- The grid has 256 points. -/
theorem points256 : cfg2.N = 256 := N_2

/-- Below 256, point number `n` is `n`. -/
theorem pt2_val_lt (n : ℕ) (h : n < 256) : (pt2 n).val = n := Nat.mod_eq_of_lt h

/-! ## Rows of 8192 entries as sequences, and the sum of a row taken tile by tile -/

/-- A row of 8192 entries continued by zero past its end. -/
def ext0 (f : Fin 8192 → EReal) (k : ℕ) : EReal := if h : k < 8192 then f ⟨k, h⟩ else 0

theorem ext0_eq (f : Fin 8192 → EReal) (k : ℕ) (k' : Fin 8192) (hk : k'.val = k) : ext0 f k = f k' := by
  subst hk; unfold ext0; rw [dif_pos k'.isLt]

/-- The whole row's sum is the sequence's sum over the first 8192 naturals. -/
theorem sum_ext0 (f : Fin 8192 → EReal) : ∑ k ∈ Finset.range 8192, ext0 f k = ∑ k : Fin 8192, f k := by
  rw [← Fin.sum_univ_eq_sum_range (ext0 f) 8192]
  exact Finset.sum_congr rfl fun k _ => ext0_eq f k.val k rfl

/-- The columns below `512·(j + 1)` are those below `512·j` and the 512 of tile `j`. -/
theorem sum_tile (f : Fin 8192 → EReal) (j : ℕ) :
    ∑ k ∈ Finset.range (512 * (j + 1)), ext0 f k
      = ∑ k ∈ Finset.range (512 * j), ext0 f k + ∑ q : Fin 512, ext0 f (512 * j + q.val) := by
  rw [show 512 * (j + 1) = 512 * j + 512 from by omega, Finset.sum_range_add,
    ← Fin.sum_univ_eq_sum_range (fun x => ext0 f (512 * j + x)) 512]

section Region2Value
variable (V : (c : Dev nD) → (b : Ref sig .tc) → Buf (Elt Ideal) ((c : Thread nD τ).loc b))

/-- The stacked array the region is entered with, by row and column. -/
abbrev Zof (c : Dev nD) : Fin 8192 → Fin 256 → EReal := fun r d => V c main_v2 (ix2 r d)

/-- Its exponentiated similarities. -/
abbrev Eof (c : Dev nD) : Fin 8192 → Fin 8192 → EReal := Cert.Spec.expMul (Zof V c)

/-! ## The two blocks read at a point -/

/-- Entry `(p, d)` of the row block at point `16·i + j` is entry `(512·i + p, d)` of the stacked array. -/
theorem zrow_apply (c : Dev nD) (t : Fin cfg2.N) (p : Fin 512) (d : Fin 256) (r : Fin 8192)
    (hr : r.val = 512 * (t.val / 16) + p.val) :
    zrow V c t (ix2 p d) = Zof V c r d := by
  show V c main_v2 (((cfg2.win 0).blk t).view.emb (ix2 p d)) = V c main_v2 (ix2 r d)
  refine congrArg (V c main_v2) (funext fun a => Fin.ext ?_)
  obtain ⟨e0, e1, -, -, -, -⟩ := blockIndex t
  match a with
  | ⟨0, _⟩ => show win2_0.index t (0 : Fin 2) * 512 + 1 * p.val = r.val; rw [e0, hr]; omega
  | ⟨1, _⟩ => show win2_0.index t (1 : Fin 2) * 256 + 1 * d.val = d.val; rw [e1]; omega

/-- Entry `(q, d)` of the column block at point `16·i + j` is entry `(512·j + q, d)` of the stacked array. -/
theorem zcol_apply (c : Dev nD) (t : Fin cfg2.N) (q : Fin 512) (d : Fin 256) (k : Fin 8192)
    (hk : k.val = 512 * (t.val % 16) + q.val) :
    zcol V c t (ix2 q d) = Zof V c k d := by
  show V c main_v2 (((cfg2.win 1).blk t).view.emb (ix2 q d)) = V c main_v2 (ix2 k d)
  refine congrArg (V c main_v2) (funext fun a => Fin.ext ?_)
  obtain ⟨-, -, e0, e1, -, -⟩ := blockIndex t
  match a with
  | ⟨0, _⟩ => show win2_1.index t (0 : Fin 2) * 512 + 1 * q.val = k.val; rw [e0, hk]; omega
  | ⟨1, _⟩ => show win2_1.index t (1 : Fin 2) * 256 + 1 * d.val = d.val; rw [e1]; omega

/-- Entry `(p, q)` of the tile at point `16·i + j` is the exponentiated similarity of rows `512·i + p` and `512·j + q`. -/
theorem tile_apply (c : Dev nD) (t : Fin cfg2.N) (p q : Fin 512) (r k : Fin 8192)
    (hr : r.val = 512 * (t.val / 16) + p.val) (hk : k.val = 512 * (t.val % 16) + q.val) :
    k2_pay5 (F := Ideal) (zrow V c t) (zcol V c t) (ix2 p q) = Eof V c r k := by
  rw [pay5_apply (zrow V c t) (zcol V c t) p q]
  show _ = Ideal.exp ((∑ d : Fin 256, Zof V c r d * Zof V c k d) * Cert.Spec.kV)
  refine congrArg (fun s => Ideal.exp (s * Cert.Spec.kV)) (Finset.sum_congr rfl fun d _ => ?_)
  rw [zrow_apply V c t p d r hr, zcol_apply V c t q d k hk]

end Region2Value

section Region2Fold
variable (V : (c : Dev nD) → (b : Ref sig .tc) → Buf (Elt Ideal) ((c : Thread nD τ).loc b))

/-! ## One point's three columns at a row -/

/-- The coordinates of point `n`. -/
theorem coords_pt2 (n : ℕ) (hn : n < 256) :
    (grid2.coords (pt2 n) 0).val = n / 16 ∧ (grid2.coords (pt2 n) 1).val = n % 16 := by
  have h := coords2 (pt2 n); rw [pt2_val_lt n hn] at h; exact h

/-- The running row sum after point `n`, at row `p` of the block: what was found (zero at `j = 0`) and the tile's 512 entries. -/
theorem sc0_at (c : Dev nD) (n : ℕ) (hn : n < 256) (s0 : Vec Ideal S512x1 .f32) (p : Fin 512) (r : Fin 8192)
    (hr : r.val = 512 * (n / 16) + p.val) :
    sc0Step (grid2.coords (pt2 n)) (zrow V c (pt2 n)) (zcol V c (pt2 n)) s0 (ix2 p (0 : Fin 1))
      = (if n % 16 = 0 then 0 else s0 (ix2 p (0 : Fin 1))) + ∑ q : Fin 512, ext0 (Eof V c r) (512 * (n % 16) + q.val) := by
  obtain ⟨h0, h1⟩ := coords_pt2 n hn
  have hv := pt2_val_lt n hn
  refine (pay6_apply (zrow V c (pt2 n)) (zcol V c (pt2 n)) (if (grid2.coords (pt2 n) 1).val = 0 then k2_pay2 (F := Ideal) else s0) p).trans ?_
  congr 1
  · rw [h1]
    by_cases hj : n % 16 = 0
    · rw [if_pos hj, if_pos hj]; exact pay2_apply p
    · rw [if_neg hj, if_neg hj]
  · refine Finset.sum_congr rfl fun q _ => ?_
    have hk : 512 * (n % 16) + q.val < 8192 := by have := q.isLt; omega
    rw [ext0_eq (Eof V c r) _ ⟨512 * (n % 16) + q.val, hk⟩ rfl]
    exact tile_apply V c (pt2 n) p q r _ (by rw [hv]; exact hr) (by rw [hv])

/-- The diagonal column after point `n`, at row `p`: the row's own entry at `j = i`, zero at `j = 0`, else as found. -/
theorem sc1_at (c : Dev nD) (n : ℕ) (hn : n < 256) (s1 : Vec Ideal S512x1 .f32) (p : Fin 512) (r : Fin 8192)
    (hr : r.val = 512 * (n / 16) + p.val) :
    sc1Step (grid2.coords (pt2 n)) (zrow V c (pt2 n)) (zcol V c (pt2 n)) s1 (ix2 p (0 : Fin 1))
      = if n % 16 = n / 16 then Eof V c r r else if n % 16 = 0 then 0 else s1 (ix2 p (0 : Fin 1)) := by
  obtain ⟨h0, h1⟩ := coords_pt2 n hn
  have hv := pt2_val_lt n hn
  unfold sc1Step
  rw [h0, h1]
  by_cases hd : n % 16 = n / 16
  · rw [if_pos hd, if_pos hd, pay8_apply (zrow V c (pt2 n)) (zcol V c (pt2 n)) p]
    exact tile_apply V c (pt2 n) p p r r (by rw [hv]; exact hr) (by rw [hv, hd]; exact hr)
  · rw [if_neg hd, if_neg hd]
    by_cases hj : n % 16 = 0
    · rw [if_pos hj, if_pos hj]; exact pay3_apply p
    · rw [if_neg hj, if_neg hj]

/-- The positive-pair column after point `n`, at row `p`: the entry at the row's partner at `j = (i + 8) mod 16`, zero at `j = 0`, else as found. -/
theorem sc2_at (c : Dev nD) (n : ℕ) (hn : n < 256) (s2 : Vec Ideal S512x1 .f32) (p : Fin 512) (r : Fin 8192)
    (hr : r.val = 512 * (n / 16) + p.val) :
    sc2Step (grid2.coords (pt2 n)) (zrow V c (pt2 n)) (zcol V c (pt2 n)) s2 (ix2 p (0 : Fin 1))
      = if n % 16 = (n / 16 + 8) % 16 then Eof V c r (Cert.Spec.mir r) else if n % 16 = 0 then 0 else s2 (ix2 p (0 : Fin 1)) := by
  obtain ⟨h0, h1⟩ := coords_pt2 n hn
  have hv := pt2_val_lt n hn
  unfold sc2Step
  rw [h0, h1]
  by_cases hd : n % 16 = (n / 16 + 8) % 16
  · rw [if_pos hd, if_pos hd, pay9_apply (zrow V c (pt2 n)) (zcol V c (pt2 n)) p]
    refine tile_apply V c (pt2 n) p p r (Cert.Spec.mir r) (by rw [hv]; exact hr) ?_
    show (r.val + 4096) % 8192 = 512 * ((pt2 n).val % 16) + p.val
    rw [hv, hd, hr]; have := p.isLt; omega
  · rw [if_neg hd, if_neg hd]
    by_cases hj : n % 16 = 0
    · rw [if_pos hj, if_pos hj]; exact pay4_apply p
    · rw [if_neg hj, if_neg hj]

/-! ## The three columns after every point -/

/-- After point `16·i + j`, at row `p` of the block (row `r = 512·i + p` of the array): the sum of the row's entries in
    the columns below `512·(j + 1)`; the row's own entry once `j` has reached `i`; the entry at the row's partner once `j`
    has reached `(i + 8) mod 16`. -/
theorem scAt_inv (c : Dev nD) : ∀ (n : ℕ), n < 256 → ∀ (p : Fin 512) (r : Fin 8192), r.val = 512 * (n / 16) + p.val →
    (scAt V c n).1 (ix2 p (0 : Fin 1)) = ∑ k ∈ Finset.range (512 * (n % 16 + 1)), ext0 (Eof V c r) k
    ∧ (scAt V c n).2.1 (ix2 p (0 : Fin 1)) = (if n / 16 ≤ n % 16 then Eof V c r r else 0)
    ∧ (scAt V c n).2.2 (ix2 p (0 : Fin 1)) = (if (n / 16 + 8) % 16 ≤ n % 16 then Eof V c r (Cert.Spec.mir r) else 0)
  | 0, hn, p, r, hr => by
    refine ⟨?_, ?_, ?_⟩
    · refine (sc0_at V c 0 hn (k2_pay2 (F := Ideal)) p r hr).trans ?_
      rw [sum_tile (Eof V c r) (0 % 16), if_pos rfl]
      simp only [Nat.zero_mod, Nat.mul_zero, Finset.range_zero, Finset.sum_empty]
    · refine (sc1_at V c 0 hn (k2_pay3 (F := Ideal)) p r hr).trans ?_
      rw [if_pos rfl, if_pos (le_refl _)]
    · refine (sc2_at V c 0 hn (k2_pay4 (F := Ideal)) p r hr).trans ?_
      rw [if_neg (by decide), if_pos rfl, if_neg (by decide)]
  | n + 1, hn, p, r, hr => by
    by_cases hj : (n + 1) % 16 = 0
    · refine ⟨?_, ?_, ?_⟩
      · refine (sc0_at V c (n + 1) hn (scAt V c n).1 p r hr).trans ?_
        rw [sum_tile (Eof V c r) ((n + 1) % 16), if_pos hj, hj]
        simp only [Nat.mul_zero, Finset.range_zero, Finset.sum_empty]
      · refine (sc1_at V c (n + 1) hn (scAt V c n).2.1 p r hr).trans ?_
        by_cases hd : (n + 1) % 16 = (n + 1) / 16
        · rw [if_pos hd, if_pos (by omega)]
        · rw [if_neg hd, if_pos hj, if_neg (by omega)]
      · refine (sc2_at V c (n + 1) hn (scAt V c n).2.2 p r hr).trans ?_
        by_cases hd : (n + 1) % 16 = ((n + 1) / 16 + 8) % 16
        · rw [if_pos hd, if_pos (by omega)]
        · rw [if_neg hd, if_pos hj, if_neg (by omega)]
    · obtain ⟨iA, iB, iC⟩ := scAt_inv c n (by omega) p r (by rw [hr]; omega)
      have hj' : n % 16 + 1 = (n + 1) % 16 := by omega
      have hi' : n / 16 = (n + 1) / 16 := by omega
      refine ⟨?_, ?_, ?_⟩
      · refine (sc0_at V c (n + 1) hn (scAt V c n).1 p r hr).trans ?_
        rw [sum_tile (Eof V c r) ((n + 1) % 16), if_neg hj, iA, hj']
      · refine (sc1_at V c (n + 1) hn (scAt V c n).2.1 p r hr).trans ?_
        by_cases hd : (n + 1) % 16 = (n + 1) / 16
        · rw [if_pos hd, if_pos (by omega)]
        · rw [if_neg hd, if_neg hj, iB]
          exact if_congr (by omega) rfl rfl
      · refine (sc2_at V c (n + 1) hn (scAt V c n).2.2 p r hr).trans ?_
        by_cases hd : (n + 1) % 16 = ((n + 1) / 16 + 8) % 16
        · rw [if_pos hd, if_pos (by omega)]
        · rw [if_neg hd, if_neg hj, iC]
          exact if_congr (by omega) rfl rfl

/-- After a point with `j = 15` the three columns are complete, and the stored loss is the row's. -/
theorem outAt_apply (c : Dev nD) (t : Fin cfg2.N) (ht : t.val % 16 = 15) (p : Fin 512) (r : Fin 8192)
    (hr : r.val = 512 * (t.val / 16) + p.val) :
    outAt V c t (ix2 p (0 : Fin 1)) = Cert.Spec.lossSub (Eof V c) r := by
  have htl : t.val < 256 := lt_of_lt_of_eq t.isLt points256
  obtain ⟨iA, iB, iC⟩ := scAt_inv V c t.val htl p r hr
  refine (pay1_apply (scAt V c t.val).2.2 (scAt V c t.val).2.1 (scAt V c t.val).1 p).trans ?_
  rw [iA, iB, iC, ht, if_pos (by omega), if_pos (by omega), show 512 * (15 + 1) = 8192 from rfl, sum_ext0]
  rfl

end Region2Fold

section Region2Array
variable (V : (c : Dev nD) → (b : Ref sig .tc) → Buf (Elt Ideal) ((c : Thread nD τ).loc b))

/-! ## From the blocks written back to the output array -/

/-- The row losses as one 8192 × 1 array. -/
abbrev Gof (c : Dev nD) : S8192x1.Idx → EReal :=
  fun i => Cert.Spec.lossSub (Eof V c) ⟨(i 0).val, idx2_lt0 i⟩

/-- What a point with `j = 15` writes back is its block of the array of row losses. -/
theorem flushed2_eq (c : Dev nD) (t : Fin cfg2.N) (hf : (cfg2.win 2).flush t = true) :
    (dat2 (F := Ideal) V c).flushed 2 t = ((cfg2.win 2).blk t).view.read (Elt Ideal) (Gof V c) := by
  have ht : t.val % 16 = 15 := (flush2_2 t).mp hf
  have htl : t.val < 256 := lt_of_lt_of_eq t.isLt points256
  show (cfg2.win 2).cut (grid2.coords t) ((dat2 (F := Ideal) V c).after 2 t) = _
  rw [after2_2]
  funext y
  have h0 : (y 0).val < 512 := (y 0).isLt
  have h1 : (y 1).val < 1 := (y 1).isLt
  have hy : y = ix2 (⟨(y 0).val, h0⟩ : Fin 512) (0 : Fin 1) := by
    funext a
    match a with
    | ⟨0, _⟩ => rfl
    | ⟨1, _⟩ => exact Fin.ext (by show (y 1).val = 0; omega)
  have hr : 512 * (t.val / 16) + (y 0).val < 8192 := by omega
  show outAt V c t y = Gof V c (((cfg2.win 2).blk t).view.emb y)
  rw [hy]
  refine (outAt_apply V c t ht ⟨(y 0).val, h0⟩ ⟨512 * (t.val / 16) + (y 0).val, hr⟩ rfl).trans ?_
  refine congrArg (Cert.Spec.lossSub (Eof V c)) (Fin.ext ?_)
  show 512 * (t.val / 16) + (y 0).val = win2_2.index t (0 : Fin 2) * 512 + 1 * (y 0).val
  rw [(blockIndex t).2.2.2.2.1]; omega

end Region2Array

end SimValue

section Region2Final
variable (V : (c : Dev nD) → (b : Ref sig .tc) → Buf (Elt Ideal) ((c : Thread nD τ).loc b))
open SimValue

/-- After the region, entry `(r, 0)` of the output array is row `r`'s loss. -/
theorem final2 (c : Dev nD) (r : Fin 8192) :
    (dat2 (F := Ideal) V c).arrAt 2 cfg2.N (ValueIdx.ix2 r (0 : Fin 1))
      = Cert.Spec.lossSub (Cert.Spec.expMul (fun r d => V c main_v2 (ValueIdx.ix2 r d))) r := by
  have hr := r.isLt
  have hlt : 16 * (r.val / 512) + 15 < cfg2.N := by rw [points256]; omega
  have hfl : (cfg2.win 2).flush ⟨16 * (r.val / 512) + 15, hlt⟩ = true :=
    (flush2_2 _).mpr (by show (16 * (r.val / 512) + 15) % 16 = 15; omega)
  refine ((dat2 (F := Ideal) V c).arrAt_apply_of_mem 2 (Gof V c) (flushed2_eq V c) cfg2.N
    ⟨16 * (r.val / 512) + 15, hlt⟩ (ix2 r (0 : Fin 1)) hlt hfl ?_).trans ?_
  · show ix2 r (0 : Fin 1) ∈ ((View.whole main_v3).slice (win2_2.rect ⟨16 * (r.val / 512) + 15, hlt⟩)).set
    rw [View.set_slice_whole, Rect.mem_set_unit]
    obtain ⟨-, -, -, -, e0, e1⟩ := blockIndex ⟨16 * (r.val / 512) + 15, hlt⟩
    intro a
    match a with
    | ⟨0, _⟩ =>
      show win2_2.index ⟨16 * (r.val / 512) + 15, hlt⟩ (0 : Fin 2) * 512 ≤ r.val
        ∧ r.val < win2_2.index ⟨16 * (r.val / 512) + 15, hlt⟩ (0 : Fin 2) * 512 + 512
      rw [e0]; show (16 * (r.val / 512) + 15) / 16 * 512 ≤ r.val ∧ r.val < (16 * (r.val / 512) + 15) / 16 * 512 + 512
      omega
    | ⟨1, _⟩ =>
      show win2_2.index ⟨16 * (r.val / 512) + 15, hlt⟩ (1 : Fin 2) * 1 ≤ 0
        ∧ 0 < win2_2.index ⟨16 * (r.val / 512) + 15, hlt⟩ (1 : Fin 2) * 1 + 1
      rw [e1]; omega
  · rfl

end Region2Final

end Cert.KernelIdeal.Hand

end
-- ==== Proof.KHost.lean ====
/-
  The two stretches of whole-array operations around the tiled stages, read at extended reals.

  Before the tiles: the two normalised 4096 × 256 arrays are stacked along the row axis into one 8192 × 256 array;
  entry `(r, d)` of the stack is entry `(r, d)` of the first array for `r < 4096` and entry `(r - 4096, d)` of the
  second otherwise, which is `Cert.Spec.zcat`.

  After the tiles: the 8192 × 1 column of row losses is summed over both axes from the initial value `0` and the sum
  is divided by the word 0x46000000; the sum over all indices of an 8192 × 1 array is the sum over its rows of the
  entry in column 0, so the result is `Cert.Spec.meanOf` of the column.
-/
import proofs.«157580_j19722489823618_1_alg».proof.KernelIdeal
import proofs.«157580_j19722489823618_1_alg».proof.Proof.Spec
import Idealize.ShloMosaic.PureOps.Ideal
import Idealize.ShloMosaic.PureOps.Ideal.Laws
import Idealize.ShloMosaic.Lib.ValueIdx
import Idealize.ShloMosaic.Lib.Pipeline.Value

namespace Cert.KernelIdeal.Hand

open Idealize.ShloMosaic Cert.KernelIdeal
open Cert.KernelIdeal.Facts₀ Cert.KernelIdeal.Facts

variable [Facts]

/-- The stack of two 4096-row arrays at row `r`, column `d`: the first array's row `r` below 4096, the second
    array's row `r - 4096` from 4096 on; the column is unchanged. -/
theorem concat_read (a b : Vec Ideal S4096x256 .bf16) (r : Fin 8192) (d : Fin 256) :
    (concatenate S8192x256 0 [⟨S4096x256, a⟩, ⟨S4096x256, b⟩] concatenates_S4096x256_S4096x256_S8192x256_d0 : Vec Ideal S8192x256 .bf16) (ValueIdx.ix2 r d)
      = Cert.Spec.zcat (fun r d => a (ValueIdx.ix2 r d)) (fun r d => b (ValueIdx.ix2 r d)) r d := by
  unfold Cert.Spec.zcat
  by_cases h : r.val < 4096
  · -- the row falls in the first piece: same row, same column
    rw [dif_pos h]
    refine concatenate_pair_apply_left 0 a b _ (ValueIdx.ix2 r d) rfl (ValueIdx.ix2 ⟨r.val, h⟩ d) ?_
    intro c
    match c with
    | ⟨0, _⟩ => rfl
    | ⟨1, _⟩ => rfl
  · -- the row falls in the second piece: the row less the first piece's 4096 rows, same column
    rw [dif_neg h]
    refine concatenate_pair_apply_right 0 a b _ (ValueIdx.ix2 r d) rfl rfl
      (ValueIdx.ix2 ⟨r.val - 4096, by have := r.isLt; omega⟩ d) ?_ ?_
    · intro c hc
      match c, hc with
      | ⟨0, _⟩, hc => exact absurd rfl hc
      | ⟨1, _⟩, _ => rfl
    · show r.val - 4096 + 4096 = r.val
      omega

/-- The sum of an 8192 × 1 array over both axes, from the initial value `0`, divided by the word 0x46000000, is the
    mean of its column: `0 + s = s`, and `∑ (r, c), x (r, c) = ∑ r, ∑ c : Fin 1, x (r, c) = ∑ r, x (r, 0)`. -/
theorem mean_read (x : Vec Ideal S8192x1 .f32) :
    (Host.divf (F := Ideal) (Host.reduceAdd x (constant S_ .f32 0x00000000#32) reducesTo_S8192x1_S_d0_1 h_S_) (constant S_ .f32 0x46000000#32) : Vec Ideal S_ .f32)
      = fun _ => Cert.Spec.meanOf (fun r : Fin 8192 => x (ValueIdx.ix2 r (0 : Fin 1))) := by
  funext j
  show Ideal.div (Ideal.hostReduceAdd reducesTo_S8192x1_S_d0_1 x (Ideal.ofBits .f32 0x00000000#32) j)
      (Ideal.ofBits .f32 0x46000000#32) = _
  rw [Ideal.hostReduceAdd_total _ (fun b => b.elim0), Ideal.ofBits_zero_f32, zero_add, ValueIdx.sum_idx2]
  simp only [Fin.sum_univ_one]
  rfl

end Cert.KernelIdeal.Hand
-- ==== Proof.KValue.lean ====
/-
  The idealized kernel program's result as a function of its two arguments.

  The last boundary's contents give the result as the mean of the similarity region's output column; that column is
  the row losses of the stacked array the region was entered with; the stacked array is the concatenation of the two
  normalising regions' output arrays; and each of those is its argument's rows over the larger of their norm and the
  guard. Put together: the result is `Cert.Spec.GK` of the two arguments.
-/
import proofs.«157580_j19722489823618_1_alg».proof.Proof.Gen.KernelIdeal.Launch
import proofs.«157580_j19722489823618_1_alg».proof.Proof.Gen.KernelIdeal.Skeleton
import proofs.«157580_j19722489823618_1_alg».proof.Proof.Gen.KernelIdeal.Points
import proofs.«157580_j19722489823618_1_alg».proof.Proof.KLaunch
import proofs.«157580_j19722489823618_1_alg».proof.Proof.KNormValue
import proofs.«157580_j19722489823618_1_alg».proof.Proof.KSimValue
import proofs.«157580_j19722489823618_1_alg».proof.Proof.KHost
import proofs.«157580_j19722489823618_1_alg».proof.Proof.Spec
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt Ideal) ℓ) (ρ : Dev nD → PrngReg)

/-- The result buffer at the end: the host mean of the similarity region's output column. -/
theorem x5_v5 (c : Dev nD) :
    X5 m c main_v5 = (Host.divf (F := Ideal) (Host.reduceAdd (X4 m c main_v3) (constant S_ .f32 0x00000000#32) reducesTo_S8192x1_S_d0_1 h_S_) (constant S_ .f32 0x46000000#32) : Vec Ideal S_ .f32) := by
  show StableHlo.after hostOps3 (X4 m c) (Proc.devRef .tc main_v5) = _
  after_results

/-- The stacked array the similarity region is entered with: the host concatenation of the two normalised arrays. -/
theorem x3_v2 (c : Dev nD) :
    X3 m c main_v2 = (concatenate S8192x256 0 [⟨S4096x256, X2 m c main_v0⟩, ⟨S4096x256, X2 m c main_v1⟩] concatenates_S4096x256_S4096x256_S8192x256_d0 : Vec Ideal S8192x256 .bf16) := by
  show StableHlo.after hostOps2 (X2 m c) (Proc.devRef .tc main_v2) = _
  after_results

theorem x4_v3 (c : Dev nD) : X4 m c main_v3 = o4 m c := by
  show X4 m c (Proc.devRef .tc main_v3) = _
  unfold X4; rw [Function.update_self]
theorem x2_v1 (c : Dev nD) : X2 m c main_v1 = o2 m c := by
  show X2 m c (Proc.devRef .tc main_v1) = _
  unfold X2; rw [Function.update_self]
theorem x2_v0 (c : Dev nD) : X2 m c main_v0 = o1 m c := by
  show X2 m c (Proc.devRef .tc main_v0) = _
  unfold X2
  rw [Function.update_of_ne (StableHlo.devRef_ne_of_ne (by decide) : (Proc.devRef .tc main_v0 : DevRef τ sig) ≠ Proc.devRef .tc main_v1)]
  unfold X1; rw [Function.update_self]
theorem x1_arg1 (c : Dev nD) : X1 m c main_arg1 = m ((c : Thread nD τ).loc main_arg1) := by
  show X1 m c (Proc.devRef .tc main_arg1) = _
  unfold X1
  rw [Function.update_of_ne (StableHlo.devRef_ne_of_ne (by decide) : (Proc.devRef .tc main_arg1 : DevRef τ sig) ≠ Proc.devRef .tc main_v0)]

/-- The result is `GK` of the two arguments. -/
theorem x5_result (c : Dev nD) :
    X5 m c main_v5 = fun _ => Cert.Spec.GK (Cert.Spec.matOf (m ((c : Thread nD τ).loc main_arg0))) (Cert.Spec.matOf (m ((c : Thread nD τ).loc main_arg1))) := by
  rw [x5_v5, mean_read, x4_v3]
  funext _
  unfold Cert.Spec.GK
  refine congrArg Cert.Spec.meanOf (funext fun r => ?_)
  unfold o4
  rw [final2]
  refine congrArg (fun Z => Cert.Spec.lossSub (Cert.Spec.expMul Z) r) (funext fun r' => funext fun d => ?_)
  show X3 m c main_v2 (ValueIdx.ix2 r' d) = _
  rw [x3_v2, concat_read, x2_v0, x2_v1]
  refine congrArg₂ (fun a b => Cert.Spec.zcat a b r' d) (funext fun p => funext fun q => ?_) (funext fun p => funext fun q => ?_)
  · unfold o1; rw [final0]
  · unfold o2; rw [final1]
    show Cert.Spec.nrm (Cert.Spec.matOf (X1 m c main_arg1)) p q = _
    rw [x1_arg1]

/-- THE VALUE RUN of the idealized kernel program: it terminates from any memory with zero counters, with the result
    at `GK` of the arguments and the arguments unchanged. -/
theorem run_value : θ_run (defs (F := Ideal)) (onTc (τ := τ) (main (F := Ideal))) ⟨m, fun _ => 0, ρ⟩ (fun r => ∀ c : Dev nD,
      r.2.mem ((c.tc : Thread nD τ).loc main_v5) = (fun _ => Cert.Spec.GK (Cert.Spec.matOf (m ((c.tc : Thread nD τ).loc main_arg0))) (Cert.Spec.matOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ⟨?_, ?_, ?_⟩) (run_all (F := Ideal) m ρ)
  · exact (h c _ (mem_uc main_v5 (by decide))).trans (x5_result m c)
  · exact (h c _ (mem_uc main_arg0 (by decide))).trans ((congrFun (V5_eq m c) _).symm.trans (Gen.V5_main_arg0 m (outsOf m) c))
  · exact (h c _ (mem_uc main_arg1 (by decide))).trans ((congrFun (V5_eq m c) _).symm.trans (Gen.V5_main_arg1 m (outsOf m) c))

end Cert.KernelIdeal.Hand

end
-- ==== Proof.RefTerm.lean ====
/-
  The reference's result as one pure term of its two arguments.

  Each row of an argument is divided by the larger of its Euclidean norm and a small constant; the two
  normalised arrays are stacked; the Gram matrix of the stacked rows is divided by the temperature and
  exponentiated. Per row the entry at the partner column (row index plus 4096, reduced modulo 8192) and the
  diagonal entry are read by two gathers over computed index tables; with the row sum they give the row's loss,
  the negated logarithm of a quotient; the result is the sum of the 8192 losses divided by 8192.
-/
import proofs.«157580_j19722489823618_1_alg».proof.Proof.Gen.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F] [Facts]

/-- The result of the reference as a term of its two arguments: row normalisation of each, the stacked array,
    the exponentiated scaled Gram matrix, the partner and diagonal entries read through index tables, the row
    losses and their mean. -/
noncomputable def refTerm (x y : Vec F S4096x256 .f32) : Vec F S_ .f32 :=
  -- the first argument's rows over the larger of their norm and the guard
  have c0_v0 : FVec F S4096x256 .f32 := mulf x x
  have c0_cst : FVec F S_ .f32 := constant S_ .f32 0x00000000#32
  have c0_v1 : FVec F S4096 .f32 := Host.reduceAdd c0_v0 c0_cst reducesTo_S4096x256_S4096_d1 h_S_
  have c0_v2 : FVec F S4096x1 .f32 := broadcastInDim S4096x1 ![0] bcast_S4096_S4096x1_0 c0_v1
  have v0 : FVec F S4096x1 .f32 := Host.sqrt c0_v2
  have cst : FVec F S_ .f32 := constant S_ .f32 0x2B8CBCCC#32
  have v1 : FVec F S4096x1 .f32 := broadcastInDim S4096x1 ![] bcast_S_S4096x1 cst
  have v2 : FVec F S4096x1 .f32 := maximumf v0 v1
  have v3 : FVec F S4096x256 .f32 := broadcastInDim S4096x256 ![0, 1] bcast_S4096x1_S4096x256_0_1 v2
  have v4 : FVec F S4096x256 .f32 := Host.divf x v3
  -- the same of the second argument
  have c1_v0 : FVec F S4096x256 .f32 := mulf y y
  have c1_cst : FVec F S_ .f32 := constant S_ .f32 0x00000000#32
  have c1_v1 : FVec F S4096 .f32 := Host.reduceAdd c1_v0 c1_cst reducesTo_S4096x256_S4096_d1 h_S_
  have c1_v2 : FVec F S4096x1 .f32 := broadcastInDim S4096x1 ![0] bcast_S4096_S4096x1_0 c1_v1
  have v5 : FVec F S4096x1 .f32 := Host.sqrt c1_v2
  have cst_0 : FVec F S_ .f32 := constant S_ .f32 0x2B8CBCCC#32
  have v6 : FVec F S4096x1 .f32 := broadcastInDim S4096x1 ![] bcast_S_S4096x1 cst_0
  have v7 : FVec F S4096x1 .f32 := maximumf v5 v6
  have v8 : FVec F S4096x256 .f32 := broadcastInDim S4096x256 ![0, 1] bcast_S4096x1_S4096x256_0_1 v7
  have v9 : FVec F S4096x256 .f32 := Host.divf y v8
  -- stacked, the Gram matrix, the quotient by the temperature, the exponential
  have v10 : FVec F S8192x256 .f32 := concatenate S8192x256 0 [⟨S4096x256, v4⟩, ⟨S4096x256, v9⟩] concatenates_S4096x256_S4096x256_S8192x256_d0
  have v11 : FVec F S8192x8192 .f32 := Host.dotGeneral dot_S8192x256_S8192x256_S8192x8192_1_1_0_0_n_n none v10 v10
  have cst_1 : FVec F S_ .f32 := constant S_ .f32 0x3D8F5C29#32
  have v12 : FVec F S8192x8192 .f32 := broadcastInDim S8192x8192 ![] bcast_S_S8192x8192 cst_1
  have v13 : FVec F S8192x8192 .f32 := Host.divf v11 v12
  have v14 : FVec F S8192x8192 .f32 := Host.exp v13
  -- the row index, and the row index plus 4096
  have v15 : IVec S8192 32 := iotaInDim S8192 32 0
  have c : IVec S_ 32 := constantI S_ 32 4096#32
  have v16 : IVec S8192 32 := broadcastInDim S8192 ![] bcast_S_S8192 c
  have v17 : IVec S8192 32 := addi v15 v16
  have c_2 : IVec S_ 32 := constantI S_ 32 8192#32
  -- its remainder modulo 8192 with the divisor's sign: the divisor guarded against zero, the truncated
  -- remainder, and the divisor added back where the remainder is non-zero and of the other sign
  have c2_v0 : IVec S_ 32 := id c_2
  have c2_c : IVec S_ 32 := constantI S_ 32 0#32
  have c2_v1 : IVec S_ 1 := cmpi .eq c2_v0 c2_c
  have c2_c_0 : IVec S_ 32 := constantI S_ 32 1#32
  have c2_v2 : IVec S_ 32 := select c2_v1 c2_c_0 c2_v0
  have c2_v3 : IVec S8192 32 := broadcastInDim S8192 ![] bcast_S_S8192 c2_v2
  have c2_v4 : IVec S8192 32 := Host.remsi v17 c2_v3
  have c2_c_1 : IVec S_ 32 := constantI S_ 32 0#32
  have c2_v5 : IVec S8192 32 := broadcastInDim S8192 ![] bcast_S_S8192 c2_c_1
  have c2_v6 : IVec S8192 1 := cmpi .ne c2_v4 c2_v5
  have c2_c_2 : IVec S_ 32 := constantI S_ 32 0#32
  have c2_v7 : IVec S8192 32 := broadcastInDim S8192 ![] bcast_S_S8192 c2_c_2
  have c2_v8 : IVec S8192 1 := cmpi .slt c2_v4 c2_v7
  have c2_c_3 : IVec S_ 32 := constantI S_ 32 0#32
  have c2_v9 : IVec S_ 1 := cmpi .slt c2_v2 c2_c_3
  have c2_v10 : IVec S8192 1 := broadcastInDim S8192 ![] bcast_S_S8192 c2_v9
  have c2_v11 : IVec S8192 1 := cmpi .ne c2_v8 c2_v10
  have c2_v12 : IVec S8192 1 := andi c2_v11 c2_v6
  have c2_v13 : IVec S8192 32 := broadcastInDim S8192 ![] bcast_S_S8192 c2_v2
  have c2_v14 : IVec S8192 32 := addi c2_v4 c2_v13
  have v18 : IVec S8192 32 := select c2_v12 c2_v14 c2_v4
  -- the index table of the partner entries: row index and partner column, each wrapped if negative
  have c_3 : IVec S_ 32 := constantI S_ 32 0#32
  have v19 : IVec S8192 32 := broadcastInDim S8192 ![] bcast_S_S8192 c_3
  have v20 : IVec S8192 1 := cmpi .slt v15 v19
  have c_4 : IVec S_ 32 := constantI S_ 32 8192#32
  have v21 : IVec S8192 32 := broadcastInDim S8192 ![] bcast_S_S8192 c_4
  have v22 : IVec S8192 32 := addi v15 v21
  have v23 : IVec S8192 32 := select v20 v22 v15
  have c_5 : IVec S_ 32 := constantI S_ 32 0#32
  have v24 : IVec S8192 32 := broadcastInDim S8192 ![] bcast_S_S8192 c_5
  have v25 : IVec S8192 1 := cmpi .slt v18 v24
  have c_6 : IVec S_ 32 := constantI S_ 32 8192#32
  have v26 : IVec S8192 32 := broadcastInDim S8192 ![] bcast_S_S8192 c_6
  have v27 : IVec S8192 32 := addi v18 v26
  have v28 : IVec S8192 32 := select v25 v27 v18
  have v29 : IVec S8192x1 32 := broadcastInDim S8192x1 ![0] bcast_S8192_S8192x1_0 v23
  have v30 : IVec S8192x1 32 := broadcastInDim S8192x1 ![0] bcast_S8192_S8192x1_0 v28
  have v31 : IVec S8192x2 32 := concatenate S8192x2 1 [⟨S8192x1, v29⟩, ⟨S8192x1, v30⟩] concatenates_S8192x1_S8192x1_S8192x2_d1
  have v32 : FVec F S8192 .f32 := Host.gather gather_S8192x8192_S8192x2_S8192_n_01_n_n_01_1_11 v14 v31
  -- the index table of the diagonal entries: the row index twice
  have c_7 : IVec S_ 32 := constantI S_ 32 0#32
  have v33 : IVec S8192 32 := broadcastInDim S8192 ![] bcast_S_S8192 c_7
  have v34 : IVec S8192 1 := cmpi .slt v15 v33
  have c_8 : IVec S_ 32 := constantI S_ 32 8192#32
  have v35 : IVec S8192 32 := broadcastInDim S8192 ![] bcast_S_S8192 c_8
  have v36 : IVec S8192 32 := addi v15 v35
  have v37 : IVec S8192 32 := select v34 v36 v15
  have c_9 : IVec S_ 32 := constantI S_ 32 0#32
  have v38 : IVec S8192 32 := broadcastInDim S8192 ![] bcast_S_S8192 c_9
  have v39 : IVec S8192 1 := cmpi .slt v15 v38
  have c_10 : IVec S_ 32 := constantI S_ 32 8192#32
  have v40 : IVec S8192 32 := broadcastInDim S8192 ![] bcast_S_S8192 c_10
  have v41 : IVec S8192 32 := addi v15 v40
  have v42 : IVec S8192 32 := select v39 v41 v15
  have v43 : IVec S8192x1 32 := broadcastInDim S8192x1 ![0] bcast_S8192_S8192x1_0 v37
  have v44 : IVec S8192x1 32 := broadcastInDim S8192x1 ![0] bcast_S8192_S8192x1_0 v42
  have v45 : IVec S8192x2 32 := concatenate S8192x2 1 [⟨S8192x1, v43⟩, ⟨S8192x1, v44⟩] concatenates_S8192x1_S8192x1_S8192x2_d1
  have v46 : FVec F S8192 .f32 := Host.gather gather_S8192x8192_S8192x2_S8192_n_01_n_n_01_1_11 v14 v45
  -- the row sums, the row losses, their mean
  have cst_11 : FVec F S_ .f32 := constant S_ .f32 0x00000000#32
  have v47 : FVec F S8192 .f32 := Host.reduceAdd v14 cst_11 reducesTo_S8192x8192_S8192_d1 h_S_
  have v48 : FVec F S8192 .f32 := subf v47 v46
  have v49 : FVec F S8192 .f32 := subf v48 v32
  have v50 : FVec F S8192 .f32 := addf v32 v49
  have v51 : FVec F S8192 .f32 := Host.divf v32 v50
  have v52 : FVec F S8192 .f32 := Host.log v51
  have v53 : FVec F S8192 .f32 := Host.negf v52
  have cst_12 : FVec F S_ .f32 := constant S_ .f32 0x00000000#32
  have v54 : FVec F S_ .f32 := Host.reduceAdd v53 cst_12 reducesTo_S8192_S_d0 h_S_
  have cst_13 : FVec F S_ .f32 := constant S_ .f32 0x46000000#32
  have v55 : FVec F S_ .f32 := Host.divf v54 cst_13
  v55

end Cert.ReferenceIdeal.Hand

end
-- ==== Proof.RefRun.lean ====
/-
  The run of the reference: its one hundred host operations in order, and what they leave in the result buffer.

  The straight line is read in eight consecutive slices. The first leaves the two row-normalised arrays; the second
  stacks them and leaves the exponentiated scaled Gram matrix; the third the row index and the partner column
  (row index plus 4096, reduced modulo 8192); the fourth the two index columns of the partner entries; the fifth reads
  those entries; the sixth and seventh do the same for the diagonal entries; the eighth forms the row sums, the
  row losses and their mean. Each slice's values are stated as a function of the values the slice reads, and the
  composition of the eight is the reference's term.
-/
import proofs.«157580_j19722489823618_1_alg».proof.Proof.Gen.ReferenceIdeal
import proofs.«157580_j19722489823618_1_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
variable [Facts]

/-- Two arrays joined along one axis: the first array's entries, then the second's. -/
def cat2 {α : Type} (t : Shape) (d : Fin t.rank) (s₁ s₂ : Shape) (h : Shape.Concatenates [s₁, s₂] t d)
    (a : s₁.Idx → α) (b : s₂.Idx → α) : t.Idx → α :=
  concatenate t d [⟨s₁, a⟩, ⟨s₂, b⟩] h

/-- The fold of two lines run one after the other is the second line's fold over the first's. -/
theorem after_append (l₁ l₂ : List (HloOp τ sig (Elt F))) (V : Valuation τ sig (Elt F)) (b : DevRef τ sig) :
    after (l₁ ++ l₂) V b = after l₂ (after l₁ V) b := by
  induction l₁ generalizing V with
  | nil => rfl
  | cons op l ih => simp only [List.cons_append, after_cons, ih]

/-! ## The operations -/

/-- @main's 100 operations, in order: the called functions' operations at their call sites, over the call's buffers. -/
abbrev ops : List (HloOp τ sig (Elt F)) :=
  [ StableHlo.TRef.binary (TRef.of main_arg0 : TRef sig ⟨S4096x256, .f32⟩) (TRef.of main_arg0 : TRef sig ⟨S4096x256, .f32⟩) main_call0.v0 mulf,
    StableHlo.TRef.nullary main_call0.cst (constant S_ .f32 0x00000000#32),
    StableHlo.TRef.binary main_call0.v0 main_call0.cst main_call0.v1 (fun x v => Host.reduceAdd x v reducesTo_S4096x256_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (TRef.of main_arg1 : TRef sig ⟨S4096x256, .f32⟩) (TRef.of main_arg1 : TRef sig ⟨S4096x256, .f32⟩) main_call1.v0 mulf,
    StableHlo.TRef.nullary main_call1.cst (constant S_ .f32 0x00000000#32),
    StableHlo.TRef.binary main_call1.v0 main_call1.cst main_call1.v1 (fun x v => Host.reduceAdd x v reducesTo_S4096x256_S4096_d1 h_S_),
    StableHlo.TRef.unary main_call1.v1 main_call1.v2 (broadcastInDim S4096x1 ![0] bcast_S4096_S4096x1_0),
    StableHlo.TRef.unary main_call1.v2 main_call1.v3 Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)),
    StableHlo.binary main_v4 main_v9 main_v10 (cat2 S8192x256 0 S4096x256 S4096x256 concatenates_S4096x256_S4096x256_S8192x256_d0 : (⟨S4096x256, .f32⟩ : BufTy).Contents (Elt F) → (⟨S4096x256, .f32⟩ : BufTy).Contents (Elt F) → (⟨S8192x256, .f32⟩ : BufTy).Contents (Elt F)),
    StableHlo.binary main_v10 main_v10 main_v11 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    StableHlo.nullary main_cst_1 (constant S_ .f32 0x3D8F5C29#32),
    StableHlo.unary main_cst_1 main_v12 (broadcastInDim S8192x8192 ![] bcast_S_S8192x8192 : (⟨S_, .f32⟩ : BufTy).Contents (Elt F) → (⟨S8192x8192, .f32⟩ : BufTy).Contents (Elt F)),
    StableHlo.binary main_v11 main_v12 main_v13 (Host.divf : (⟨S8192x8192, .f32⟩ : BufTy).Contents (Elt F) → (⟨S8192x8192, .f32⟩ : BufTy).Contents (Elt F) → (⟨S8192x8192, .f32⟩ : BufTy).Contents (Elt F)),
    StableHlo.unary main_v13 main_v14 (Host.exp : (⟨S8192x8192, .f32⟩ : BufTy).Contents (Elt F) → (⟨S8192x8192, .f32⟩ : BufTy).Contents (Elt F)),
    StableHlo.nullary main_v15 (iotaInDim S8192 32 0),
    StableHlo.nullary main_c (constantI S_ 32 4096#32),
    StableHlo.unary main_c main_v16 (broadcastInDim S8192 ![] bcast_S_S8192 : (⟨S_, .i32⟩ : BufTy).Contents (Elt F) → (⟨S8192, .i32⟩ : BufTy).Contents (Elt F)),
    StableHlo.binary main_v15 main_v16 main_v17 (addi : (⟨S8192, .i32⟩ : BufTy).Contents (Elt F) → (⟨S8192, .i32⟩ : BufTy).Contents (Elt F) → (⟨S8192, .i32⟩ : BufTy).Contents (Elt F)),
    StableHlo.nullary main_c_2 (constantI S_ 32 8192#32),
    StableHlo.TRef.unary (TRef.of main_c_2 : TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (TRef.of main_v17 : TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_c_3 (constantI S_ 32 0#32),
    StableHlo.unary main_c_3 main_v19 (broadcastInDim S8192 ![] bcast_S_S8192 : (⟨S_, .i32⟩ : BufTy).Contents (Elt F) → (⟨S8192, .i32⟩ : BufTy).Contents (Elt F)),
    StableHlo.binary main_v15 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v21 (broadcastInDim S8192 ![] bcast_S_S8192 : (⟨S_, .i32⟩ : BufTy).Contents (Elt F) → (⟨S8192, .i32⟩ : BufTy).Contents (Elt F)),
    StableHlo.binary main_v15 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v15 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_5 (constantI S_ 32 0#32),
    StableHlo.unary main_c_5 main_v24 (broadcastInDim S8192 ![] bcast_S_S8192 : (⟨S_, .i32⟩ : BufTy).Contents (Elt F) → (⟨S8192, .i32⟩ : BufTy).Contents (Elt F)),
    StableHlo.binary main_v18 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 8192#32),
    StableHlo.unary main_c_6 main_v26 (broadcastInDim S8192 ![] bcast_S_S8192 : (⟨S_, .i32⟩ : BufTy).Contents (Elt F) → (⟨S8192, .i32⟩ : BufTy).Contents (Elt F)),
    StableHlo.binary main_v18 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_v18 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v29 (broadcastInDim S8192x1 ![0] bcast_S8192_S8192x1_0 : (⟨S8192, .i32⟩ : BufTy).Contents (Elt F) → (⟨S8192x1, .i32⟩ : BufTy).Contents (Elt F)),
    StableHlo.unary main_v28 main_v30 (broadcastInDim S8192x1 ![0] bcast_S8192_S8192x1_0 : (⟨S8192, .i32⟩ : BufTy).Contents (Elt F) → (⟨S8192x1, .i32⟩ : BufTy).Contents (Elt F)),
    StableHlo.binary main_v29 main_v30 main_v31 (cat2 S8192x2 1 S8192x1 S8192x1 concatenates_S8192x1_S8192x1_S8192x2_d1 : (⟨S8192x1, .i32⟩ : BufTy).Contents (Elt F) → (⟨S8192x1, .i32⟩ : BufTy).Contents (Elt F) → (⟨S8192x2, .i32⟩ : BufTy).Contents (Elt F)),
    StableHlo.binary main_v14 main_v31 main_v32 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_c_7 (constantI S_ 32 0#32),
    StableHlo.unary main_c_7 main_v33 (broadcastInDim S8192 ![] bcast_S_S8192 : (⟨S_, .i32⟩ : BufTy).Contents (Elt F) → (⟨S8192, .i32⟩ : BufTy).Contents (Elt F)),
    StableHlo.binary main_v15 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v35 (broadcastInDim S8192 ![] bcast_S_S8192 : (⟨S_, .i32⟩ : BufTy).Contents (Elt F) → (⟨S8192, .i32⟩ : BufTy).Contents (Elt F)),
    StableHlo.binary main_v15 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v15 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v38 (broadcastInDim S8192 ![] bcast_S_S8192 : (⟨S_, .i32⟩ : BufTy).Contents (Elt F) → (⟨S8192, .i32⟩ : BufTy).Contents (Elt F)),
    StableHlo.binary main_v15 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v40 (broadcastInDim S8192 ![] bcast_S_S8192 : (⟨S_, .i32⟩ : BufTy).Contents (Elt F) → (⟨S8192, .i32⟩ : BufTy).Contents (Elt F)),
    StableHlo.binary main_v15 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v15 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v37 main_v43 (broadcastInDim S8192x1 ![0] bcast_S8192_S8192x1_0 : (⟨S8192, .i32⟩ : BufTy).Contents (Elt F) → (⟨S8192x1, .i32⟩ : BufTy).Contents (Elt F)),
    StableHlo.unary main_v42 main_v44 (broadcastInDim S8192x1 ![0] bcast_S8192_S8192x1_0 : (⟨S8192, .i32⟩ : BufTy).Contents (Elt F) → (⟨S8192x1, .i32⟩ : BufTy).Contents (Elt F)),
    StableHlo.binary main_v43 main_v44 main_v45 (cat2 S8192x2 1 S8192x1 S8192x1 concatenates_S8192x1_S8192x1_S8192x2_d1 : (⟨S8192x1, .i32⟩ : BufTy).Contents (Elt F) → (⟨S8192x1, .i32⟩ : BufTy).Contents (Elt F) → (⟨S8192x2, .i32⟩ : BufTy).Contents (Elt F)),
    StableHlo.binary main_v14 main_v45 main_v46 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_cst_11 (constant S_ .f32 0x00000000#32),
    StableHlo.binary main_v14 main_cst_11 main_v47 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v47 main_v46 main_v48 (subf : (⟨S8192, .f32⟩ : BufTy).Contents (Elt F) → (⟨S8192, .f32⟩ : BufTy).Contents (Elt F) → (⟨S8192, .f32⟩ : BufTy).Contents (Elt F)),
    StableHlo.binary main_v48 main_v32 main_v49 (subf : (⟨S8192, .f32⟩ : BufTy).Contents (Elt F) → (⟨S8192, .f32⟩ : BufTy).Contents (Elt F) → (⟨S8192, .f32⟩ : BufTy).Contents (Elt F)),
    StableHlo.binary main_v32 main_v49 main_v50 (addf : (⟨S8192, .f32⟩ : BufTy).Contents (Elt F) → (⟨S8192, .f32⟩ : BufTy).Contents (Elt F) → (⟨S8192, .f32⟩ : BufTy).Contents (Elt F)),
    StableHlo.binary main_v32 main_v50 main_v51 (Host.divf : (⟨S8192, .f32⟩ : BufTy).Contents (Elt F) → (⟨S8192, .f32⟩ : BufTy).Contents (Elt F) → (⟨S8192, .f32⟩ : BufTy).Contents (Elt F)),
    StableHlo.unary main_v51 main_v52 (Host.log : (⟨S8192, .f32⟩ : BufTy).Contents (Elt F) → (⟨S8192, .f32⟩ : BufTy).Contents (Elt F)),
    StableHlo.unary main_v52 main_v53 (Host.negf : (⟨S8192, .f32⟩ : BufTy).Contents (Elt F) → (⟨S8192, .f32⟩ : BufTy).Contents (Elt F)),
    StableHlo.nullary main_cst_12 (constant S_ .f32 0x00000000#32),
    StableHlo.binary main_v53 main_cst_12 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v54 main_cst_13 main_v55 (Host.divf : (⟨S_, .f32⟩ : BufTy).Contents (Elt F) → (⟨S_, .f32⟩ : BufTy).Contents (Elt F) → (⟨S_, .f32⟩ : BufTy).Contents (Elt F)) ]

/-- The first 88 operations: the first window of @main. -/
abbrev ops0 : List (HloOp τ sig (Elt F)) :=
  [ StableHlo.TRef.binary (TRef.of main_arg0 : TRef sig ⟨S4096x256, .f32⟩) (TRef.of main_arg0 : TRef sig ⟨S4096x256, .f32⟩) main_call0.v0 mulf,
    StableHlo.TRef.nullary main_call0.cst (constant S_ .f32 0x00000000#32),
    StableHlo.TRef.binary main_call0.v0 main_call0.cst main_call0.v1 (fun x v => Host.reduceAdd x v reducesTo_S4096x256_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (TRef.of main_arg1 : TRef sig ⟨S4096x256, .f32⟩) (TRef.of main_arg1 : TRef sig ⟨S4096x256, .f32⟩) main_call1.v0 mulf,
    StableHlo.TRef.nullary main_call1.cst (constant S_ .f32 0x00000000#32),
    StableHlo.TRef.binary main_call1.v0 main_call1.cst main_call1.v1 (fun x v => Host.reduceAdd x v reducesTo_S4096x256_S4096_d1 h_S_),
    StableHlo.TRef.unary main_call1.v1 main_call1.v2 (broadcastInDim S4096x1 ![0] bcast_S4096_S4096x1_0),
    StableHlo.TRef.unary main_call1.v2 main_call1.v3 Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)),
    StableHlo.binary main_v4 main_v9 main_v10 (cat2 S8192x256 0 S4096x256 S4096x256 concatenates_S4096x256_S4096x256_S8192x256_d0 : (⟨S4096x256, .f32⟩ : BufTy).Contents (Elt F) → (⟨S4096x256, .f32⟩ : BufTy).Contents (Elt F) → (⟨S8192x256, .f32⟩ : BufTy).Contents (Elt F)),
    StableHlo.binary main_v10 main_v10 main_v11 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    StableHlo.nullary main_cst_1 (constant S_ .f32 0x3D8F5C29#32),
    StableHlo.unary main_cst_1 main_v12 (broadcastInDim S8192x8192 ![] bcast_S_S8192x8192 : (⟨S_, .f32⟩ : BufTy).Contents (Elt F) → (⟨S8192x8192, .f32⟩ : BufTy).Contents (Elt F)),
    StableHlo.binary main_v11 main_v12 main_v13 (Host.divf : (⟨S8192x8192, .f32⟩ : BufTy).Contents (Elt F) → (⟨S8192x8192, .f32⟩ : BufTy).Contents (Elt F) → (⟨S8192x8192, .f32⟩ : BufTy).Contents (Elt F)),
    StableHlo.unary main_v13 main_v14 (Host.exp : (⟨S8192x8192, .f32⟩ : BufTy).Contents (Elt F) → (⟨S8192x8192, .f32⟩ : BufTy).Contents (Elt F)),
    StableHlo.nullary main_v15 (iotaInDim S8192 32 0),
    StableHlo.nullary main_c (constantI S_ 32 4096#32),
    StableHlo.unary main_c main_v16 (broadcastInDim S8192 ![] bcast_S_S8192 : (⟨S_, .i32⟩ : BufTy).Contents (Elt F) → (⟨S8192, .i32⟩ : BufTy).Contents (Elt F)),
    StableHlo.binary main_v15 main_v16 main_v17 (addi : (⟨S8192, .i32⟩ : BufTy).Contents (Elt F) → (⟨S8192, .i32⟩ : BufTy).Contents (Elt F) → (⟨S8192, .i32⟩ : BufTy).Contents (Elt F)),
    StableHlo.nullary main_c_2 (constantI S_ 32 8192#32),
    StableHlo.TRef.unary (TRef.of main_c_2 : TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (TRef.of main_v17 : TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_c_3 (constantI S_ 32 0#32),
    StableHlo.unary main_c_3 main_v19 (broadcastInDim S8192 ![] bcast_S_S8192 : (⟨S_, .i32⟩ : BufTy).Contents (Elt F) → (⟨S8192, .i32⟩ : BufTy).Contents (Elt F)),
    StableHlo.binary main_v15 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v21 (broadcastInDim S8192 ![] bcast_S_S8192 : (⟨S_, .i32⟩ : BufTy).Contents (Elt F) → (⟨S8192, .i32⟩ : BufTy).Contents (Elt F)),
    StableHlo.binary main_v15 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v15 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_5 (constantI S_ 32 0#32),
    StableHlo.unary main_c_5 main_v24 (broadcastInDim S8192 ![] bcast_S_S8192 : (⟨S_, .i32⟩ : BufTy).Contents (Elt F) → (⟨S8192, .i32⟩ : BufTy).Contents (Elt F)),
    StableHlo.binary main_v18 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 8192#32),
    StableHlo.unary main_c_6 main_v26 (broadcastInDim S8192 ![] bcast_S_S8192 : (⟨S_, .i32⟩ : BufTy).Contents (Elt F) → (⟨S8192, .i32⟩ : BufTy).Contents (Elt F)),
    StableHlo.binary main_v18 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_v18 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v29 (broadcastInDim S8192x1 ![0] bcast_S8192_S8192x1_0 : (⟨S8192, .i32⟩ : BufTy).Contents (Elt F) → (⟨S8192x1, .i32⟩ : BufTy).Contents (Elt F)),
    StableHlo.unary main_v28 main_v30 (broadcastInDim S8192x1 ![0] bcast_S8192_S8192x1_0 : (⟨S8192, .i32⟩ : BufTy).Contents (Elt F) → (⟨S8192x1, .i32⟩ : BufTy).Contents (Elt F)),
    StableHlo.binary main_v29 main_v30 main_v31 (cat2 S8192x2 1 S8192x1 S8192x1 concatenates_S8192x1_S8192x1_S8192x2_d1 : (⟨S8192x1, .i32⟩ : BufTy).Contents (Elt F) → (⟨S8192x1, .i32⟩ : BufTy).Contents (Elt F) → (⟨S8192x2, .i32⟩ : BufTy).Contents (Elt F)),
    StableHlo.binary main_v14 main_v31 main_v32 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_c_7 (constantI S_ 32 0#32),
    StableHlo.unary main_c_7 main_v33 (broadcastInDim S8192 ![] bcast_S_S8192 : (⟨S_, .i32⟩ : BufTy).Contents (Elt F) → (⟨S8192, .i32⟩ : BufTy).Contents (Elt F)),
    StableHlo.binary main_v15 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v35 (broadcastInDim S8192 ![] bcast_S_S8192 : (⟨S_, .i32⟩ : BufTy).Contents (Elt F) → (⟨S8192, .i32⟩ : BufTy).Contents (Elt F)),
    StableHlo.binary main_v15 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v15 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v38 (broadcastInDim S8192 ![] bcast_S_S8192 : (⟨S_, .i32⟩ : BufTy).Contents (Elt F) → (⟨S8192, .i32⟩ : BufTy).Contents (Elt F)),
    StableHlo.binary main_v15 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v40 (broadcastInDim S8192 ![] bcast_S_S8192 : (⟨S_, .i32⟩ : BufTy).Contents (Elt F) → (⟨S8192, .i32⟩ : BufTy).Contents (Elt F)),
    StableHlo.binary main_v15 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v15 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v37 main_v43 (broadcastInDim S8192x1 ![0] bcast_S8192_S8192x1_0 : (⟨S8192, .i32⟩ : BufTy).Contents (Elt F) → (⟨S8192x1, .i32⟩ : BufTy).Contents (Elt F)),
    StableHlo.unary main_v42 main_v44 (broadcastInDim S8192x1 ![0] bcast_S8192_S8192x1_0 : (⟨S8192, .i32⟩ : BufTy).Contents (Elt F) → (⟨S8192x1, .i32⟩ : BufTy).Contents (Elt F)),
    StableHlo.binary main_v43 main_v44 main_v45 (cat2 S8192x2 1 S8192x1 S8192x1 concatenates_S8192x1_S8192x1_S8192x2_d1 : (⟨S8192x1, .i32⟩ : BufTy).Contents (Elt F) → (⟨S8192x1, .i32⟩ : BufTy).Contents (Elt F) → (⟨S8192x2, .i32⟩ : BufTy).Contents (Elt F)),
    StableHlo.binary main_v14 main_v45 main_v46 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]

/-- The last 12 operations: the second window of @main. -/
abbrev ops1 : List (HloOp τ sig (Elt F)) :=
  [ StableHlo.nullary main_cst_11 (constant S_ .f32 0x00000000#32),
    StableHlo.binary main_v14 main_cst_11 main_v47 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v47 main_v46 main_v48 (subf : (⟨S8192, .f32⟩ : BufTy).Contents (Elt F) → (⟨S8192, .f32⟩ : BufTy).Contents (Elt F) → (⟨S8192, .f32⟩ : BufTy).Contents (Elt F)),
    StableHlo.binary main_v48 main_v32 main_v49 (subf : (⟨S8192, .f32⟩ : BufTy).Contents (Elt F) → (⟨S8192, .f32⟩ : BufTy).Contents (Elt F) → (⟨S8192, .f32⟩ : BufTy).Contents (Elt F)),
    StableHlo.binary main_v32 main_v49 main_v50 (addf : (⟨S8192, .f32⟩ : BufTy).Contents (Elt F) → (⟨S8192, .f32⟩ : BufTy).Contents (Elt F) → (⟨S8192, .f32⟩ : BufTy).Contents (Elt F)),
    StableHlo.binary main_v32 main_v50 main_v51 (Host.divf : (⟨S8192, .f32⟩ : BufTy).Contents (Elt F) → (⟨S8192, .f32⟩ : BufTy).Contents (Elt F) → (⟨S8192, .f32⟩ : BufTy).Contents (Elt F)),
    StableHlo.unary main_v51 main_v52 (Host.log : (⟨S8192, .f32⟩ : BufTy).Contents (Elt F) → (⟨S8192, .f32⟩ : BufTy).Contents (Elt F)),
    StableHlo.unary main_v52 main_v53 (Host.negf : (⟨S8192, .f32⟩ : BufTy).Contents (Elt F) → (⟨S8192, .f32⟩ : BufTy).Contents (Elt F)),
    StableHlo.nullary main_cst_12 (constant S_ .f32 0x00000000#32),
    StableHlo.binary main_v53 main_cst_12 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v54 main_cst_13 main_v55 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = ops0 ++ ops1 := rfl

set_option maxRecDepth 8192 in
set_option maxHeartbeats 2000000 in
theorem part0_eq (c : Dev nD) : main_part0 (F := F) c = seq ops0 := rfl

theorem part1_eq (c : Dev nD) : main_part1 (F := F) c = seq ops1 := rfl

theorem main_eq (c : Dev nD) : main (F := F) c = seq ops := by
  rw [ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., nullary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., binary_bufs_sub .., binary_bufs_sub .., binary_bufs_sub .., binary_bufs_sub .., unary_bufs_sub .., unary_bufs_sub .., nullary_bufs_sub .., binary_bufs_sub .., nullary_bufs_sub .., binary_bufs_sub ..⟩

/-! ## The stages of the term -/

/-- Every row of a 4096 × 256 array over the larger of the row's Euclidean norm and the guard constant. -/
def rowNorm (x : Vec F S4096x256 .f32) : FVec F S4096x256 .f32 :=
  have sq : FVec F S4096x256 .f32 := mulf x x
  have zero : FVec F S_ .f32 := constant S_ .f32 0x00000000#32
  have ss : FVec F S4096 .f32 := Host.reduceAdd sq zero reducesTo_S4096x256_S4096_d1 h_S_
  have ssc : FVec F S4096x1 .f32 := broadcastInDim S4096x1 ![0] bcast_S4096_S4096x1_0 ss
  have nrm : FVec F S4096x1 .f32 := Host.sqrt ssc
  have eps : FVec F S_ .f32 := constant S_ .f32 0x2B8CBCCC#32
  have epsc : FVec F S4096x1 .f32 := broadcastInDim S4096x1 ![] bcast_S_S4096x1 eps
  have den : FVec F S4096x1 .f32 := maximumf nrm epsc
  have denb : FVec F S4096x256 .f32 := broadcastInDim S4096x256 ![0, 1] bcast_S4096x1_S4096x256_0_1 den
  Host.divf x denb

/-- The two arrays stacked, the inner products of all pairs of rows, each over the temperature, exponentiated. -/
def expGram (a b : FVec F S4096x256 .f32) : FVec F S8192x8192 .f32 :=
  have z : FVec F S8192x256 .f32 := concatenate S8192x256 0 [⟨S4096x256, a⟩, ⟨S4096x256, b⟩] concatenates_S4096x256_S4096x256_S8192x256_d0
  have g : FVec F S8192x8192 .f32 := Host.dotGeneral dot_S8192x256_S8192x256_S8192x8192_1_1_0_0_n_n none z z
  have t : FVec F S_ .f32 := constant S_ .f32 0x3D8F5C29#32
  have tb : FVec F S8192x8192 .f32 := broadcastInDim S8192x8192 ![] bcast_S_S8192x8192 t
  have q : FVec F S8192x8192 .f32 := Host.divf g tb
  Host.exp q

/-- The row index. -/
def rowIdx : IVec S8192 32 := iotaInDim S8192 32 0

/-- The partner column of every row: the row index plus 4096, then its remainder modulo 8192 with the divisor's
    sign (the divisor guarded against zero, the truncated remainder, the divisor added back where the remainder is
    non-zero and of the other sign). -/
def partnerIdx : IVec S8192 32 :=
  have v15 : IVec S8192 32 := iotaInDim S8192 32 0
  have c : IVec S_ 32 := constantI S_ 32 4096#32
  have v16 : IVec S8192 32 := broadcastInDim S8192 ![] bcast_S_S8192 c
  have v17 : IVec S8192 32 := addi v15 v16
  have c_2 : IVec S_ 32 := constantI S_ 32 8192#32
  have c2_v0 : IVec S_ 32 := id c_2
  have c2_c : IVec S_ 32 := constantI S_ 32 0#32
  have c2_v1 : IVec S_ 1 := cmpi .eq c2_v0 c2_c
  have c2_c_0 : IVec S_ 32 := constantI S_ 32 1#32
  have c2_v2 : IVec S_ 32 := select c2_v1 c2_c_0 c2_v0
  have c2_v3 : IVec S8192 32 := broadcastInDim S8192 ![] bcast_S_S8192 c2_v2
  have c2_v4 : IVec S8192 32 := Host.remsi v17 c2_v3
  have c2_c_1 : IVec S_ 32 := constantI S_ 32 0#32
  have c2_v5 : IVec S8192 32 := broadcastInDim S8192 ![] bcast_S_S8192 c2_c_1
  have c2_v6 : IVec S8192 1 := cmpi .ne c2_v4 c2_v5
  have c2_c_2 : IVec S_ 32 := constantI S_ 32 0#32
  have c2_v7 : IVec S8192 32 := broadcastInDim S8192 ![] bcast_S_S8192 c2_c_2
  have c2_v8 : IVec S8192 1 := cmpi .slt c2_v4 c2_v7
  have c2_c_3 : IVec S_ 32 := constantI S_ 32 0#32
  have c2_v9 : IVec S_ 1 := cmpi .slt c2_v2 c2_c_3
  have c2_v10 : IVec S8192 1 := broadcastInDim S8192 ![] bcast_S_S8192 c2_v9
  have c2_v11 : IVec S8192 1 := cmpi .ne c2_v8 c2_v10
  have c2_v12 : IVec S8192 1 := andi c2_v11 c2_v6
  have c2_v13 : IVec S8192 32 := broadcastInDim S8192 ![] bcast_S_S8192 c2_v2
  have c2_v14 : IVec S8192 32 := addi c2_v4 c2_v13
  select c2_v12 c2_v14 c2_v4

/-- An index vector with 8192 added where it is negative, as a column. -/
def idxCol (i : IVec S8192 32) : IVec S8192x1 32 :=
  have zero : IVec S_ 32 := constantI S_ 32 0#32
  have zerob : IVec S8192 32 := broadcastInDim S8192 ![] bcast_S_S8192 zero
  have neg : IVec S8192 1 := cmpi .slt i zerob
  have n : IVec S_ 32 := constantI S_ 32 8192#32
  have nb : IVec S8192 32 := broadcastInDim S8192 ![] bcast_S_S8192 n
  have wrapped : IVec S8192 32 := addi i nb
  have w : IVec S8192 32 := select neg wrapped i
  broadcastInDim S8192x1 ![0] bcast_S8192_S8192x1_0 w

/-- Per row, the entry of the matrix at the row and column the two index columns name. -/
def pick (E : FVec F S8192x8192 .f32) (r c : IVec S8192x1 32) : FVec F S8192 .f32 :=
  have tbl : IVec S8192x2 32 := concatenate S8192x2 1 [⟨S8192x1, r⟩, ⟨S8192x1, c⟩] concatenates_S8192x1_S8192x1_S8192x2_d1
  Host.gather gather_S8192x8192_S8192x2_S8192_n_01_n_n_01_1_11 E tbl

/-- From the matrix, its partner entries and its diagonal entries: per row the negated logarithm of the partner
    entry over (itself plus the rest of the row without the diagonal), summed over the rows and divided by 8192. -/
def lossMean (E : FVec F S8192x8192 .f32) (p d : FVec F S8192 .f32) : FVec F S_ .f32 :=
  have cst_11 : FVec F S_ .f32 := constant S_ .f32 0x00000000#32
  have v47 : FVec F S8192 .f32 := Host.reduceAdd E cst_11 reducesTo_S8192x8192_S8192_d1 h_S_
  have v48 : FVec F S8192 .f32 := subf v47 d
  have v49 : FVec F S8192 .f32 := subf v48 p
  have v50 : FVec F S8192 .f32 := addf p v49
  have v51 : FVec F S8192 .f32 := Host.divf p v50
  have v52 : FVec F S8192 .f32 := Host.log v51
  have v53 : FVec F S8192 .f32 := Host.negf v52
  have cst_12 : FVec F S_ .f32 := constant S_ .f32 0x00000000#32
  have v54 : FVec F S_ .f32 := Host.reduceAdd v53 cst_12 reducesTo_S8192_S_d0 h_S_
  have cst_13 : FVec F S_ .f32 := constant S_ .f32 0x46000000#32
  Host.divf v54 cst_13

/-- The reference's term is the mean loss over the exponentiated scaled Gram matrix of the two normalised arrays,
    its partner entries and its diagonal entries. -/
theorem refTerm_stages (x y : Vec F S4096x256 .f32) :
    refTerm x y = lossMean (expGram (rowNorm x) (rowNorm y))
      (pick (expGram (rowNorm x) (rowNorm y)) (idxCol rowIdx) (idxCol partnerIdx))
      (pick (expGram (rowNorm x) (rowNorm y)) (idxCol rowIdx) (idxCol rowIdx)) := rfl

/-! ## The eight slices -/

/-- Operations 1 … 20 of the straight line. -/
abbrev seg1 : List (HloOp τ sig (Elt F)) :=
  [ StableHlo.TRef.binary (TRef.of main_arg0 : TRef sig ⟨S4096x256, .f32⟩) (TRef.of main_arg0 : TRef sig ⟨S4096x256, .f32⟩) main_call0.v0 mulf,
    StableHlo.TRef.nullary main_call0.cst (constant S_ .f32 0x00000000#32),
    StableHlo.TRef.binary main_call0.v0 main_call0.cst main_call0.v1 (fun x v => Host.reduceAdd x v reducesTo_S4096x256_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (TRef.of main_arg1 : TRef sig ⟨S4096x256, .f32⟩) (TRef.of main_arg1 : TRef sig ⟨S4096x256, .f32⟩) main_call1.v0 mulf,
    StableHlo.TRef.nullary main_call1.cst (constant S_ .f32 0x00000000#32),
    StableHlo.TRef.binary main_call1.v0 main_call1.cst main_call1.v1 (fun x v => Host.reduceAdd x v reducesTo_S4096x256_S4096_d1 h_S_),
    StableHlo.TRef.unary main_call1.v1 main_call1.v2 (broadcastInDim S4096x1 ![0] bcast_S4096_S4096x1_0),
    StableHlo.TRef.unary main_call1.v2 main_call1.v3 Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)) ]

/-- Operations 21 … 26 of the straight line. -/
abbrev seg2 : List (HloOp τ sig (Elt F)) :=
  [ StableHlo.binary main_v4 main_v9 main_v10 (cat2 S8192x256 0 S4096x256 S4096x256 concatenates_S4096x256_S4096x256_S8192x256_d0 : (⟨S4096x256, .f32⟩ : BufTy).Contents (Elt F) → (⟨S4096x256, .f32⟩ : BufTy).Contents (Elt F) → (⟨S8192x256, .f32⟩ : BufTy).Contents (Elt F)),
    StableHlo.binary main_v10 main_v10 main_v11 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    StableHlo.nullary main_cst_1 (constant S_ .f32 0x3D8F5C29#32),
    StableHlo.unary main_cst_1 main_v12 (broadcastInDim S8192x8192 ![] bcast_S_S8192x8192 : (⟨S_, .f32⟩ : BufTy).Contents (Elt F) → (⟨S8192x8192, .f32⟩ : BufTy).Contents (Elt F)),
    StableHlo.binary main_v11 main_v12 main_v13 (Host.divf : (⟨S8192x8192, .f32⟩ : BufTy).Contents (Elt F) → (⟨S8192x8192, .f32⟩ : BufTy).Contents (Elt F) → (⟨S8192x8192, .f32⟩ : BufTy).Contents (Elt F)),
    StableHlo.unary main_v13 main_v14 (Host.exp : (⟨S8192x8192, .f32⟩ : BufTy).Contents (Elt F) → (⟨S8192x8192, .f32⟩ : BufTy).Contents (Elt F)) ]

/-- Operations 27 … 52 of the straight line. -/
abbrev seg3 : List (HloOp τ sig (Elt F)) :=
  [ StableHlo.nullary main_v15 (iotaInDim S8192 32 0),
    StableHlo.nullary main_c (constantI S_ 32 4096#32),
    StableHlo.unary main_c main_v16 (broadcastInDim S8192 ![] bcast_S_S8192 : (⟨S_, .i32⟩ : BufTy).Contents (Elt F) → (⟨S8192, .i32⟩ : BufTy).Contents (Elt F)),
    StableHlo.binary main_v15 main_v16 main_v17 (addi : (⟨S8192, .i32⟩ : BufTy).Contents (Elt F) → (⟨S8192, .i32⟩ : BufTy).Contents (Elt F) → (⟨S8192, .i32⟩ : BufTy).Contents (Elt F)),
    StableHlo.nullary main_c_2 (constantI S_ 32 8192#32),
    StableHlo.TRef.unary (TRef.of main_c_2 : TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (TRef.of main_v17 : TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select ]

/-- Operations 53 … 68 of the straight line. -/
abbrev seg4 : List (HloOp τ sig (Elt F)) :=
  [ StableHlo.nullary main_c_3 (constantI S_ 32 0#32),
    StableHlo.unary main_c_3 main_v19 (broadcastInDim S8192 ![] bcast_S_S8192 : (⟨S_, .i32⟩ : BufTy).Contents (Elt F) → (⟨S8192, .i32⟩ : BufTy).Contents (Elt F)),
    StableHlo.binary main_v15 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v21 (broadcastInDim S8192 ![] bcast_S_S8192 : (⟨S_, .i32⟩ : BufTy).Contents (Elt F) → (⟨S8192, .i32⟩ : BufTy).Contents (Elt F)),
    StableHlo.binary main_v15 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v15 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_5 (constantI S_ 32 0#32),
    StableHlo.unary main_c_5 main_v24 (broadcastInDim S8192 ![] bcast_S_S8192 : (⟨S_, .i32⟩ : BufTy).Contents (Elt F) → (⟨S8192, .i32⟩ : BufTy).Contents (Elt F)),
    StableHlo.binary main_v18 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 8192#32),
    StableHlo.unary main_c_6 main_v26 (broadcastInDim S8192 ![] bcast_S_S8192 : (⟨S_, .i32⟩ : BufTy).Contents (Elt F) → (⟨S8192, .i32⟩ : BufTy).Contents (Elt F)),
    StableHlo.binary main_v18 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_v18 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v29 (broadcastInDim S8192x1 ![0] bcast_S8192_S8192x1_0 : (⟨S8192, .i32⟩ : BufTy).Contents (Elt F) → (⟨S8192x1, .i32⟩ : BufTy).Contents (Elt F)),
    StableHlo.unary main_v28 main_v30 (broadcastInDim S8192x1 ![0] bcast_S8192_S8192x1_0 : (⟨S8192, .i32⟩ : BufTy).Contents (Elt F) → (⟨S8192x1, .i32⟩ : BufTy).Contents (Elt F)) ]

/-- Operations 69 … 70 of the straight line. -/
abbrev seg5 : List (HloOp τ sig (Elt F)) :=
  [ StableHlo.binary main_v29 main_v30 main_v31 (cat2 S8192x2 1 S8192x1 S8192x1 concatenates_S8192x1_S8192x1_S8192x2_d1 : (⟨S8192x1, .i32⟩ : BufTy).Contents (Elt F) → (⟨S8192x1, .i32⟩ : BufTy).Contents (Elt F) → (⟨S8192x2, .i32⟩ : BufTy).Contents (Elt F)),
    StableHlo.binary main_v14 main_v31 main_v32 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]

/-- Operations 71 … 86 of the straight line. -/
abbrev seg6 : List (HloOp τ sig (Elt F)) :=
  [ StableHlo.nullary main_c_7 (constantI S_ 32 0#32),
    StableHlo.unary main_c_7 main_v33 (broadcastInDim S8192 ![] bcast_S_S8192 : (⟨S_, .i32⟩ : BufTy).Contents (Elt F) → (⟨S8192, .i32⟩ : BufTy).Contents (Elt F)),
    StableHlo.binary main_v15 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v35 (broadcastInDim S8192 ![] bcast_S_S8192 : (⟨S_, .i32⟩ : BufTy).Contents (Elt F) → (⟨S8192, .i32⟩ : BufTy).Contents (Elt F)),
    StableHlo.binary main_v15 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v15 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v38 (broadcastInDim S8192 ![] bcast_S_S8192 : (⟨S_, .i32⟩ : BufTy).Contents (Elt F) → (⟨S8192, .i32⟩ : BufTy).Contents (Elt F)),
    StableHlo.binary main_v15 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v40 (broadcastInDim S8192 ![] bcast_S_S8192 : (⟨S_, .i32⟩ : BufTy).Contents (Elt F) → (⟨S8192, .i32⟩ : BufTy).Contents (Elt F)),
    StableHlo.binary main_v15 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v15 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v37 main_v43 (broadcastInDim S8192x1 ![0] bcast_S8192_S8192x1_0 : (⟨S8192, .i32⟩ : BufTy).Contents (Elt F) → (⟨S8192x1, .i32⟩ : BufTy).Contents (Elt F)),
    StableHlo.unary main_v42 main_v44 (broadcastInDim S8192x1 ![0] bcast_S8192_S8192x1_0 : (⟨S8192, .i32⟩ : BufTy).Contents (Elt F) → (⟨S8192x1, .i32⟩ : BufTy).Contents (Elt F)) ]

/-- Operations 87 … 88 of the straight line. -/
abbrev seg7 : List (HloOp τ sig (Elt F)) :=
  [ StableHlo.binary main_v43 main_v44 main_v45 (cat2 S8192x2 1 S8192x1 S8192x1 concatenates_S8192x1_S8192x1_S8192x2_d1 : (⟨S8192x1, .i32⟩ : BufTy).Contents (Elt F) → (⟨S8192x1, .i32⟩ : BufTy).Contents (Elt F) → (⟨S8192x2, .i32⟩ : BufTy).Contents (Elt F)),
    StableHlo.binary main_v14 main_v45 main_v46 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]

/-- Operations 89 … 100 of the straight line. -/
abbrev seg8 : List (HloOp τ sig (Elt F)) :=
  [ StableHlo.nullary main_cst_11 (constant S_ .f32 0x00000000#32),
    StableHlo.binary main_v14 main_cst_11 main_v47 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v47 main_v46 main_v48 (subf : (⟨S8192, .f32⟩ : BufTy).Contents (Elt F) → (⟨S8192, .f32⟩ : BufTy).Contents (Elt F) → (⟨S8192, .f32⟩ : BufTy).Contents (Elt F)),
    StableHlo.binary main_v48 main_v32 main_v49 (subf : (⟨S8192, .f32⟩ : BufTy).Contents (Elt F) → (⟨S8192, .f32⟩ : BufTy).Contents (Elt F) → (⟨S8192, .f32⟩ : BufTy).Contents (Elt F)),
    StableHlo.binary main_v32 main_v49 main_v50 (addf : (⟨S8192, .f32⟩ : BufTy).Contents (Elt F) → (⟨S8192, .f32⟩ : BufTy).Contents (Elt F) → (⟨S8192, .f32⟩ : BufTy).Contents (Elt F)),
    StableHlo.binary main_v32 main_v50 main_v51 (Host.divf : (⟨S8192, .f32⟩ : BufTy).Contents (Elt F) → (⟨S8192, .f32⟩ : BufTy).Contents (Elt F) → (⟨S8192, .f32⟩ : BufTy).Contents (Elt F)),
    StableHlo.unary main_v51 main_v52 (Host.log : (⟨S8192, .f32⟩ : BufTy).Contents (Elt F) → (⟨S8192, .f32⟩ : BufTy).Contents (Elt F)),
    StableHlo.unary main_v52 main_v53 (Host.negf : (⟨S8192, .f32⟩ : BufTy).Contents (Elt F) → (⟨S8192, .f32⟩ : BufTy).Contents (Elt F)),
    StableHlo.nullary main_cst_12 (constant S_ .f32 0x00000000#32),
    StableHlo.binary main_v53 main_cst_12 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v54 main_cst_13 main_v55 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = seg1 ++ (seg2 ++ (seg3 ++ (seg4 ++ (seg5 ++ (seg6 ++ (seg7 ++ seg8)))))) := rfl

set_option maxRecDepth 8192 in
set_option maxHeartbeats 1000000 in
theorem seg1_v4 (W : Valuation τ sig (Elt F)) :
    after seg1 W (main_v4 : DevRef τ sig) = rowNorm (W (main_arg0 : DevRef τ sig)) := by
  after_results_simp
  rfl

set_option maxRecDepth 8192 in
set_option maxHeartbeats 1000000 in
theorem seg1_v9 (W : Valuation τ sig (Elt F)) :
    after seg1 W (main_v9 : DevRef τ sig) = rowNorm (W (main_arg1 : DevRef τ sig)) := by
  after_results_simp
  rfl

set_option maxRecDepth 8192 in
set_option maxHeartbeats 1000000 in
theorem seg2_v14 (W : Valuation τ sig (Elt F)) :
    after seg2 W (main_v14 : DevRef τ sig) = expGram (W (main_v4 : DevRef τ sig)) (W (main_v9 : DevRef τ sig)) := by
  after_results_simp
  rfl

set_option maxRecDepth 8192 in
set_option maxHeartbeats 1000000 in
theorem seg3_v15 (W : Valuation τ sig (Elt F)) :
    after seg3 W (main_v15 : DevRef τ sig) = rowIdx := by
  after_results_simp
  rfl

attribute [local irreducible] iotaInDim constantI broadcastInDim addi Host.remsi cmpi andi select in
set_option maxRecDepth 8192 in
set_option maxHeartbeats 1000000 in
theorem seg3_v18 (W : Valuation τ sig (Elt F)) :
    after seg3 W (main_v18 : DevRef τ sig) = partnerIdx := by
  after_results_simp
  rfl

set_option maxRecDepth 8192 in
set_option maxHeartbeats 1000000 in
theorem seg3_v14 (W : Valuation τ sig (Elt F)) :
    after seg3 W (main_v14 : DevRef τ sig) = W (main_v14 : DevRef τ sig) := by
  after_results_simp

set_option maxRecDepth 8192 in
set_option maxHeartbeats 1000000 in
theorem seg4_v29 (W : Valuation τ sig (Elt F)) :
    after seg4 W (main_v29 : DevRef τ sig) = idxCol (W (main_v15 : DevRef τ sig)) := by
  after_results_simp
  rfl

set_option maxRecDepth 8192 in
set_option maxHeartbeats 1000000 in
theorem seg4_v30 (W : Valuation τ sig (Elt F)) :
    after seg4 W (main_v30 : DevRef τ sig) = idxCol (W (main_v18 : DevRef τ sig)) := by
  after_results_simp
  rfl

set_option maxRecDepth 8192 in
set_option maxHeartbeats 1000000 in
theorem seg4_v14 (W : Valuation τ sig (Elt F)) :
    after seg4 W (main_v14 : DevRef τ sig) = W (main_v14 : DevRef τ sig) := by
  after_results_simp

set_option maxRecDepth 8192 in
set_option maxHeartbeats 1000000 in
theorem seg4_v15 (W : Valuation τ sig (Elt F)) :
    after seg4 W (main_v15 : DevRef τ sig) = W (main_v15 : DevRef τ sig) := by
  after_results_simp

set_option maxRecDepth 8192 in
set_option maxHeartbeats 1000000 in
theorem seg5_v32 (W : Valuation τ sig (Elt F)) :
    after seg5 W (main_v32 : DevRef τ sig) = pick (W (main_v14 : DevRef τ sig)) (W (main_v29 : DevRef τ sig)) (W (main_v30 : DevRef τ sig)) := by
  after_results_simp
  rfl

set_option maxRecDepth 8192 in
set_option maxHeartbeats 1000000 in
theorem seg5_v14 (W : Valuation τ sig (Elt F)) :
    after seg5 W (main_v14 : DevRef τ sig) = W (main_v14 : DevRef τ sig) := by
  after_results_simp

set_option maxRecDepth 8192 in
set_option maxHeartbeats 1000000 in
theorem seg5_v15 (W : Valuation τ sig (Elt F)) :
    after seg5 W (main_v15 : DevRef τ sig) = W (main_v15 : DevRef τ sig) := by
  after_results_simp

set_option maxRecDepth 8192 in
set_option maxHeartbeats 1000000 in
theorem seg6_v43 (W : Valuation τ sig (Elt F)) :
    after seg6 W (main_v43 : DevRef τ sig) = idxCol (W (main_v15 : DevRef τ sig)) := by
  after_results_simp
  rfl

set_option maxRecDepth 8192 in
set_option maxHeartbeats 1000000 in
theorem seg6_v44 (W : Valuation τ sig (Elt F)) :
    after seg6 W (main_v44 : DevRef τ sig) = idxCol (W (main_v15 : DevRef τ sig)) := by
  after_results_simp
  rfl

set_option maxRecDepth 8192 in
set_option maxHeartbeats 1000000 in
theorem seg6_v14 (W : Valuation τ sig (Elt F)) :
    after seg6 W (main_v14 : DevRef τ sig) = W (main_v14 : DevRef τ sig) := by
  after_results_simp

set_option maxRecDepth 8192 in
set_option maxHeartbeats 1000000 in
theorem seg6_v32 (W : Valuation τ sig (Elt F)) :
    after seg6 W (main_v32 : DevRef τ sig) = W (main_v32 : DevRef τ sig) := by
  after_results_simp

set_option maxRecDepth 8192 in
set_option maxHeartbeats 1000000 in
theorem seg7_v46 (W : Valuation τ sig (Elt F)) :
    after seg7 W (main_v46 : DevRef τ sig) = pick (W (main_v14 : DevRef τ sig)) (W (main_v43 : DevRef τ sig)) (W (main_v44 : DevRef τ sig)) := by
  after_results_simp
  rfl

set_option maxRecDepth 8192 in
set_option maxHeartbeats 1000000 in
theorem seg7_v14 (W : Valuation τ sig (Elt F)) :
    after seg7 W (main_v14 : DevRef τ sig) = W (main_v14 : DevRef τ sig) := by
  after_results_simp

set_option maxRecDepth 8192 in
set_option maxHeartbeats 1000000 in
theorem seg7_v32 (W : Valuation τ sig (Elt F)) :
    after seg7 W (main_v32 : DevRef τ sig) = W (main_v32 : DevRef τ sig) := by
  after_results_simp

set_option maxRecDepth 8192 in
set_option maxHeartbeats 1000000 in
theorem seg8_v55 (W : Valuation τ sig (Elt F)) :
    after seg8 W (main_v55 : DevRef τ sig) = lossMean (W (main_v14 : DevRef τ sig)) (W (main_v32 : DevRef τ sig)) (W (main_v46 : DevRef τ sig)) := by
  after_results_simp
  rfl

/-! ## The whole line -/

set_option maxRecDepth 8192 in
set_option maxHeartbeats 2000000 in
/-- After the hundred operations the result buffer holds the reference's term of the two arguments. -/
theorem v55_eq (V : Valuation τ sig (Elt F)) :
    after ops V (main_v55 : DevRef τ sig) = refTerm (V (main_arg0 : DevRef τ sig)) (V (main_arg1 : DevRef τ sig)) := by
  rw [ops_split, refTerm_stages]
  simp only [after_append]
  rw [seg8_v55, seg7_v46, seg7_v14, seg7_v32, seg6_v43, seg6_v44, seg6_v14, seg6_v32, seg5_v32, seg5_v14, seg5_v15,
    seg4_v29, seg4_v30, seg4_v14, seg4_v15, seg3_v15, seg3_v18, seg3_v14, seg2_v14, seg1_v4, seg1_v9]

set_option maxRecDepth 8192 in
set_option maxHeartbeats 2000000 in
theorem arg0_eq (V : Valuation τ sig (Elt F)) :
    after ops V (main_arg0 : DevRef τ sig) = V (main_arg0 : DevRef τ sig) := by
  after_results_simp

set_option maxRecDepth 8192 in
set_option maxHeartbeats 2000000 in
theorem arg1_eq (V : Valuation τ sig (Elt F)) :
    after ops V (main_arg1 : DevRef τ sig) = V (main_arg1 : DevRef τ sig) := by
  after_results_simp

set_option maxRecDepth 8192 in
set_option maxHeartbeats 2000000 in
/-- On every device, for any float values, from any memory with zero counters: every weakly fair execution of
    @main terminates with the result buffer at the reference's term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v55) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v55).trans (v55_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.RefRead.lean ====
/-
  The reference's composed term, read at the extended reals, is the specification's second spelling.

  Each stage of the term is read at an index built from its coordinates: the row norm is the square root of the sum
  over the row of the squares (the reduction from the zero word adds nothing), and each entry is divided by the larger
  of that norm and the guard word; the stacking along the first axis reads the first array below row 4096 and the
  second from there on; the product over the second axes is the inner product of two rows; the quotient by the
  temperature word and the exponential act entry by entry. On the integer side the row index `r` is a word below 2³¹,
  so no wrap of negative indices changes it, and `r + 4096` reduced modulo 8192 with the divisor's sign is the word of
  `(r + 4096) % 8192`; a gather by (row, column) pairs of such words reads the entry at those positions. The row sums
  and the final sum are the reductions from the zero word, and the mean divides by the word of 8192.
-/
import proofs.«157580_j19722489823618_1_alg».proof.Proof.RefTerm
import proofs.«157580_j19722489823618_1_alg».proof.Proof.Spec
import Idealize.ShloMosaic.Lib.IdealHost
import Idealize.ShloMosaic.Lib.ValueIdxRank1
import Idealize.ShloMosaic.Lib.Pipeline.Value
import Idealize.ShloMosaic.Lib.StableHlo.Predicate

noncomputable section

namespace Cert.ReferenceIdeal.Hand

open Idealize.ShloMosaic Idealize.ShloMosaic.ValueIdx
open Cert.ReferenceIdeal
open scoped BigOperators

/-! ## The host's pointwise operations at an index -/

theorem hostSqrt_apply {s : Shape} (a : FVec Ideal s .f32) (i : s.Idx) : Host.sqrt a i = Ideal.sqrt (a i) := rfl
theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl
theorem hostNegf_apply {s : Shape} (a : FVec Ideal s .f32) (i : s.Idx) : Host.negf a i = -(a i) := rfl

/-- A rank-2 array of extended reals read by row and column. -/
def mat2 {n m : Nat} (v : (⟨2, ![n, m]⟩ : Shape).Idx → EReal) : Fin n → Fin m → EReal := fun r c => v (ix2 r c)

/-! ## Broadcasts at an index -/

/-- A vector as a column reads, at row `r`, the vector at `r`. -/
theorem bcast_col_apply {α : Type} {n : Nat} (h : (⟨1, ![n]⟩ : Shape).BroadcastsInDim ⟨2, ![n, 1]⟩ ![0])
    (v : (⟨1, ![n]⟩ : Shape).Idx → α) (r : Fin n) :
    broadcastInDim ⟨2, ![n, 1]⟩ ![0] h v (ix2 r (0 : Fin 1)) = v (ix1 r) := by
  refine broadcastInDim_apply _ h v _ (ix1 r) fun a => ?_
  match a with
  | ⟨0, _⟩ =>
    show r.val = if n = 1 then 0 else r.val
    split
    · have := r.isLt; omega
    · rfl

/-- A column spread over the second axis reads, at `(r, d)`, the column at row `r`. -/
theorem bcast_row_apply {α : Type} {n m : Nat} (h : (⟨2, ![n, 1]⟩ : Shape).BroadcastsInDim ⟨2, ![n, m]⟩ ![0, 1])
    (v : (⟨2, ![n, 1]⟩ : Shape).Idx → α) (r : Fin n) (d : Fin m) :
    broadcastInDim ⟨2, ![n, m]⟩ ![0, 1] h v (ix2 r d) = v (ix2 r (0 : Fin 1)) := by
  refine broadcastInDim_apply _ h v _ (ix2 r (0 : Fin 1)) fun a => ?_
  match a with
  | ⟨0, _⟩ =>
    show r.val = if n = 1 then 0 else r.val
    split
    · have := r.isLt; omega
    · rfl
  | ⟨1, _⟩ => rfl

/-! ## The row norm and the normalised array -/

/-- The sum over a row of the squares, as the host's one-axis reduction from the zero word. -/
theorem rowSq_apply (x : FVec Ideal S4096x256 .f32) (h : S4096x256.ReducesTo [1] S4096) (hu : 0 < S_.numel)
    (r : Fin 4096) :
    Host.reduceAdd (F := Ideal) (mulf x x) (constant (F := Ideal) S_ .f32 0x00000000#32) h hu (ix1 r)
      = ∑ k : Fin 256, x (ix2 r k) * x (ix2 r k) := by
  have hr : S4096x256.Reduces [1] S4096 := by decide
  rw [hostReduceAdd_apply, Ideal.hostReduceAdd_single h hr]
  show Ideal.ofBits .f32 0x00000000#32 + _ = _
  rw [Ideal.ofBits_zero_f32, zero_add]
  show ∑ k : Fin 256, (mulf x x) (hr.lift (ix1 r) k) = _
  refine Finset.sum_congr rfl fun k _ => ?_
  have e : hr.lift (ix1 r) k = ix2 r k := by
    funext a; match a with | ⟨0, _⟩ => rfl | ⟨1, _⟩ => rfl
  rw [e]; rfl

/-- Each entry over the larger of its row's norm and the guard word. -/
theorem nrm_apply (x : FVec Ideal S4096x256 .f32)
    (h1 : S4096x256.ReducesTo [1] S4096) (hu : 0 < S_.numel)
    (hb1 : S4096.BroadcastsInDim S4096x1 (![0] : Fin 1 → Fin S4096x1.rank))
    (hb2 : S_.BroadcastsInDim S4096x1 (![] : Fin 0 → Fin S4096x1.rank))
    (hb3 : S4096x1.BroadcastsInDim S4096x256 (![0, 1] : Fin 2 → Fin S4096x256.rank))
    (r : Fin 4096) (d : Fin 256) :
    Host.divf (F := Ideal) x
      (broadcastInDim S4096x256 ![0, 1] hb3
        (maximumf (F := Ideal)
          (Host.sqrt (F := Ideal) (broadcastInDim S4096x1 ![0] hb1
            (Host.reduceAdd (F := Ideal) (mulf x x) (constant (F := Ideal) S_ .f32 0x00000000#32) h1 hu)))
          (broadcastInDim S4096x1 ![] hb2 (constant (F := Ideal) S_ .f32 0x2B8CBCCC#32)))) (ix2 r d)
      = Cert.Spec.nrm (Cert.Spec.matOf x) r d := by
  rw [hostDivf_apply, bcast_row_apply, maximumf_apply, hostSqrt_apply, bcast_col_apply, rowSq_apply,
    broadcastInDim_scalar_apply, constant_apply]
  rfl

/-- The normalised array, read by row and column, is the specification's. -/
theorem nrm_fun (x : FVec Ideal S4096x256 .f32)
    (h1 : S4096x256.ReducesTo [1] S4096) (hu : 0 < S_.numel)
    (hb1 : S4096.BroadcastsInDim S4096x1 (![0] : Fin 1 → Fin S4096x1.rank))
    (hb2 : S_.BroadcastsInDim S4096x1 (![] : Fin 0 → Fin S4096x1.rank))
    (hb3 : S4096x1.BroadcastsInDim S4096x256 (![0, 1] : Fin 2 → Fin S4096x256.rank)) :
    mat2 (Host.divf (F := Ideal) x
      (broadcastInDim S4096x256 ![0, 1] hb3
        (maximumf (F := Ideal)
          (Host.sqrt (F := Ideal) (broadcastInDim S4096x1 ![0] hb1
            (Host.reduceAdd (F := Ideal) (mulf x x) (constant (F := Ideal) S_ .f32 0x00000000#32) h1 hu)))
          (broadcastInDim S4096x1 ![] hb2 (constant (F := Ideal) S_ .f32 0x2B8CBCCC#32)))))
      = Cert.Spec.nrm (Cert.Spec.matOf x) :=
  funext fun r => funext fun d => nrm_apply x h1 hu hb1 hb2 hb3 r d

/-! ## Stacking along the first axis -/

/-- Two 4096-row arrays stacked along axis 0 read, at `(r, d)`, the first below row 4096 and the second from there on. -/
theorem zcat_apply (a b : FVec Ideal S4096x256 .f32)
    (h : Shape.Concatenates [S4096x256, S4096x256] S8192x256 0) (r : Fin 8192) (d : Fin 256) :
    concatenate S8192x256 0 [⟨S4096x256, a⟩, ⟨S4096x256, b⟩] h (ix2 r d)
      = Cert.Spec.zcat (fun r d => a (ix2 r d)) (fun r d => b (ix2 r d)) r d := by
  unfold Cert.Spec.zcat
  by_cases hr : r.val < 4096
  · rw [dif_pos hr]
    refine concatenate_pair_apply_left (0 : Fin S8192x256.rank) a b h (ix2 r d) rfl (ix2 ⟨r.val, hr⟩ d) fun c => ?_
    match c with
    | ⟨0, _⟩ => rfl
    | ⟨1, _⟩ => rfl
  · rw [dif_neg hr]
    refine concatenate_pair_apply_right (0 : Fin S8192x256.rank) a b h (ix2 r d) rfl rfl
      (ix2 ⟨r.val - 4096, by have := r.isLt; omega⟩ d) (fun c hc => ?_) ?_
    · match c with
      | ⟨0, _⟩ => exact absurd rfl hc
      | ⟨1, _⟩ => rfl
    · show r.val - 4096 + 4096 = r.val
      omega

/-- The stacked array, read by row and column, is the specification's stacking of the two arrays so read. -/
theorem zcat_fun (a b : FVec Ideal S4096x256 .f32)
    (h : Shape.Concatenates [S4096x256, S4096x256] S8192x256 0) :
    mat2 (concatenate S8192x256 0 [⟨S4096x256, a⟩, ⟨S4096x256, b⟩] h) = Cert.Spec.zcat (mat2 a) (mat2 b) :=
  funext fun r => funext fun d => zcat_apply a b h r d

/-! ## The inner products -/

section Dot
variable [Facts₀]

theorem lhs_v11_0 (i : S8192x8192.Idx) (q : dot_S8192x256_S8192x256_S8192x8192_1_1_0_0_n_n.contr.Idx) :
    (dot_S8192x256_S8192x256_S8192x8192_1_1_0_0_n_n.lhsIdx i q 0).val = (i 0).val := by
  unfold DotDims.lhsIdx
  rw [dif_neg (show ¬(0 : Fin S8192x256.rank) ∈ dot_S8192x256_S8192x256_S8192x8192_1_1_0_0_n_n.lhsBatch from List.not_mem_nil),
    dif_pos (show (0 : Fin S8192x256.rank) ∈ dot_S8192x256_S8192x256_S8192x8192_1_1_0_0_n_n.lhsNonContracting from List.mem_singleton.mpr rfl)]
  rfl

theorem lhs_v11_1 (i : S8192x8192.Idx) (q : dot_S8192x256_S8192x256_S8192x8192_1_1_0_0_n_n.contr.Idx) :
    (dot_S8192x256_S8192x256_S8192x8192_1_1_0_0_n_n.lhsIdx i q 1).val = (q ⟨0, Nat.one_pos⟩).val :=
  dot_S8192x256_S8192x256_S8192x8192_1_1_0_0_n_n.lhsIdx_val_of_single rfl i q

theorem rhs_v11_0 (i : S8192x8192.Idx) (q : dot_S8192x256_S8192x256_S8192x8192_1_1_0_0_n_n.contr.Idx) :
    (dot_S8192x256_S8192x256_S8192x8192_1_1_0_0_n_n.rhsIdx i q 0).val = (i 1).val := by
  unfold DotDims.rhsIdx
  rw [dif_neg (show ¬(0 : Fin S8192x256.rank) ∈ dot_S8192x256_S8192x256_S8192x8192_1_1_0_0_n_n.rhsBatch from List.not_mem_nil),
    dif_pos (show (0 : Fin S8192x256.rank) ∈ dot_S8192x256_S8192x256_S8192x8192_1_1_0_0_n_n.rhsNonContracting from List.mem_singleton.mpr rfl)]
  rfl

theorem rhs_v11_1 (i : S8192x8192.Idx) (q : dot_S8192x256_S8192x256_S8192x8192_1_1_0_0_n_n.contr.Idx) :
    (dot_S8192x256_S8192x256_S8192x8192_1_1_0_0_n_n.rhsIdx i q 1).val = (q ⟨0, Nat.one_pos⟩).val :=
  dot_S8192x256_S8192x256_S8192x8192_1_1_0_0_n_n.rhsIdx_val_of_single rfl i q

/-- The host's product over the second axes reads, at `(r, c)`, the inner product of rows `r` and `c`. -/
theorem gram_apply (z : FVec Ideal S8192x256 .f32) (r c : Fin 8192) :
    Host.dotGeneral (F := Ideal) dot_S8192x256_S8192x256_S8192x8192_1_1_0_0_n_n none z z (ix2 r c)
      = Cert.Spec.gram (fun r d => z (ix2 r d)) r c := by
  unfold Cert.Spec.gram
  simp only [Host.dotGeneral]
  rw [Ideal.dotGeneral_apply,
    ← Equiv.sum_comp (contrEquiv1 dot_S8192x256_S8192x256_S8192x8192_1_1_0_0_n_n 256 rfl rfl).symm]
  refine Finset.sum_congr rfl fun k _ => ?_
  have hk := contrEquiv1_symm_val dot_S8192x256_S8192x256_S8192x8192_1_1_0_0_n_n 256 rfl rfl k
  have el : dot_S8192x256_S8192x256_S8192x8192_1_1_0_0_n_n.lhsIdx (ix2 r c)
      ((contrEquiv1 dot_S8192x256_S8192x256_S8192x8192_1_1_0_0_n_n 256 rfl rfl).symm k) = ix2 r k :=
    funext fun a => Fin.ext (by
      match a with
      | ⟨0, _⟩ => exact lhs_v11_0 _ _
      | ⟨1, _⟩ => exact (lhs_v11_1 _ _).trans hk)
  have er : dot_S8192x256_S8192x256_S8192x8192_1_1_0_0_n_n.rhsIdx (ix2 r c)
      ((contrEquiv1 dot_S8192x256_S8192x256_S8192x8192_1_1_0_0_n_n 256 rfl rfl).symm k) = ix2 c k :=
    funext fun a => Fin.ext (by
      match a with
      | ⟨0, _⟩ => exact rhs_v11_0 _ _
      | ⟨1, _⟩ => exact (rhs_v11_1 _ _).trans hk)
  rw [el, er]

end Dot

/-! ## The scaled exponential -/

/-- The quotient by the temperature word, exponentiated, at `(r, c)`. -/
theorem expDiv_apply (g : FVec Ideal S8192x8192 .f32)
    (hb : S_.BroadcastsInDim S8192x8192 (![] : Fin 0 → Fin S8192x8192.rank)) (r c : Fin 8192) :
    Host.exp (F := Ideal) (Host.divf (F := Ideal) g
        (broadcastInDim S8192x8192 ![] hb (constant (F := Ideal) S_ .f32 0x3D8F5C29#32))) (ix2 r c)
      = Ideal.exp (Ideal.div (g (ix2 r c)) Cert.Spec.DV) := by
  rw [hostExp_apply, hostDivf_apply, broadcastInDim_scalar_apply, constant_apply]
  rfl

section ExpGram
variable [Facts₀]

/-- The exponentiated scaled inner products of the rows of `z`, read by row and column, are the specification's. -/
theorem expDiv_fun (z : FVec Ideal S8192x256 .f32)
    (hb : S_.BroadcastsInDim S8192x8192 (![] : Fin 0 → Fin S8192x8192.rank)) :
    mat2 (Host.exp (F := Ideal) (Host.divf (F := Ideal)
        (Host.dotGeneral (F := Ideal) dot_S8192x256_S8192x256_S8192x8192_1_1_0_0_n_n none z z)
        (broadcastInDim S8192x8192 ![] hb (constant (F := Ideal) S_ .f32 0x3D8F5C29#32))))
      = Cert.Spec.expDiv (mat2 z) :=
  funext fun r => funext fun c => (expDiv_apply _ hb r c).trans (by rw [gram_apply]; rfl)

end ExpGram

/-! ## Row sums and the final mean -/

/-- The sum over a row of the 8192 × 8192 array, as the host's one-axis reduction from the zero word. -/
theorem rowSum_apply (E : FVec Ideal S8192x8192 .f32) (h : S8192x8192.ReducesTo [1] S8192) (hu : 0 < S_.numel)
    (r : Fin 8192) :
    Host.reduceAdd (F := Ideal) E (constant (F := Ideal) S_ .f32 0x00000000#32) h hu (ix1 r)
      = ∑ c : Fin 8192, mat2 E r c := by
  have hr : S8192x8192.Reduces [1] S8192 := by decide
  rw [hostReduceAdd_apply, Ideal.hostReduceAdd_single h hr]
  show Ideal.ofBits .f32 0x00000000#32 + _ = _
  rw [Ideal.ofBits_zero_f32, zero_add]
  show ∑ k : Fin 8192, E (hr.lift (ix1 r) k) = _
  refine Finset.sum_congr rfl fun k _ => ?_
  have e : hr.lift (ix1 r) k = ix2 r k := by
    funext a; match a with | ⟨0, _⟩ => rfl | ⟨1, _⟩ => rfl
  rw [e]
  rfl

/-- The sum of the 8192 row losses, as the host's reduction of the one axis from the zero word. -/
theorem total_apply (l : FVec Ideal S8192 .f32) (h : S8192.ReducesTo [0] S_) (hu : 0 < S_.numel) (j : S_.Idx) :
    Host.reduceAdd (F := Ideal) l (constant (F := Ideal) S_ .f32 0x00000000#32) h hu j
      = ∑ r : Fin 8192, l (ix1 r) := by
  rw [hostReduceAdd_apply, Ideal.hostReduceAdd_total h (fun b => b.elim0)]
  show Ideal.ofBits .f32 0x00000000#32 + _ = _
  rw [Ideal.ofBits_zero_f32, zero_add, ← Equiv.sum_comp (idxEquiv1 (n := 8192)).symm]
  rfl

/-! ## Words: the partner column -/

/-- The truncated remainder of `r + 4096` by 8192, both below 2³¹, is the remainder of the values. -/
theorem remWord (r : Fin 8192) :
    IntOp.remsi .host (IntOp.addi (BitVec.ofNat 32 r.val) 4096#32) 8192#32
      = BitVec.ofNat 32 ((r.val + 4096) % 8192) := by
  have hr := r.isLt
  have ha : IntOp.addi (BitVec.ofNat 32 r.val) 4096#32 = BitVec.ofNat 32 (r.val + 4096) := by
    apply BitVec.eq_of_toNat_eq
    simp only [IntOp.addi, BitVec.toNat_add, BitVec.toNat_ofNat]
    omega
  rw [ha]
  have hc : ¬ IntOp.SDivCorner (BitVec.ofNat 32 (r.val + 4096)) 8192#32 := by
    intro hc; rcases hc with hc | ⟨_, hc⟩ <;> exact absurd hc (by decide)
  have hm : (BitVec.ofNat 32 (r.val + 4096)).msb = false :=
    BitVec.msb_eq_false_iff_two_mul_lt.mpr (by simp only [BitVec.toNat_ofNat]; omega)
  unfold IntOp.remsi
  rw [if_neg hc, BitVec.srem_eq, hm, show (8192#32 : BitVec 32).msb = false from by decide]
  apply BitVec.eq_of_toNat_eq
  simp only [BitVec.toNat_umod, BitVec.toNat_ofNat, Nat.reducePow, Nat.reduceMod]
  omega

/-- The remainder with the divisor's sign: the divisor 8192 is positive and the truncated remainder is not negative, so
    nothing is added back. -/
theorem mirWord (r : Fin 8192) :
    Scalar.select
        (IntOp.andi
          (IntOp.cmpi .ne
            (IntOp.cmpi .slt
              (IntOp.remsi .host (IntOp.addi (BitVec.ofNat 32 r.val) 4096#32)
                (Scalar.select (IntOp.cmpi .eq 8192#32 0#32) 1#32 8192#32)) 0#32)
            (IntOp.cmpi .slt (Scalar.select (IntOp.cmpi .eq 8192#32 0#32) 1#32 8192#32) 0#32))
          (IntOp.cmpi .ne
            (IntOp.remsi .host (IntOp.addi (BitVec.ofNat 32 r.val) 4096#32)
              (Scalar.select (IntOp.cmpi .eq 8192#32 0#32) 1#32 8192#32)) 0#32))
        (IntOp.addi
          (IntOp.remsi .host (IntOp.addi (BitVec.ofNat 32 r.val) 4096#32)
            (Scalar.select (IntOp.cmpi .eq 8192#32 0#32) 1#32 8192#32))
          (Scalar.select (IntOp.cmpi .eq 8192#32 0#32) 1#32 8192#32))
        (IntOp.remsi .host (IntOp.addi (BitVec.ofNat 32 r.val) 4096#32)
          (Scalar.select (IntOp.cmpi .eq 8192#32 0#32) 1#32 8192#32))
      = BitVec.ofNat 32 ((r.val + 4096) % 8192) := by
  have hM : Scalar.select (IntOp.cmpi .eq 8192#32 0#32) 1#32 8192#32 = 8192#32 := by decide
  rw [hM, remWord]
  have hlt : (r.val + 4096) % 8192 < 8192 := Nat.mod_lt _ (by decide)
  have hneg : IntOp.cmpi .slt (BitVec.ofNat 32 ((r.val + 4096) % 8192)) 0#32 = 0#1 := by
    apply eq_zero_of_ne_one
    intro h
    have := (StableHlo.Predicate.slt_iff_toNat (a := BitVec.ofNat 32 ((r.val + 4096) % 8192)) (b := 0#32)
      (by simp only [BitVec.toNat_ofNat]; omega) (by decide)).mp h
    simp at this
  rw [hneg, show IntOp.cmpi .slt 8192#32 0#32 = 0#1 from by decide,
    show IntOp.cmpi .ne 0#1 0#1 = 0#1 from by decide]
  have hand : ∀ b : BitVec 1, IntOp.andi 0#1 b = 0#1 := by decide
  rw [hand, select_zero]

/-- An index below 2³¹ is not negative: the wrap of negative indices leaves it as it is. -/
theorem wrapWord (n : Nat) (hn : n < 2 ^ 31) :
    Scalar.select (IntOp.cmpi .slt (BitVec.ofNat 32 n) 0#32) (IntOp.addi (BitVec.ofNat 32 n) 8192#32) (BitVec.ofNat 32 n)
      = BitVec.ofNat 32 n := by
  have hneg : IntOp.cmpi .slt (BitVec.ofNat 32 n) 0#32 = 0#1 := by
    apply eq_zero_of_ne_one
    intro h
    have := (StableHlo.Predicate.slt_iff_toNat (a := BitVec.ofNat 32 n) (b := 0#32)
      (by simp only [BitVec.toNat_ofNat]; omega) (by decide)).mp h
    simp at this
  rw [hneg, select_zero]

/-- The position a start-index word names in an axis of extent 8192: read signed, clamped into the axis. -/
def posOf (w : BitVec 32) : Fin 8192 := ⟨min w.toInt.toNat (8192 - 1), by omega⟩

/-- The word of a position below 8192 names that position. -/
theorem posOf_ofNat (p : Fin 8192) : posOf (BitVec.ofNat 32 p.val) = p := by
  have hp := p.isLt
  refine Fin.ext ?_
  show min (BitVec.ofNat 32 p.val).toInt.toNat (8192 - 1) = p.val
  rw [StableHlo.Predicate.toInt_ofNat_small p.val (by omega), Int.toNat_natCast]
  omega

/-! ## The index tables and the gathers -/

/-- Two columns side by side read, at column 0, the first. -/
theorem pair_apply_0 (a b : IVec S8192x1 32) (h : Shape.Concatenates [S8192x1, S8192x1] S8192x2 1) (r : Fin 8192) :
    concatenate S8192x2 1 [⟨S8192x1, a⟩, ⟨S8192x1, b⟩] h (ix2 r (0 : Fin 2)) = a (ix2 r (0 : Fin 1)) := by
  refine concatenate_pair_apply_left (1 : Fin S8192x2.rank) a b h (ix2 r (0 : Fin 2)) rfl (ix2 r (0 : Fin 1)) fun c => ?_
  match c with
  | ⟨0, _⟩ => rfl
  | ⟨1, _⟩ => rfl

/-- Two columns side by side read, at column 1, the second. -/
theorem pair_apply_1 (a b : IVec S8192x1 32) (h : Shape.Concatenates [S8192x1, S8192x1] S8192x2 1) (r : Fin 8192) :
    concatenate S8192x2 1 [⟨S8192x1, a⟩, ⟨S8192x1, b⟩] h (ix2 r (1 : Fin 2)) = b (ix2 r (0 : Fin 1)) := by
  refine concatenate_pair_apply_right (1 : Fin S8192x2.rank) a b h (ix2 r (1 : Fin 2)) rfl rfl (ix2 r (0 : Fin 1))
    (fun c hc => ?_) ?_
  · match c with
    | ⟨0, _⟩ => rfl
    | ⟨1, _⟩ => exact absurd rfl hc
  · rfl

section Gather
variable [Facts₀]

/-- The operand's row coordinate the gather reads at `r`: the position the table's first entry there names. -/
theorem gather_coord_0 (idx : IVec S8192x2 32) (r : Fin 8192) :
    gather_S8192x8192_S8192x2_S8192_n_01_n_n_01_1_11.start (ix1 r) idx 0 + gather_S8192x8192_S8192x2_S8192_n_01_n_n_01_1_11.batchCoord (ix1 r) 0 + gather_S8192x8192_S8192x2_S8192_n_01_n_n_01_1_11.offCoord (ix1 r) 0
      = (posOf (idx (ix2 r (0 : Fin 2)))).val := by
  have hm : (0 : Fin S8192x8192.rank) ∈ gather_S8192x8192_S8192x2_S8192_n_01_n_n_01_1_11.startIndexMap := List.mem_cons_self
  rw [GatherDims.batchCoord_eq_zero _ _ _ List.not_mem_nil,
    GatherDims.offCoord_eq_zero _ _ _ (fun h => ((GatherDims.mem_sKept _ _).mp h).1 List.mem_cons_self)]
  unfold GatherDims.start
  rw [dif_pos hm]
  have hsi : gather_S8192x8192_S8192x2_S8192_n_01_n_n_01_1_11.siIdx (ix1 r) ⟨List.idxOf (0 : Fin S8192x8192.rank) gather_S8192x8192_S8192x2_S8192_n_01_n_n_01_1_11.startIndexMap, List.idxOf_lt_length_iff.2 hm⟩
      = ix2 r (0 : Fin 2) := by
    funext b; refine Fin.ext ?_
    match b with
    | ⟨0, _⟩ => rfl
    | ⟨1, _⟩ => rfl
  rw [hsi]
  rfl

/-- The operand's column coordinate the gather reads at `r`: the position the table's second entry there names. -/
theorem gather_coord_1 (idx : IVec S8192x2 32) (r : Fin 8192) :
    gather_S8192x8192_S8192x2_S8192_n_01_n_n_01_1_11.start (ix1 r) idx 1 + gather_S8192x8192_S8192x2_S8192_n_01_n_n_01_1_11.batchCoord (ix1 r) 1 + gather_S8192x8192_S8192x2_S8192_n_01_n_n_01_1_11.offCoord (ix1 r) 1
      = (posOf (idx (ix2 r (1 : Fin 2)))).val := by
  have hm : (1 : Fin S8192x8192.rank) ∈ gather_S8192x8192_S8192x2_S8192_n_01_n_n_01_1_11.startIndexMap := List.mem_cons_of_mem _ List.mem_cons_self
  rw [GatherDims.batchCoord_eq_zero _ _ _ List.not_mem_nil,
    GatherDims.offCoord_eq_zero _ _ _ (fun h => ((GatherDims.mem_sKept _ _).mp h).1 (List.mem_cons_of_mem _ List.mem_cons_self))]
  unfold GatherDims.start
  rw [dif_pos hm]
  have hsi : gather_S8192x8192_S8192x2_S8192_n_01_n_n_01_1_11.siIdx (ix1 r) ⟨List.idxOf (1 : Fin S8192x8192.rank) gather_S8192x8192_S8192x2_S8192_n_01_n_n_01_1_11.startIndexMap, List.idxOf_lt_length_iff.2 hm⟩
      = ix2 r (1 : Fin 2) := by
    funext b; refine Fin.ext ?_
    match b with
    | ⟨0, _⟩ => rfl
    | ⟨1, _⟩ => rfl
  rw [hsi]
  rfl

/-- The gather of single entries by a table of (row, column) pairs reads, at `r`, the entry at the positions the pair
    at `r` names. -/
theorem gather_apply (E : FVec Ideal S8192x8192 .f32) (idx : IVec S8192x2 32) (r : Fin 8192) :
    Host.gather gather_S8192x8192_S8192x2_S8192_n_01_n_n_01_1_11 E idx (ix1 r)
      = mat2 E (posOf (idx (ix2 r (0 : Fin 2)))) (posOf (idx (ix2 r (1 : Fin 2)))) := by
  unfold Host.gather mat2
  refine congrArg E (funext fun a => Fin.ext ?_)
  show gather_S8192x8192_S8192x2_S8192_n_01_n_n_01_1_11.start (ix1 r) idx a + gather_S8192x8192_S8192x2_S8192_n_01_n_n_01_1_11.batchCoord (ix1 r) a + gather_S8192x8192_S8192x2_S8192_n_01_n_n_01_1_11.offCoord (ix1 r) a = _
  match a with
  | ⟨0, _⟩ => exact gather_coord_0 idx r
  | ⟨1, _⟩ => exact gather_coord_1 idx r

end Gather

/-! ## The index columns at a row -/

/-- The row-index column: the position `r`, not negative, left as it is by the wrap of negative indices. -/
theorem rowIdx_apply (hb : S_.BroadcastsInDim S8192 (![] : Fin 0 → Fin S8192.rank)) (r : Fin 8192) :
    (select (cmpi .slt (iotaInDim S8192 32 0) (broadcastInDim S8192 ![] hb (constantI S_ 32 0#32))) (addi (iotaInDim S8192 32 0) (broadcastInDim S8192 ![] hb (constantI S_ 32 8192#32))) (iotaInDim S8192 32 0)) (ix1 r) = BitVec.ofNat 32 r.val := by
  have hr := r.isLt
  exact wrapWord r.val (by omega)

/-- The partner-column index: `r + 4096` reduced modulo 8192 with the divisor's sign, then the wrap of negative indices,
    which leaves it as it is. -/
theorem partnerIdx_apply (hb : S_.BroadcastsInDim S8192 (![] : Fin 0 → Fin S8192.rank)) (r : Fin 8192) :
    (select (cmpi .slt (select (andi (cmpi .ne (cmpi .slt (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32))) (broadcastInDim S8192 ![] hb (cmpi .slt (select (cmpi .eq (id (constantI S_ 32 8192#32)) (constantI S_ 32 0#32)) (constantI S_ 32 1#32) (id (constantI S_ 32 8192#32))) (constantI S_ 32 0#32)))) (cmpi .ne (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32)))) (addi (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (select (cmpi .eq (id (constantI S_ 32 8192#32)) (constantI S_ 32 0#32)) (constantI S_ 32 1#32) (id (constantI S_ 32 8192#32))))) (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32)))))) (broadcastInDim S8192 ![] hb (constantI S_ 32 0#32))) (addi (select (andi (cmpi .ne (cmpi .slt (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32))) (broadcastInDim S8192 ![] hb (cmpi .slt (select (cmpi .eq (id (constantI S_ 32 8192#32)) (constantI S_ 32 0#32)) (constantI S_ 32 1#32) (id (constantI S_ 32 8192#32))) (constantI S_ 32 0#32)))) (cmpi .ne (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32)))) (addi (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (select (cmpi .eq (id (constantI S_ 32 8192#32)) (constantI S_ 32 0#32)) (constantI S_ 32 1#32) (id (constantI S_ 32 8192#32))))) (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32)))))) (broadcastInDim S8192 ![] hb (constantI S_ 32 8192#32))) (select (andi (cmpi .ne (cmpi .slt (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32))) (broadcastInDim S8192 ![] hb (cmpi .slt (select (cmpi .eq (id (constantI S_ 32 8192#32)) (constantI S_ 32 0#32)) (constantI S_ 32 1#32) (id (constantI S_ 32 8192#32))) (constantI S_ 32 0#32)))) (cmpi .ne (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32)))) (addi (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (select (cmpi .eq (id (constantI S_ 32 8192#32)) (constantI S_ 32 0#32)) (constantI S_ 32 1#32) (id (constantI S_ 32 8192#32))))) (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))))) (ix1 r) = BitVec.ofNat 32 (Cert.Spec.mir r).val := by
  have hlt : (r.val + 4096) % 8192 < 8192 := Nat.mod_lt _ (by decide)
  have h18 : (select (andi (cmpi .ne (cmpi .slt (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32))) (broadcastInDim S8192 ![] hb (cmpi .slt (select (cmpi .eq (id (constantI S_ 32 8192#32)) (constantI S_ 32 0#32)) (constantI S_ 32 1#32) (id (constantI S_ 32 8192#32))) (constantI S_ 32 0#32)))) (cmpi .ne (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32)))) (addi (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (select (cmpi .eq (id (constantI S_ 32 8192#32)) (constantI S_ 32 0#32)) (constantI S_ 32 1#32) (id (constantI S_ 32 8192#32))))) (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32)))))) (ix1 r) = BitVec.ofNat 32 ((r.val + 4096) % 8192) := mirWord r
  show Scalar.select (IntOp.cmpi .slt ((select (andi (cmpi .ne (cmpi .slt (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32))) (broadcastInDim S8192 ![] hb (cmpi .slt (select (cmpi .eq (id (constantI S_ 32 8192#32)) (constantI S_ 32 0#32)) (constantI S_ 32 1#32) (id (constantI S_ 32 8192#32))) (constantI S_ 32 0#32)))) (cmpi .ne (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32)))) (addi (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (select (cmpi .eq (id (constantI S_ 32 8192#32)) (constantI S_ 32 0#32)) (constantI S_ 32 1#32) (id (constantI S_ 32 8192#32))))) (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32)))))) (ix1 r)) 0#32) (IntOp.addi ((select (andi (cmpi .ne (cmpi .slt (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32))) (broadcastInDim S8192 ![] hb (cmpi .slt (select (cmpi .eq (id (constantI S_ 32 8192#32)) (constantI S_ 32 0#32)) (constantI S_ 32 1#32) (id (constantI S_ 32 8192#32))) (constantI S_ 32 0#32)))) (cmpi .ne (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32)))) (addi (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (select (cmpi .eq (id (constantI S_ 32 8192#32)) (constantI S_ 32 0#32)) (constantI S_ 32 1#32) (id (constantI S_ 32 8192#32))))) (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32)))))) (ix1 r)) 8192#32) ((select (andi (cmpi .ne (cmpi .slt (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32))) (broadcastInDim S8192 ![] hb (cmpi .slt (select (cmpi .eq (id (constantI S_ 32 8192#32)) (constantI S_ 32 0#32)) (constantI S_ 32 1#32) (id (constantI S_ 32 8192#32))) (constantI S_ 32 0#32)))) (cmpi .ne (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (constantI S_ 32 0#32)))) (addi (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32))))) (broadcastInDim S8192 ![] hb (select (cmpi .eq (id (constantI S_ 32 8192#32)) (constantI S_ 32 0#32)) (constantI S_ 32 1#32) (id (constantI S_ 32 8192#32))))) (Host.remsi (addi (iotaInDim S8192 32 0) (broadcastInDim S8192 ![] hb (constantI S_ 32 4096#32))) (broadcastInDim S8192 ![] hb (select (cmpi .eq (id (constantI S_ 32 8192#32)) (constantI S_ 32 0#32)) (constantI S_ 32 1#32) (id (constantI S_ 32 8192#32)))))) (ix1 r)) = _
  rw [h18]
  exact wrapWord _ (by omega)

/-! ## The reference's term is the specification's second spelling -/

variable [Facts]

/-- Read stage by stage from the result back to the arguments: the mean of the row losses, each the negated logarithm of
    the partner entry over its sum with the row's other off-diagonal entries, of the exponentiated scaled inner products
    of the stacked normalised rows. -/
theorem refTerm_eq (x y : Vec Ideal S4096x256 .f32) :
    refTerm (F := Ideal) x y = fun _ => Cert.Spec.GR (Cert.Spec.matOf x) (Cert.Spec.matOf y) := by
  funext j
  unfold refTerm
  dsimp only
  rw [hostDivf_apply, constant_apply, total_apply]
  unfold Cert.Spec.GR Cert.Spec.meanOf
  refine congrArg (fun s => Ideal.div s Cert.Spec.nV) (Finset.sum_congr rfl fun r _ => ?_)
  rw [hostNegf_apply, hostLog_apply, hostDivf_apply, addf_apply, subf_apply, subf_apply, rowSum_apply]
  repeat rw [gather_apply]
  repeat rw [pair_apply_0]
  repeat rw [pair_apply_1]
  repeat rw [bcast_col_apply]
  rw [rowIdx_apply, partnerIdx_apply]
  repeat rw [posOf_ofNat]
  rw [expDiv_fun, zcat_fun, nrm_fun, nrm_fun]
  rfl

end Cert.ReferenceIdeal.Hand

end
-- ==== Proof.RefValue.lean ====
/-
  The reference's run ends with its result at the specification's second spelling of the two arguments, and the
  arguments unchanged: its host run, with the composed term read at the extended reals.
-/
import proofs.«157580_j19722489823618_1_alg».proof.Proof.RefRun
import proofs.«157580_j19722489823618_1_alg».proof.Proof.RefRead
import proofs.«157580_j19722489823618_1_alg».proof.Proof.Spec

noncomputable section

namespace Cert.ReferenceIdeal.Hand

open Idealize.ShloMosaic Idealize.ShloMosaic.TcCoe Idealize.SL.Sem
open Cert.ReferenceIdeal

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = (fun _ => Cert.Spec.GR (Cert.Spec.matOf (m ((c.tc : Thread nD τ).loc main_arg0))) (Cert.Spec.matOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨(h c).1.trans (refTerm_eq _ _), (h c).2⟩) (run (F := Ideal) m ρ)

end Cert.ReferenceIdeal.Hand

end
-- ==== Proof.SpecLaw.lean ====
/-
  The two spellings of the result agree on real inputs.

  On real inputs every stage is the coercion of a real: the normalised rows (the divisor, the larger of a
  square root and a positive constant, is a positive real), the stacked array, the inner products (a finite
  sum of products of reals), and the exponentials, which are positive reals. The product with 2²⁷ / 9395241
  and the quotient by 9395241 / 2²⁷ are the same real. In each row the sum of the entries other than the
  diagonal one is at least the positive entry, hence positive, and
  (0 - log p) + log t = -(log (p / (p + (t - p)))) for positive reals p, t by the logarithm of a quotient.
-/
import proofs.«157580_j19722489823618_1_alg».proof.Proof.Spec
import Mathlib.Analysis.SpecialFunctions.Log.Basic
import Mathlib.Algebra.Order.BigOperators.Group.Finset

noncomputable section

namespace Cert.Spec

open Idealize.ShloMosaic

namespace Law

/-- The coercion of the reals into the extended reals commutes with a finite sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The guard's word denotes a positive real, 9223372 · 2⁻⁶³. -/
theorem epsV_pos : ∃ e : ℝ, 0 < e ∧ epsV = (e : EReal) := by
  refine ⟨9223372 * (2 : ℝ) ^ (-63 : ℤ), by positivity, ?_⟩
  simp [epsV, Ideal.ofBits, Ideal.ieee, -EReal.coe_mul]

/-- The temperature's word denotes 9395241 / 2²⁷. -/
theorem DV_eq : DV = ((9395241 / 134217728 : ℝ) : EReal) := by
  simp [DV, Ideal.ofBits, Ideal.ieee, -EReal.coe_mul]; norm_num

/-- A row-normalised array of reals is an array of reals: the divisor, the larger of the square root of a
    sum of squares and the positive guard, is a positive real. -/
theorem nrm_real (x : Fin 4096 → Fin 256 → EReal) (hx : ∀ r d, ∃ y : ℝ, x r d = (y : EReal))
    (r : Fin 4096) (d : Fin 256) : ∃ y : ℝ, nrm x r d = (y : EReal) := by
  choose xr hxr using hx
  obtain ⟨e, he, hE⟩ := epsV_pos
  have hS : (∑ k : Fin 256, x r k * x r k) = ((∑ k : Fin 256, xr r k * xr r k : ℝ) : EReal) := by
    rw [← coe_sum]
    refine Finset.sum_congr rfl (fun k _ => ?_)
    rw [hxr, EReal.coe_mul]
  have hS0 : ¬ (∑ k : Fin 256, xr r k * xr r k) < 0 :=
    not_lt.2 (Finset.sum_nonneg (fun k _ => mul_self_nonneg _))
  have hm : max (Ideal.sqrt (∑ k : Fin 256, x r k * x r k)) epsV
      = ((max (Real.sqrt (∑ k : Fin 256, xr r k * xr r k)) e : ℝ) : EReal) := by
    rw [hS, Ideal.sqrt_coe, if_neg hS0, hE]
    exact (EReal.coe_strictMono.monotone.map_max).symm
  have hmpos : (0 : ℝ) < max (Real.sqrt (∑ k : Fin 256, xr r k * xr r k)) e := lt_max_of_lt_right he
  refine ⟨xr r d * (1 / max (Real.sqrt (∑ k : Fin 256, xr r k * xr r k)) e), ?_⟩
  rw [nrm, hm, Ideal.div_coe hmpos.ne', hxr, EReal.coe_mul]

/-- Two arrays of reals stacked are an array of reals. -/
theorem zcat_real (a b : Fin 4096 → Fin 256 → EReal) (ha : ∀ r d, ∃ y : ℝ, a r d = (y : EReal))
    (hb : ∀ r d, ∃ y : ℝ, b r d = (y : EReal)) (r : Fin 8192) (d : Fin 256) :
    ∃ y : ℝ, zcat a b r d = (y : EReal) := by
  unfold zcat
  split
  · exact ha _ _
  · exact hb _ _

/-- The inner product of two rows of reals is the real inner product. -/
theorem gram_coe (z : Fin 8192 → Fin 256 → ℝ) (r c : Fin 8192) :
    gram (fun r d => (z r d : EReal)) r c = ((∑ d : Fin 256, z r d * z c d : ℝ) : EReal) := by
  rw [gram, ← coe_sum]
  exact Finset.sum_congr rfl (fun d _ => (EReal.coe_mul _ _).symm)

/-- The exponentiated similarity with the product scale, on reals. -/
theorem expMul_coe (z : Fin 8192 → Fin 256 → ℝ) (r c : Fin 8192) :
    expMul (fun r d => (z r d : EReal)) r c
      = ((Real.exp ((∑ d : Fin 256, z r d * z c d) * (134217728 / 9395241)) : ℝ) : EReal) := by
  rw [expMul, gram_coe, kV, ← EReal.coe_mul, Ideal.exp_coe]

/-- The exponentiated similarity with the quotient scale, on reals: the quotient by 9395241 / 2²⁷ is the
    product with 2²⁷ / 9395241. -/
theorem expDiv_coe (z : Fin 8192 → Fin 256 → ℝ) (r c : Fin 8192) :
    expDiv (fun r d => (z r d : EReal)) r c
      = ((Real.exp ((∑ d : Fin 256, z r d * z c d) * (134217728 / 9395241)) : ℝ) : EReal) := by
  rw [expDiv, gram_coe, DV_eq, Ideal.div_coe (by norm_num), ← EReal.coe_mul, Ideal.exp_coe]
  norm_num

/-- A row's positive partner is another row. -/
theorem mir_ne (r : Fin 8192) : mir r ≠ r := by
  intro h
  have h' := congrArg Fin.val h
  simp only [mir] at h'
  omega

/-- On positive real entries the two spellings of the row loss agree: the off-diagonal sum `t` is at least the
    positive entry `p`, so both are positive, and `-(log (p / t)) = (0 - log p) + log t`. -/
theorem loss_eq (e : Fin 8192 → Fin 8192 → ℝ) (hpos : ∀ r c, 0 < e r c) (r : Fin 8192) :
    lossSub (fun r c => (e r c : EReal)) r = lossQuot (fun r c => (e r c : EReal)) r := by
  have hp := hpos r (mir r)
  have hsd : 0 < (∑ c : Fin 8192, e r c) - e r r := by
    have h1 : e r r + ∑ c ∈ Finset.univ.erase r, e r c = ∑ c : Fin 8192, e r c :=
      Finset.add_sum_erase _ _ (Finset.mem_univ r)
    have h2 : e r (mir r) ≤ ∑ c ∈ Finset.univ.erase r, e r c :=
      Finset.single_le_sum (f := fun c => e r c) (fun c _ => (hpos r c).le)
        (Finset.mem_erase.2 ⟨mir_ne r, Finset.mem_univ _⟩)
    linarith
  have hq : 0 < e r (mir r) * (1 / ((∑ c : Fin 8192, e r c) - e r r)) := by
    rw [mul_one_div]; exact div_pos hp hsd
  have hden : (e r (mir r) : EReal)
      + ((((∑ c : Fin 8192, e r c : ℝ) : EReal) - (e r r : EReal)) - (e r (mir r) : EReal))
      = (((∑ c : Fin 8192, e r c) - e r r : ℝ) : EReal) := by
    rw [← EReal.coe_sub, ← EReal.coe_sub, ← EReal.coe_add]
    congr 1
    ring
  rw [lossSub, lossQuot, coe_sum, hden, Ideal.div_coe hsd.ne', ← EReal.coe_mul, ← EReal.coe_sub,
    Ideal.log_coe, Ideal.log_coe, Ideal.log_coe, if_neg (not_le.2 hp), if_neg (not_le.2 hsd),
    if_neg (not_le.2 hq), ← EReal.coe_zero, ← EReal.coe_sub, ← EReal.coe_add, ← EReal.coe_neg,
    mul_one_div, Real.log_div hp.ne' hsd.ne']
  congr 1
  ring

end Law

open Law in
/-- The two spellings of the result agree on real inputs. -/
theorem GK_eq_GR (a b : Fin 4096 → Fin 256 → EReal)
    (ha : ∀ r d, ∃ x : ℝ, a r d = (x : EReal)) (hb : ∀ r d, ∃ x : ℝ, b r d = (x : EReal)) :
    GK a b = GR a b := by
  have hz : ∀ r d, ∃ y : ℝ, zcat (nrm a) (nrm b) r d = (y : EReal) :=
    zcat_real _ _ (nrm_real a ha) (nrm_real b hb)
  choose z hz using hz
  have hZ : zcat (nrm a) (nrm b) = fun r d => (z r d : EReal) := funext fun r => funext fun d => hz r d
  have hM : expMul (fun r d => (z r d : EReal))
      = fun r c => ((Real.exp ((∑ d : Fin 256, z r d * z c d) * (134217728 / 9395241)) : ℝ) : EReal) :=
    funext fun r => funext fun c => expMul_coe z r c
  have hD : expDiv (fun r d => (z r d : EReal))
      = fun r c => ((Real.exp ((∑ d : Fin 256, z r d * z c d) * (134217728 / 9395241)) : ℝ) : EReal) :=
    funext fun r => funext fun c => expDiv_coe z r c
  rw [GK, GR, hZ, hM, hD]
  exact congrArg meanOf (funext fun r => loss_eq _ (fun _ _ => Real.exp_pos _) r)

end Cert.Spec

end
-- ==== Proof.Finite.lean ====
/-
  From the precondition to real entries.

  The precondition compares, entry by entry, the absolute value of each of the two 4096 × 256 inputs with the word
  0x7F800000 and takes the conjunction of all the comparisons of each input, then of the two results. At extended
  reals that word is +∞ and the absolute value of `a` is `max a (-a)`, so the precondition says `max a (-a) < ⊤`
  of every entry `a`; an extended real with that property is neither `⊥` nor `⊤`, hence a real number.
-/
import proofs.«157580_j19722489823618_1_alg».proof.Pre_finite_inputs
import Idealize.ShloMosaic.PureOps.Ideal
import Idealize.ShloMosaic.Lib.ReduceAll
import Idealize.ShloMosaic.Lib.ValueIdx

namespace Cert.Finite

open Idealize.ShloMosaic

/-- The scalar shape has one index. -/
instance : Subsingleton Cert.Pre_finite_inputs.S_.Idx := ⟨fun a b => funext fun d => d.elim0⟩

/-- The word 0x7F800000 (sign 0, exponent all ones, fraction 0) denotes +∞. -/
theorem inf_word : Ideal.ofBits .f32 0x7F800000#32 = (⊤ : EReal) := by
  simp [Ideal.ofBits, Ideal.ieee]

/-- An extended real whose absolute value is below +∞ is a real: `max ⊥ (-⊥) = max ⊤ (-⊤) = ⊤`. -/
theorem real_of_abs_lt_top (a : EReal) (h : max a (-a) < ⊤) : ∃ r : ℝ, a = (r : EReal) := by
  induction a using EReal.rec with
  | bot => simp at h
  | coe r => exact ⟨r, rfl⟩
  | top => simp at h

/-- One entry's comparison, read back: the bit `|a| < +∞` being set makes `a` a real. -/
theorem real_of_cmp (a : EReal)
    (h : Ideal.cmp .olt (max a (-a)) (Ideal.ofBits .f32 0x7F800000#32) = 1#1) : ∃ r : ℝ, a = (r : EReal) := by
  rw [inf_word] at h
  refine real_of_abs_lt_top a ?_
  by_contra hn
  simp [Ideal.cmp, hn] at h

/-- Under the precondition every entry of both inputs is a real number: the conjunction of the two reductions
    gives each reduction, a reduction by `and` over all axes that came out 1 gives each of its bits, and each bit
    is one entry's comparison with +∞. -/
theorem real_of_pre [Cert.Pre_finite_inputs.Facts]
    (x y : Vec Ideal Cert.Pre_finite_inputs.S4096x256 .f32)
    (h : Cert.Pre_finite_inputs.fn (F := Ideal) x y = (fun _ => 1#1)) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨fun i => real_of_cmp (x i) (Host.reduce_andi_all _ _ _ _ _ hx i),
    fun i => real_of_cmp (y i) (Host.reduce_andi_all _ _ _ _ _ hy i)⟩

end Cert.Finite
-- ==== Proof.lean ====
/-
  The certificate of the contrastive-loss kernel against its array-level reference.

  Both programs normalise the rows of two 4096 × 256 inputs (each row over the larger of its norm and a guard),
  stack them into 8192 rows, exponentiate the scaled inner products of all pairs of rows, and average over the rows
  the logarithm of the ratio between a row's sum without its diagonal entry and its entry at the partner row 4096
  away. The kernel does it in three regions — two that normalise 1024 rows at a time, and one that walks the
  8192 × 8192 matrix in 512 × 512 tiles keeping a row's running sum, diagonal entry and partner entry in three
  columns of scratch — with the scale a product by the inverse temperature; the reference divides by the
  temperature and writes the row loss as one logarithm of a quotient.

  * The three frames: each program runs to the end from any memory with zero counters, faults nowhere and leaves
    its two arguments as launched. For the two kernel programs this is the run over @main's five items, each region
    entered from the buffer contents the item before it left; for the reference it is its host run.
  * The idealization names one constant: the kernel's scale word is read as the exact reciprocal of the
    reference's temperature word.
  * The value: the idealized kernel ends at `Cert.Spec.GK` of its arguments, the reference at `Cert.Spec.GR`, and the
    two agree on inputs all of whose entries are real numbers — which the precondition says — because then every
    exponential is a positive real, so is a row's sum without its diagonal, and the two spellings of the loss are one.
-/
import proofs.«157580_j19722489823618_1_alg».proof.Defs
import proofs.«157580_j19722489823618_1_alg».proof.Proof.Gen.Kernel
import proofs.«157580_j19722489823618_1_alg».proof.Proof.Gen.KernelIdeal
import proofs.«157580_j19722489823618_1_alg».proof.Proof.Gen.ReferenceIdeal
import proofs.«157580_j19722489823618_1_alg».proof.Proof.Gen.Pre_finite_inputs
import proofs.«157580_j19722489823618_1_alg».proof.Proof.BLaunch
import proofs.«157580_j19722489823618_1_alg».proof.Proof.KValue
import proofs.«157580_j19722489823618_1_alg».proof.Proof.RefValue
import proofs.«157580_j19722489823618_1_alg».proof.Proof.SpecLaw
import proofs.«157580_j19722489823618_1_alg».proof.Proof.Finite
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame_all (F := Bits) m ρ
theorem frame_pi : Cert.frame_KernelIdeal := fun m ρ _ => Cert.KernelIdeal.Hand.frame_all (F := Ideal) m ρ
theorem frame_ri : Cert.frame_ReferenceIdeal := fun m ρ _ =>
  (θ_run Cert.ReferenceIdeal.defs _ _).mono (fun _ h c => (h c).2) (Cert.ReferenceIdeal.Hand.run (F := Ideal) m ρ)

/-- The one named constant: the table gives the scale word the value 2²⁷ / 9395241, the reciprocal of the
    reference's temperature word. -/
theorem preserves : Cert.preserves_Kernel_KernelIdeal :=
  IdealRules.named_const.statement Cert.KernelIdeal.κ "inv_temperature" .f32 0x41649249#32 ((134217728 / 9395241 : ℝ) : EReal) rfl

/-- From memories agreeing on the arguments both idealized programs run, the kernel to `GK` of the arguments and
    the reference to `GR` of them, which are equal because the precondition makes every entry a real. -/
theorem algebraic : Cert.algebraic_KernelIdeal_ReferenceIdeal := by
  intro m ρ m' ρ' hpre hagree
  refine ⟨fun c => fun _ => Cert.Spec.GK
      (Cert.Spec.matOf (m ((c.tc : Thread Cert.KernelIdeal.nD Cert.KernelIdeal.τ).loc Cert.KernelIdeal.main_arg0)))
      (Cert.Spec.matOf (m ((c.tc : Thread Cert.KernelIdeal.nD Cert.KernelIdeal.τ).loc Cert.KernelIdeal.main_arg1))),
    Cert.KernelIdeal.Hand.run_value m ρ, ?_⟩
  refine (θ_run Cert.ReferenceIdeal.defs _ _).mono (fun r h c => ⟨(h c).1.trans ?_, (h c).2⟩)
    (Cert.ReferenceIdeal.Hand.run_value m' ρ')
  rw [(hagree c).1, (hagree c).2]
  have hreal := Cert.Finite.real_of_pre _ _ (hpre c)
  funext _
  exact (Cert.Spec.GK_eq_GR _ _ (fun r d => hreal.1 (ValueIdx.ix2 r d)) (fun r d => hreal.2 (ValueIdx.ix2 r d))).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
